-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x500000 : Shape := ⟨2, ![2, 500000]⟩
abbrev S_ : Shape := ⟨0, ![]⟩
abbrev S1x500000 : Shape := ⟨2, ![1, 500000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  slices_S2x500000_S1x500000_0_0 : S2x500000.Slices ![0, 0] S1x500000
  bcast_S_S1x500000 : S_.BroadcastsInDim S1x500000 (![] : Fin 0 → Fin S1x500000.rank)
  reducesTo_S1x500000_S_d0_1 : S1x500000.ReducesTo [0, 1] S_

variable [Facts]

def fn {F : FTy → Type} [FloatOps F] (main_arg0 : FVec F S50000x128 .f32) (main_arg1 : IVec S2x500000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : IVec S1x500000 32 := (extractStridedSlice S1x500000 ![0, 0] · slices_S2x500000_S1x500000_0_0) main_arg1
  let main_c_0 : IVec S_ 32 := constantI S_ 32 0#32
  let main_v5 : IVec S1x500000 32 := broadcastInDim S1x500000 ![] bcast_S_S1x500000 main_c_0
  let main_v6 : IVec S1x500000 1 := cmpi .sge main_v4 main_v5
  let main_c_1 : IVec S_ 1 := constantI S_ 1 1#1
  let main_v7 : IVec S_ 1 := (fun x v => Host.reduce IntOp.andi x v reducesTo_S1x500000_S_d0_1 h_S_) main_v6 main_c_1
  let main_v8 : IVec S_ 1 := andi main_v3 main_v7
  let main_v9 : IVec S1x500000 32 := (extractStridedSlice S1x500000 ![0, 0] · slices_S2x500000_S1x500000_0_0) main_arg1
  let main_c_2 : IVec S_ 32 := constantI S_ 32 50000#32
  let main_v10 : IVec S1x500000 32 := broadcastInDim S1x500000 ![] bcast_S_S1x500000 main_c_2
  let main_v11 : IVec S1x500000 1 := cmpi .slt main_v9 main_v10
  let main_c_3 : IVec S_ 1 := constantI S_ 1 1#1
  let main_v12 : IVec S_ 1 := (fun x v => Host.reduce IntOp.andi x v reducesTo_S1x500000_S_d0_1 h_S_) main_v11 main_c_3
  let main_v13 : IVec S_ 1 := andi main_v8 main_v12
  main_v13
-- ==== Kernel.lean ====
abbrev S50000x128 : Shape := ⟨2, ![50000, 128]⟩
abbrev S2x500000 : Shape := ⟨2, ![2, 500000]⟩
abbrev S1x500000 : Shape := ⟨2, ![1, 500000]⟩
abbrev S500000 : Shape := ⟨1, ![500000]⟩
abbrev S_ : Shape := ⟨0, ![]⟩
abbrev S3808 : Shape := ⟨1, ![3808]⟩
abbrev S503808 : Shape := ⟨1, ![503808]⟩
abbrev S50176x128 : Shape := ⟨2, ![50176, 128]⟩
abbrev S503808x1 : Shape := ⟨2, ![503808, 1]⟩
abbrev S1x503808 : Shape := ⟨2, ![1, 503808]⟩
abbrev S503808x128 : Shape := ⟨2, ![503808, 128]⟩
abbrev S4096x1 : Shape := ⟨2, ![4096, 1]⟩
abbrev S1024x128 : Shape := ⟨2, ![1024, 128]⟩
abbrev S4096x128 : Shape := ⟨2, ![4096, 128]⟩
abbrev S1x1024 : Shape := ⟨2, ![1, 1024]⟩
abbrev S4096x1024 : Shape := ⟨2, ![4096, 1024]⟩
abbrev S1x4096 : Shape := ⟨2, ![1, 4096]⟩
abbrev S1024x1 : Shape := ⟨2, ![1024, 1]⟩
abbrev S1024x4096 : Shape := ⟨2, ![1024, 4096]⟩

abbrev nBuf : Space → Nat
  | .hbm => 18
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S2x500000, .i32⟩
  | .hbm, ⟨2, _⟩ => ⟨S1x500000, .i32⟩
  | .hbm, ⟨3, _⟩ => ⟨S500000, .i32⟩
  | .hbm, ⟨4, _⟩ => ⟨S1x500000, .i32⟩
  | .hbm, ⟨5, _⟩ => ⟨S500000, .i32⟩
  | .hbm, ⟨6, _⟩ => ⟨S_, .i32⟩
  | .hbm, ⟨7, _⟩ => ⟨S3808, .i32⟩
  | .hbm, ⟨8, _⟩ => ⟨S503808, .i32⟩
  | .hbm, ⟨9, _⟩ => ⟨S503808, .i32⟩
  | .hbm, ⟨10, _⟩ => ⟨S_, .i32⟩
  | .hbm, ⟨11, _⟩ => ⟨S_, .f32⟩
  | .hbm, ⟨12, _⟩ => ⟨S50176x128, .f32⟩
  | .hbm, ⟨13, _⟩ => ⟨S503808x1, .i32⟩
  | .hbm, ⟨14, _⟩ => ⟨S1x503808, .i32⟩
  | .hbm, ⟨15, _⟩ => ⟨S503808x128, .bf16⟩
  | .hbm, ⟨16, _⟩ => ⟨S50176x128, .f32⟩
  | .hbm, ⟨17, _⟩ => ⟨S50000x128, .f32⟩
  | .local _ .vmem, ⟨0, _⟩ => ⟨S4096x1, .i32⟩
  | .local _ .vmem, ⟨1, _⟩ => ⟨S4096x1, .i32⟩
  | .local _ .vmem, ⟨2, _⟩ => ⟨S1024x128, .f32⟩
  | .local _ .vmem, ⟨3, _⟩ => ⟨S1024x128, .f32⟩
  | .local _ .vmem, ⟨4, _⟩ => ⟨S4096x128, .bf16⟩
  | .local _ .vmem, ⟨5, _⟩ => ⟨S4096x128, .bf16⟩
  | .local _ .vmem, ⟨6, _⟩ => ⟨S4096x128, .f32⟩
  | .local _ .vmem, ⟨7, _⟩ => ⟨S1x4096, .i32⟩
  | .local _ .vmem, ⟨8, _⟩ => ⟨S1x4096, .i32⟩
  | .local _ .vmem, ⟨9, _⟩ => ⟨S4096x128, .bf16⟩
  | .local _ .vmem, ⟨10, _⟩ => ⟨S4096x128, .bf16⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c_0 : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![123, 49], ![false, false]⟩

def k0_cond2 (i : grid0.Coords) : BitVec 1 :=
  let arg1 : BitVec 32 := BitVec.ofNat 32 (i 1).val
  let c48_i32 : BitVec 32 := 48#32
  let v24 : BitVec 1 := Scalar.cmpi .eq arg1 c48_i32
  let v25 : BitVec 32 := Scalar.extui v24
  let c0_i32_8 : BitVec 32 := 0#32
  let v26 : BitVec 1 := Scalar.cmpi .ne v25 c0_i32_8
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![49, 123], ![false, false]⟩

def k1_cond2 (i : grid1.Coords) : BitVec 1 :=
  let arg1 : BitVec 32 := BitVec.ofNat 32 (i 1).val
  let c122_i32 : BitVec 32 := 122#32
  let v23 : BitVec 1 := Scalar.cmpi .eq arg1 c122_i32
  let v24 : BitVec 32 := Scalar.extui v23
  let c0_i32_8 : BitVec 32 := 0#32
  let v25 : BitVec 1 := Scalar.cmpi .ne v24 c0_i32_8
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x4096 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S3808 : S_.BroadcastsInDim S3808 (![] : Fin 0 → Fin S3808.rank)
  concatenates_S500000_S3808_S503808_d0 : Shape.Concatenates [S500000, S3808] S503808 0
  pads_S50000x128_S50176x128_01760_000 : S50000x128.Pads (![0, 0] : Fin 2 → Nat) ![176, 0] ![0, 0] S50176x128
  h_S_ : 0 < S_.numel
  shapeCasts_S503808_S503808x1 : S503808.ShapeCasts S503808x1
  shapeCasts_S503808_S1x503808 : S503808.ShapeCasts S1x503808
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  iota_S1x1024_d1_w32 : S1x1024.Iotas .tc 32 [1]
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x1024 : S4096x1.Broadcasts S4096x1024
  broadcasts_S1x1024_S4096x1024 : S1x1024.Broadcasts S4096x1024
  natLt_1_32 : 1 < 32
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  packedbf16_S4096x128_S4096x128_0_0 : (Rect.unit (s := S4096x128) ![0, 0] S4096x128.size inb_S4096x128_S4096x128_0_0).PackedRows (EltTy.packing .bf16)
  iota_S1024x1_d0_w32 : S1024x1.Iotas .tc 32 [0]
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1024x1_S1024x4096 : S1024x1.Broadcasts S1024x4096
  broadcasts_S1x4096_S1024x4096 : S1x4096.Broadcasts S1024x4096
  slices_S50176x128_S50000x128_0_0 : S50176x128.Slices ![0, 0] S50000x128
  dot_S4096x1024_S1024x128_S4096x128_1_0_0_1_n_n_wf : DotDims.WF S4096x1024 S1024x128 S4096x128 [1] [0] [0] [1] [] []
  dot_S1024x4096_S4096x128_S1024x128_1_0_0_1_n_n_wf : DotDims.WF S1024x4096 S4096x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x1.size a ≤ S503808x1.size a
  hwx0_0 : ∀ i : grid0.Coords, EltTy.bits .i32 = 32 ∨ (Rect.block (s := S503808x1) S4096x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S50176x128.size a
  hwx0_1 : ∀ i : grid0.Coords, EltTy.bits .f32 = 32 ∨ (Rect.block (s := S50176x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S503808x128.size a
  hwx0_2 : ∀ i : grid0.Coords, EltTy.bits .bf16 = 32 ∨ (Rect.block (s := S503808x128) S4096x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096.size a ≤ S1x503808.size a
  hwx1_0 : ∀ i : grid1.Coords, EltTy.bits .i32 = 32 ∨ (Rect.block (s := S1x503808) S1x4096.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S503808x128.size a
  hwx1_1 : ∀ i : grid1.Coords, EltTy.bits .bf16 = 32 ∨ (Rect.block (s := S503808x128) S4096x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S50176x128.size a
  hwx1_2 : ∀ i : grid1.Coords, EltTy.bits .f32 = 32 ∨ (Rect.block (s := S50176x128) S1024x128.size (cc1_transform_2 i) (hinb1_2 i)).WholeWords (EltTy.packing .f32)

variable [Facts₀]

def dot_S4096x1024_S1024x128_S4096x128_1_0_0_1_n_n : DotDims S4096x1024 S1024x128 S4096x128 where
  lhsContracting := [1]
  rhsContracting := [0]
  lhsNonContracting := [0]
  rhsNonContracting := [1]
  lhsBatch := []
  rhsBatch := []
  wf := dot_S4096x1024_S1024x128_S4096x128_1_0_0_1_n_n_wf
def dot_S1024x4096_S4096x128_S1024x128_1_0_0_1_n_n : DotDims S1024x4096 S4096x128 S1024x128 where
  lhsContracting := [1]
  rhsContracting := [0]
  lhsNonContracting := [0]
  rhsNonContracting := [1]
  lhsBatch := []
  rhsBatch := []
  wf := dot_S1024x4096_S4096x128_S1024x128_1_0_0_1_n_n_wf

abbrev win0_0 : Pipeline.Window sig grid0 :=
  Pipeline.Window.ofSpec (Memref.whole main_v8) S4096x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S4096x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v9) S1x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1024x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S50000x128 : Shape := ⟨2, ![50000, 128]⟩
abbrev S2x500000 : Shape := ⟨2, ![2, 500000]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S1 : Shape := ⟨1, ![1]⟩
abbrev S1x1 : Shape := ⟨2, ![1, 1]⟩
abbrev S500000x128 : Shape := ⟨2, ![500000, 128]⟩

abbrev nBuf : Space → Nat
  | .hbm => 33
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x500000, .i32⟩
  | .hbm, ⟨2, _⟩ => ⟨S1x500000, .i32⟩
  | .hbm, ⟨3, _⟩ => ⟨S500000, .i32⟩
  | .hbm, ⟨4, _⟩ => ⟨S1x500000, .i32⟩
  | .hbm, ⟨5, _⟩ => ⟨S500000, .i32⟩
  | .hbm, ⟨6, _⟩ => ⟨S_, .i32⟩
  | .hbm, ⟨7, _⟩ => ⟨S500000, .i32⟩
  | .hbm, ⟨8, _⟩ => ⟨S500000, .i1⟩
  | .hbm, ⟨9, _⟩ => ⟨S_, .i32⟩
  | .hbm, ⟨10, _⟩ => ⟨S500000, .i32⟩
  | .hbm, ⟨11, _⟩ => ⟨S500000, .i32⟩
  | .hbm, ⟨12, _⟩ => ⟨S500000, .i32⟩
  | .hbm, ⟨13, _⟩ => ⟨S500000x1, .i32⟩
  | .hbm, ⟨14, _⟩ => ⟨S1, .i32⟩
  | .hbm, ⟨15, _⟩ => ⟨S_, .i32⟩
  | .hbm, ⟨16, _⟩ => ⟨S500000x1, .i32⟩
  | .hbm, ⟨17, _⟩ => ⟨S500000x1, .i1⟩
  | .hbm, ⟨18, _⟩ => ⟨S1x1, .i32⟩
  | .hbm, ⟨19, _⟩ => ⟨S500000x1, .i32⟩
  | .hbm, ⟨20, _⟩ => ⟨S500000x1, .i1⟩
  | .hbm, ⟨21, _⟩ => ⟨S500000x1, .i1⟩
  | .hbm, ⟨22, _⟩ => ⟨S_, .i1⟩
  | .hbm, ⟨23, _⟩ => ⟨S500000, .i1⟩
  | .hbm, ⟨24, _⟩ => ⟨S500000x128, .f32⟩
  | .hbm, ⟨25, _⟩ => ⟨S500000x128, .i1⟩
  | .hbm, ⟨26, _⟩ => ⟨S_, .f32⟩
  | .hbm, ⟨27, _⟩ => ⟨S500000x128, .f32⟩
  | .hbm, ⟨28, _⟩ => ⟨S500000x128, .f32⟩
  | .hbm, ⟨29, _⟩ => ⟨S_, .f32⟩
  | .hbm, ⟨30, _⟩ => ⟨S50000x128, .f32⟩
  | .hbm, ⟨31, _⟩ => ⟨S500000x1, .i32⟩
  | .hbm, ⟨32, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v4 : Ref sig .tc := ⟨.hbm, 28, rfl⟩
abbrev main_cst : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  bcast_S500000_S500000x128_0 : S500000.BroadcastsInDim S500000x128 (![0] : Fin 1 → Fin S500000x128.rank)
  bcast_S_S500000x128 : S_.BroadcastsInDim S500000x128 (![] : Fin 0 → Fin S500000x128.rank)
  bcast_S_S50000x128 : S_.BroadcastsInDim S50000x128 (![] : Fin 0 → Fin S50000x128.rank)
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf

class Facts : Prop extends Facts₀ where

variable [Facts]
-- ==== Proof.Kernel.Data.lean ====
/-
  The two pipelined calls of the program, read as mathematics.

  Call 0 (the gather) walks a grid of 123 edge blocks by 49 node blocks, the node block moving fastest. At a point
  (e, n) it compares the 4096 source indices of edge block e with the 1024 node numbers of node block n, and adds to a
  4096 by 128 accumulator the product of that 0/1 matrix with node block n of the padded feature table. The
  accumulator is reset at n = 0 and written out (narrowed) at n = 48. Call 1 (the scatter) walks 49 node blocks by 123
  edge blocks, the edge block moving fastest; at (n, e) it adds to a 1024 by 128 accumulator the product of the 0/1
  matrix "node number = target index" with edge block e of the gathered rows, resets at e = 0 and writes out at
  e = 122.

  This module names what each accumulator holds after every grid point (acc0, acc1: a recursion on the point, one
  body payload per step), the invariant that carries the accumulator from point to point, and the proof data of the
  two pipelines over an arbitrary valuation V of the buffers at the call's entry.
-/
import proofs.«417799_j32796370273059_1_alg».proof.Proof.Gen.Kernel.Launch
import proofs.«417799_j32796370273059_1_alg».proof.Proof.Gen.Kernel.Skeleton
import proofs.«417799_j32796370273059_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Call 0: the gather -/

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body's first branch is taken exactly when the node-block coordinate is 0 … -/
abbrev cond0_0 (i : grid0.Coords) : Prop := (Scalar.cmpi .ne (Scalar.extui (Scalar.cmpi .eq (BitVec.ofNat 32 (i 1).val) 0#32)) 0#32) = 1#1
/-- … and its last exactly when it is 48. -/
abbrev cond0_1 (i : grid0.Coords) : Prop := k0_cond2 i = 1#1

theorem hcond0_0 : ∀ t : Fin cfg0.N, cond0_0 (grid0.coords t) ↔ t.val % 49 = 0 :=
  (by decide +kernel : ∀ t : Fin grid0.N, cond0_0 (grid0.coords t) ↔ t.val % 49 = 0)
theorem hcond0_1 : ∀ t : Fin cfg0.N, cond0_1 (grid0.coords t) ↔ t.val % 49 = 48 :=
  (by decide +kernel : ∀ t : Fin grid0.N, cond0_1 (grid0.coords t) ↔ t.val % 49 = 48)

/-- The staging memrefs the pipeline passes the body at point t, and the accumulator's memref. -/
abbrev ms0_0 (t : Fin cfg0.N) : Memref sig .tc .vmem S4096x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x128 .bf16 := win0_2.stage (cfg0.slots t 2)
abbrev hs0_2 (t : Fin cfg0.N) : (ms0_2 t).IsWhole := hstage0_2 ((cfg0.slots t 2).cast nbuf0_2)
abbrev scr0 : Memref sig .tc .vmem S4096x128 .f32 := Memref.whole cc0_scratch0

/-- THE ACCUMULATOR of call 0 after point n: the body's update of the index block, the feature block and what the
    accumulator held — zero at the first node block of a row of the grid, else what point n - 1 left. -/
def acc0 (c : Dev nD) : (n : ℕ) → n < cfg0.N → Vec F S4096x128 .f32
  | 0, h => k0_pay2 (grid0.coords ⟨0, h⟩) (iblk0 V c 0 ⟨0, h⟩) (iblk0 V c 1 ⟨0, h⟩) (k0_pay1 (F := F))
  | n + 1, h => k0_pay2 (grid0.coords ⟨n + 1, h⟩) (iblk0 V c 0 ⟨n + 1, h⟩) (iblk0 V c 1 ⟨n + 1, h⟩)
      (if (n + 1) % 49 = 0 then k0_pay1 (F := F) else acc0 c n (Nat.lt_of_succ_lt h))

/-- At the first node block the accumulator restarts from zero. -/
theorem acc0_reset (c : Dev nD) (t : Fin cfg0.N) (h0 : t.val % 49 = 0) :
    acc0 V c t.val t.isLt = k0_pay2 (grid0.coords t) (iblk0 V c 0 t) (iblk0 V c 1 t) (k0_pay1 (F := F)) := by
  obtain ⟨n, hn⟩ := t
  cases n with
  | zero => rfl
  | succ n => exact (congrArg (k0_pay2 _ _ _) (if_pos h0))

/-- At every other node block it continues from what the point before left. -/
theorem acc0_step (c : Dev nD) (t : Fin cfg0.N) (h0 : ¬ t.val % 49 = 0) :
    acc0 V c t.val t.isLt = k0_pay2 (grid0.coords t) (iblk0 V c 0 t) (iblk0 V c 1 t)
      (acc0 V c (t.val - 1) (Nat.lt_of_le_of_lt (Nat.sub_le _ _) t.isLt)) := by
  obtain ⟨n, hn⟩ := t
  cases n with
  | zero => exact absurd (Nat.zero_mod _) h0
  | succ n => exact (congrArg (k0_pay2 _ _ _) (if_neg h0))

/-- The scoped buffers of the core that call 0 neither stages through nor accumulates in (the other call's), each at
    some contents. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The invariant of call 0 before point n: the accumulator at anything before the first point, afterwards at what
    the point before left; beside it the other scoped buffers and the generator register, untouched. -/
def Phi0 (c : Dev nD) : (n : ℕ) → n ≤ cfg0.N → sProp 𝕄
  | 0, _ => iprop((∃ d, owns (c : Thread nD τ) scr0 fullShare d) ∗ Rest0 (F := F) c ∗ (∃ r, prngReg c r))
  | n + 1, hn => iprop(owns (c : Thread nD τ) scr0 fullShare (acc0 V c n hn) ∗ Rest0 (F := F) c ∗ (∃ r, prngReg c r))

theorem Phi0_zero (c : Dev nD) (n : ℕ) (h : n ≤ cfg0.N) (hz : n = 0) :
    Phi0 V c n h = iprop((∃ d, owns (c : Thread nD τ) scr0 fullShare d) ∗ Rest0 (F := F) c ∗ (∃ r, prngReg c r)) := by
  subst hz; rfl
theorem Phi0_succ (c : Dev nD) (n : ℕ) (hn : n < cfg0.N) :
    Phi0 V c (n + 1) hn = iprop(owns (c : Thread nD τ) scr0 fullShare (acc0 V c n hn) ∗ Rest0 (F := F) c ∗ (∃ r, prngReg c r)) := rfl
theorem Phi0_pos (c : Dev nD) (n : ℕ) (h : n ≤ cfg0.N) (hz : n ≠ 0) :
    Phi0 V c n h = iprop(owns (c : Thread nD τ) scr0 fullShare (acc0 V c (n - 1) (by omega)) ∗ Rest0 (F := F) c ∗ (∃ r, prngReg c r)) := by
  cases n with
  | zero => exact absurd rfl hz
  | succ n => rfl

/-- The proof data of call 0 on core c: the arrays as the call finds them; after the body at point t each input's
    buffer at its block and the output's at the narrowed accumulator (read only where the block is written back). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c t.val t.isLt)
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (acc0 V c t.val t.isLt) := by dsimp only [dat0]
theorem Phi0_castSucc (c : Dev nD) (t : Fin cfg0.N) :
    (dat0 V c).Φ t.castSucc = Phi0 V c t.val (Nat.le_of_lt t.isLt) := by
  dsimp only [dat0]; simp only [Fin.coe_castSucc]

/-! # Call 1: the scatter -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 1).val) 0#32)) 0#32) = 1#1
abbrev cond1_1 (i : grid1.Coords) : Prop := k1_cond2 i = 1#1

theorem hcond1_0 : ∀ t : Fin cfg1.N, cond1_0 (grid1.coords t) ↔ t.val % 123 = 0 :=
  (by decide +kernel : ∀ t : Fin grid1.N, cond1_0 (grid1.coords t) ↔ t.val % 123 = 0)
theorem hcond1_1 : ∀ t : Fin cfg1.N, cond1_1 (grid1.coords t) ↔ t.val % 123 = 122 :=
  (by decide +kernel : ∀ t : Fin grid1.N, cond1_1 (grid1.coords t) ↔ t.val % 123 = 122)

abbrev ms1_0 (t : Fin cfg1.N) : Memref sig .tc .vmem S1x4096 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
abbrev scr1 : Memref sig .tc .vmem S1024x128 .f32 := Memref.whole cc1_scratch0

/-- THE ACCUMULATOR of call 1 after point n. -/
def acc1 (c : Dev nD) : (n : ℕ) → n < cfg1.N → Vec F S1024x128 .f32
  | 0, h => k1_pay2 (grid1.coords ⟨0, h⟩) (iblk1 V c 0 ⟨0, h⟩) (iblk1 V c 1 ⟨0, h⟩) (k1_pay1 (F := F))
  | n + 1, h => k1_pay2 (grid1.coords ⟨n + 1, h⟩) (iblk1 V c 0 ⟨n + 1, h⟩) (iblk1 V c 1 ⟨n + 1, h⟩)
      (if (n + 1) % 123 = 0 then k1_pay1 (F := F) else acc1 c n (Nat.lt_of_succ_lt h))

theorem acc1_reset (c : Dev nD) (t : Fin cfg1.N) (h0 : t.val % 123 = 0) :
    acc1 V c t.val t.isLt = k1_pay2 (grid1.coords t) (iblk1 V c 0 t) (iblk1 V c 1 t) (k1_pay1 (F := F)) := by
  obtain ⟨n, hn⟩ := t
  cases n with
  | zero => rfl
  | succ n => exact (congrArg (k1_pay2 _ _ _) (if_pos h0))

theorem acc1_step (c : Dev nD) (t : Fin cfg1.N) (h0 : ¬ t.val % 123 = 0) :
    acc1 V c t.val t.isLt = k1_pay2 (grid1.coords t) (iblk1 V c 0 t) (iblk1 V c 1 t)
      (acc1 V c (t.val - 1) (Nat.lt_of_le_of_lt (Nat.sub_le _ _) t.isLt)) := by
  obtain ⟨n, hn⟩ := t
  cases n with
  | zero => exact absurd (Nat.zero_mod _) h0
  | succ n => exact (congrArg (k1_pay2 _ _ _) (if_neg h0))

/-- The scoped buffers that call 1 neither stages through nor accumulates in (call 0's), each at some contents. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

def Phi1 (c : Dev nD) : (n : ℕ) → n ≤ cfg1.N → sProp 𝕄
  | 0, _ => iprop(Rest1 (F := F) c ∗ (∃ d, owns (c : Thread nD τ) scr1 fullShare d) ∗ (∃ r, prngReg c r))
  | n + 1, hn => iprop(Rest1 (F := F) c ∗ owns (c : Thread nD τ) scr1 fullShare (acc1 V c n hn) ∗ (∃ r, prngReg c r))

theorem Phi1_zero (c : Dev nD) (n : ℕ) (h : n ≤ cfg1.N) (hz : n = 0) :
    Phi1 V c n h = iprop(Rest1 (F := F) c ∗ (∃ d, owns (c : Thread nD τ) scr1 fullShare d) ∗ (∃ r, prngReg c r)) := by
  subst hz; rfl
theorem Phi1_succ (c : Dev nD) (n : ℕ) (hn : n < cfg1.N) :
    Phi1 V c (n + 1) hn = iprop(Rest1 (F := F) c ∗ owns (c : Thread nD τ) scr1 fullShare (acc1 V c n hn) ∗ (∃ r, prngReg c r)) := rfl
theorem Phi1_pos (c : Dev nD) (n : ℕ) (h : n ≤ cfg1.N) (hz : n ≠ 0) :
    Phi1 V c n h = iprop(Rest1 (F := F) c ∗ owns (c : Thread nD τ) scr1 fullShare (acc1 V c (n - 1) (by omega)) ∗ (∃ r, prngReg c r)) := by
  cases n with
  | zero => exact absurd rfl hz
  | succ n => rfl

/-- The proof data of call 1 on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]
theorem Phi1_castSucc (c : Dev nD) (t : Fin cfg1.N) :
    (dat1 V c).Φ t.castSucc = Phi1 V c t.val (Nat.le_of_lt t.isLt) := by
  dsimp only [dat1]; simp only [Fin.coe_castSucc]

end Cert.Kernel.Hand

end
-- ==== Proof.Kernel.Body0.lean ====
/-
  The gather call's body at one grid point, in its three cases: the first node block of a row (the accumulator is
  reset, then updated), a middle one (updated), and the last (updated, then narrowed and stored into the output
  block). In each case the index block and the feature block are read and left as they were, and the accumulator
  ends at the body's update of them and of what it held (zero after a reset).
-/
import proofs.«417799_j32796370273059_1_alg».proof.Proof.Kernel.Data
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First node block of a row (and not the last): the accumulator, whatever it held, ends at the update of zero. -/
theorem run0_A (c : Dev nD) (E : Set ℕ) (i : grid0.Coords) (arg2 : Memref sig .tc .vmem S4096x1 .i32) (harg2 : arg2.IsWhole) (arg3 : Memref sig .tc .vmem S1024x128 .f32) (harg3 : arg3.IsWhole)
    (arg4 : Memref sig .tc .vmem S4096x128 .bf16) (harg4 : arg4.IsWhole) (arg5 : Memref sig .tc .vmem S4096x128 .f32) (harg5 : arg5.IsWhole)
    (hc0 : cond0_0 i) (hc1 : ¬ cond0_1 i) (R : Vec F S4096x1 .i32) (X : Vec F S1024x128 .f32) (K : PUnit → sProp 𝕄) :
    iprop(owns (c : Thread nD τ) arg2 fullShare R ∗ owns (c : Thread nD τ) arg3 fullShare X ∗ (∃ d, owns (c : Thread nD τ) arg5 fullShare d)
        ∗ (iprop(owns (c : Thread nD τ) arg2 fullShare R ∗ owns (c : Thread nD τ) arg3 fullShare X
            ∗ owns (c : Thread nD τ) arg5 fullShare (k0_pay2 i R X (k0_pay1 (F := F)))) -∗ K ⟨⟩))
      ⊢ wp frame (wpE (defs₀ (F := F)) Variants.none c none) E (cc0__gather_kernel i arg2 harg2 arg3 harg3 arg4 harg4 arg5 harg5) K := by
  simp only [cc0__gather_kernel_eq_skeleton]; unfold cc0__gather_kernel_skel
  unfold owns
  iintro ⟨⟨%f2, %hf2, H2⟩, ⟨%f3, %hf3, H3⟩, ⟨%d5, %f5, -, H5⟩, Hk⟩
  obtain rfl := harg2.eq_unread hf2; obtain rfl := harg3.eq_unread hf3
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  iexists _; isplitr
  swap; · iexact H5
  ipureintro
  have hz5 : (![0, 0] : Fin S4096x128.rank → Nat) = fun _ => 0 := by funext a; fin_cases a <;> rfl
  have hz2 : (![0, 0] : Fin S4096x1.rank → Nat) = fun _ => 0 := by funext a; fin_cases a <;> rfl
  have hz3 : (![0, 0] : Fin S1024x128.rank → Nat) = fun _ => 0 := by funext a; fin_cases a <;> rfl
  have hcov5 : ∀ (w w' : S4096x128.Idx → Elt F .f32) (y : S4096x128.Idx),
      ∃ p ∈ ([⟨Rect.unit (s := S4096x128) ![0, 0] S4096x128.size inb_S4096x128_S4096x128_0_0, w⟩,
              ⟨Rect.unit (s := S4096x128) ![0, 0] S4096x128.size inb_S4096x128_S4096x128_0_0, w'⟩] : List (View.Piece (Elt F) S4096x128 .f32)), y ∈ p.1.set :=
    fun w w' y => ⟨_, List.mem_cons.mpr (Or.inl rfl), View.mem_set_unit_zero (S := S4096x128) hz5 inb_S4096x128_S4096x128_0_0 y⟩
  sl_unfold_words
  rw [View.read_writes_eq_canon _ _ _ (hcov5 _ _)]
  rw [View.canon_cons_unit_zero (S := S4096x128) hz5]
  simp only [View.readCov_unit_zero (S := S4096x128) _ hz5, View.readAt_eq_ld, harg2.read_unread, harg3.read_unread,
    View.ld_unit_zero (S := S4096x1) hz2, View.ld_unit_zero (S := S1024x128) hz3]

set_option maxHeartbeats 1000000 in
/-- A middle node block: the accumulator at S ends at the update of S. -/
theorem run0_B (c : Dev nD) (E : Set ℕ) (i : grid0.Coords) (arg2 : Memref sig .tc .vmem S4096x1 .i32) (harg2 : arg2.IsWhole) (arg3 : Memref sig .tc .vmem S1024x128 .f32) (harg3 : arg3.IsWhole)
    (arg4 : Memref sig .tc .vmem S4096x128 .bf16) (harg4 : arg4.IsWhole) (arg5 : Memref sig .tc .vmem S4096x128 .f32) (harg5 : arg5.IsWhole)
    (hc0 : ¬ cond0_0 i) (hc1 : ¬ cond0_1 i) (R : Vec F S4096x1 .i32) (X : Vec F S1024x128 .f32) (S : Vec F S4096x128 .f32) (K : PUnit → sProp 𝕄) :
    iprop(owns (c : Thread nD τ) arg2 fullShare R ∗ owns (c : Thread nD τ) arg3 fullShare X ∗ owns (c : Thread nD τ) arg5 fullShare S
        ∗ (iprop(owns (c : Thread nD τ) arg2 fullShare R ∗ owns (c : Thread nD τ) arg3 fullShare X
            ∗ owns (c : Thread nD τ) arg5 fullShare (k0_pay2 i R X S)) -∗ K ⟨⟩))
      ⊢ wp frame (wpE (defs₀ (F := F)) Variants.none c none) E (cc0__gather_kernel i arg2 harg2 arg3 harg3 arg4 harg4 arg5 harg5) K := by
  simp only [cc0__gather_kernel_eq_skeleton]; unfold cc0__gather_kernel_skel
  unfold owns
  iintro ⟨⟨%f2, %hf2, H2⟩, ⟨%f3, %hf3, H3⟩, ⟨%f5, %hf5, H5⟩, Hk⟩
  obtain rfl := harg2.eq_unread hf2; obtain rfl := harg3.eq_unread hf3; obtain rfl := harg5.eq_unread hf5
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  iexists _; isplitr
  swap; · iexact H5
  ipureintro
  have hz5 : (![0, 0] : Fin S4096x128.rank → Nat) = fun _ => 0 := by funext a; fin_cases a <;> rfl
  have hz2 : (![0, 0] : Fin S4096x1.rank → Nat) = fun _ => 0 := by funext a; fin_cases a <;> rfl
  have hz3 : (![0, 0] : Fin S1024x128.rank → Nat) = fun _ => 0 := by funext a; fin_cases a <;> rfl
  have hcov : ∀ (w : S4096x128.Idx → Elt F .f32) (y : S4096x128.Idx),
      ∃ p ∈ ([⟨Rect.unit (s := S4096x128) ![0, 0] S4096x128.size inb_S4096x128_S4096x128_0_0, w⟩] : List (View.Piece (Elt F) S4096x128 .f32)), y ∈ p.1.set :=
    fun w y => ⟨_, List.mem_singleton_self _, View.mem_set_unit_zero (S := S4096x128) hz5 inb_S4096x128_S4096x128_0_0 y⟩
  rw [View.read_writes_eq_canon _ _ _ (hcov _)]
  rw [View.canon_unit_zero hz5]
  simp only [View.readAt_eq_ld, harg2.read_unread, harg3.read_unread, harg5.read_unread,
    View.ld_unit_zero (S := S4096x1) hz2, View.ld_unit_zero (S := S1024x128) hz3, View.ld_unit_zero (S := S4096x128) hz5]

set_option maxHeartbeats 1000000 in
/-- The last node block (and not the first): as a middle one, and the output block, whatever it held, ends at the
    narrowed accumulator. -/
theorem run0_C (c : Dev nD) (E : Set ℕ) (i : grid0.Coords) (arg2 : Memref sig .tc .vmem S4096x1 .i32) (harg2 : arg2.IsWhole) (arg3 : Memref sig .tc .vmem S1024x128 .f32) (harg3 : arg3.IsWhole)
    (arg4 : Memref sig .tc .vmem S4096x128 .bf16) (harg4 : arg4.IsWhole) (arg5 : Memref sig .tc .vmem S4096x128 .f32) (harg5 : arg5.IsWhole)
    (hc0 : ¬ cond0_0 i) (hc1 : cond0_1 i) (R : Vec F S4096x1 .i32) (X : Vec F S1024x128 .f32) (S : Vec F S4096x128 .f32) (K : PUnit → sProp 𝕄) :
    iprop(owns (c : Thread nD τ) arg2 fullShare R ∗ owns (c : Thread nD τ) arg3 fullShare X ∗ (∃ d, owns (c : Thread nD τ) arg4 fullShare d) ∗ owns (c : Thread nD τ) arg5 fullShare S
        ∗ (iprop(owns (c : Thread nD τ) arg2 fullShare R ∗ owns (c : Thread nD τ) arg3 fullShare X
            ∗ owns (c : Thread nD τ) arg4 fullShare (k0_pay3 (k0_pay2 i R X S)) ∗ owns (c : Thread nD τ) arg5 fullShare (k0_pay2 i R X S)) -∗ K ⟨⟩))
      ⊢ wp frame (wpE (defs₀ (F := F)) Variants.none c none) E (cc0__gather_kernel i arg2 harg2 arg3 harg3 arg4 harg4 arg5 harg5) K := by
  simp only [cc0__gather_kernel_eq_skeleton]; unfold cc0__gather_kernel_skel
  unfold owns
  iintro ⟨⟨%f2, %hf2, H2⟩, ⟨%f3, %hf3, H3⟩, ⟨%d4, %f4, -, H4⟩, ⟨%f5, %hf5, H5⟩, Hk⟩
  obtain rfl := harg2.eq_unread hf2; obtain rfl := harg3.eq_unread hf3; obtain rfl := harg5.eq_unread hf5
  sl_exec (disch := first | exact hc0 | exact hc1)
  sl_step
  have hz5 : (![0, 0] : Fin S4096x128.rank → Nat) = fun _ => 0 := by funext a; fin_cases a <;> rfl
  have hz2 : (![0, 0] : Fin S4096x1.rank → Nat) = fun _ => 0 := by funext a; fin_cases a <;> rfl
  have hz3 : (![0, 0] : Fin S1024x128.rank → Nat) = fun _ => 0 := by funext a; fin_cases a <;> rfl
  have hcov5 : ∀ (w : S4096x128.Idx → Elt F .f32) (y : S4096x128.Idx),
      ∃ p ∈ ([⟨Rect.unit (s := S4096x128) ![0, 0] S4096x128.size inb_S4096x128_S4096x128_0_0, w⟩] : List (View.Piece (Elt F) S4096x128 .f32)), y ∈ p.1.set :=
    fun w y => ⟨_, List.mem_singleton_self _, View.mem_set_unit_zero (S := S4096x128) hz5 inb_S4096x128_S4096x128_0_0 y⟩
  have hcov4 : ∀ (w : S4096x128.Idx → Elt F .bf16) (y : S4096x128.Idx),
      ∃ p ∈ ([⟨Rect.unit (s := S4096x128) ![0, 0] S4096x128.size inb_S4096x128_S4096x128_0_0, w⟩] : List (View.Piece (Elt F) S4096x128 .bf16)), y ∈ p.1.set :=
    fun w y => ⟨_, List.mem_singleton_self _, View.mem_set_unit_zero (S := S4096x128) hz5 inb_S4096x128_S4096x128_0_0 y⟩
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_words
    rw [View.read_writes_eq_canon _ _ _ (hcov4 _)]
    rw [View.canon_unit_zero hz5]
    simp only [View.readCov_unit_zero (S := S4096x128) _ hz5, View.readAt_eq_ld, harg2.read_unread, harg3.read_unread,
      harg5.read_unread, View.ld_unit_zero (S := S4096x1) hz2, View.ld_unit_zero (S := S1024x128) hz3,
      View.ld_unit_zero (S := S4096x128) hz5]
  iexists _; isplitr
  swap; · iexact H5
  ipureintro
  sl_unfold_words
  rw [View.read_writes_eq_canon _ _ _ (hcov5 _)]
  rw [View.canon_unit_zero hz5]
  simp only [View.readAt_eq_ld, harg2.read_unread, harg3.read_unread, harg5.read_unread,
    View.ld_unit_zero (S := S4096x1) hz2, View.ld_unit_zero (S := S1024x128) hz3, View.ld_unit_zero (S := S4096x128) hz5]

end Cert.Kernel.Hand

end
-- ==== Proof.Kernel.Oblig0.lean ====
/-
  The body obligation of call 0: at every grid point, from the invariant before the point and the windows' current
  buffers as the pipeline hands them over, the body runs to the invariant after the point with every buffer at what the
  proof data say — an input's at its block, the output's at what the last point of a row stores and untouched elsewhere.
-/
import proofs.«417799_j32796370273059_1_alg».proof.Proof.Kernel.Body0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The schedule of the three windows -/

/-- The output window is idle wherever the last-node-block condition fails, … -/
theorem idleAt0_2 (t : Fin cfg0.N) (h : ¬ cond0_1 (grid0.coords t)) : cfg0.idle 2 (cfg0.grid.coords t) = true := by
  show (!(k0_cond2 (grid0.coords t) == 1#1)) = true
  rw [beq_eq_false_iff_ne.mpr h]; rfl

/-- … live where it holds, … -/
theorem liveAt0_2 (t : Fin cfg0.N) (h : cond0_1 (grid0.coords t)) : cfg0.idle 2 (cfg0.grid.coords t) = false := by
  show (!(k0_cond2 (grid0.coords t) == 1#1)) = false
  rw [beq_iff_eq.mpr h]; rfl

/-- … and is not written back at a point that is not the last of its row. -/
theorem noFlush0_2 (t : Fin cfg0.N) (h1 : ¬ t.val % 49 = 48) : (cfg0.win 2).flush t = false :=
  Bool.eq_false_iff.mpr fun h => h1 ((flush0_2 t).mp h)

/-! ## What the input buffers hold when the body runs -/

/-- The index block's current buffer holds the block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- The feature block's current buffer holds the block at every point. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-! ## What the body leaves in each buffer -/

theorem leaves0_0 (c : Dev nD) (t : Fin cfg0.N) :
    (dat0 V c).leavesExact 0 t = owns (c : Thread nD τ) (ms0_0 t) fullShare (iblk0 V c 0 t) :=
  (show (dat0 V c).leavesExact 0 t = owns (c : Thread nD τ) (ms0_0 t) fullShare ((dat0 V c).after 0 t) from rfl).trans
    (by rw [after0_0])

theorem leaves0_1 (c : Dev nD) (t : Fin cfg0.N) :
    (dat0 V c).leavesExact 1 t = owns (c : Thread nD τ) (ms0_1 t) fullShare (iblk0 V c 1 t) :=
  (show (dat0 V c).leavesExact 1 t = owns (c : Thread nD τ) (ms0_1 t) fullShare ((dat0 V c).after 1 t) from rfl).trans
    (by rw [after0_1])

/-- At the last node block of a row the output buffer is left at the narrowed accumulator. -/
theorem leaves0_2_live (c : Dev nD) (t : Fin cfg0.N) (h : cond0_1 (grid0.coords t)) :
    (dat0 V c).leavesExact 2 t = owns (c : Thread nD τ) (ms0_2 t) fullShare (k0_pay3 (acc0 V c t.val t.isLt)) :=
  (show (dat0 V c).leavesExact 2 t = owns (c : Thread nD τ) (ms0_2 t) fullShare ((dat0 V c).after 2 t) from by
    unfold Dat.leavesExact; rw [liveAt0_2 t h]).trans (by rw [after0_2])

/-- Elsewhere it is handed back as it was found. -/
theorem leaves0_2_idle (c : Dev nD) (t : Fin cfg0.N) (h : ¬ cond0_1 (grid0.coords t)) (h1 : ¬ t.val % 49 = 48) :
    (dat0 V c).leavesExact 2 t = iprop(∃ d, owns (c : Thread nD τ) (ms0_2 t) fullShare ((dat0 V c).before 2 t d)) :=
  Dat.leavesExact_idle (dat0 V c) 2 t (idleAt0_2 t h) (noFlush0_2 t h1)

/-! ## The body at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 1600000 in
/-- The body at any point. The inputs' buffers hold their blocks; the point's position in its row says which of the
    three cases runs; the invariant hands over the accumulator (at anything before the very first point, which is a
    first node block; else at what the point before left) and takes it back at this point's update. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Phi0 V c (t.val + 1) t.isLt from rfl, Phi0_succ]
  rw [leaves0_0, leaves0_1, Phi0_castSucc V c t]
  by_cases h0 : t.val % 49 = 0
  · by_cases h1 : t.val % 49 = 48
    · exfalso; omega
    · have hc0 : cond0_0 (grid0.coords t) := (hcond0_0 t).mpr h0
      have hc1 : ¬ cond0_1 (grid0.coords t) := fun h => h1 ((hcond0_1 t).mp h)
      rw [leaves0_2_idle V c t hc1 h1, acc0_reset V c t h0]
      by_cases hz : t.val = 0
      · rw [Phi0_zero V c _ _ hz]
        iintro ⟨⟨HS, HR, Hg⟩, Ho, ⟨%d0, H0⟩, ⟨%d1, H1⟩, H2⟩
        iapply (run0_A c Set.univ (grid0.coords t) (ms0_0 t) (hs0_0 t) (ms0_1 t) (hs0_1 t) (ms0_2 t) (hs0_2 t) scr0 (Memref.isWhole_whole _) hc0 hc1 (iblk0 V c 0 t) (iblk0 V c 1 t) _)
        isplitl [H0]; · iexact H0
        isplitl [H1]; · iexact H1
        isplitl [HS]; · iexact HS
        iintro ⟨H0, H1, HS⟩
        isplitl [HS HR Hg]
        · isplitl [HS]; · iexact HS
          isplitl [HR]; · iexact HR
          iexact Hg
        isplitl [Ho]; · iexact Ho
        isplitl [H0]; · iexact H0
        isplitl [H1]; · iexact H1
        iexact H2
      · rw [Phi0_pos V c _ _ hz]
        iintro ⟨⟨HS, HR, Hg⟩, Ho, ⟨%d0, H0⟩, ⟨%d1, H1⟩, H2⟩
        iapply (run0_A c Set.univ (grid0.coords t) (ms0_0 t) (hs0_0 t) (ms0_1 t) (hs0_1 t) (ms0_2 t) (hs0_2 t) scr0 (Memref.isWhole_whole _) hc0 hc1 (iblk0 V c 0 t) (iblk0 V c 1 t) _)
        isplitl [H0]; · iexact H0
        isplitl [H1]; · iexact H1
        isplitl [HS]; · iexists _; iexact HS
        iintro ⟨H0, H1, HS⟩
        isplitl [HS HR Hg]
        · isplitl [HS]; · iexact HS
          isplitl [HR]; · iexact HR
          iexact Hg
        isplitl [Ho]; · iexact Ho
        isplitl [H0]; · iexact H0
        isplitl [H1]; · iexact H1
        iexact H2
  · have hc0 : ¬ cond0_0 (grid0.coords t) := fun h => h0 ((hcond0_0 t).mp h)
    have hz : t.val ≠ 0 := fun e => h0 (by rw [e])
    rw [Phi0_pos V c _ _ hz, acc0_step V c t h0]
    by_cases h1 : t.val % 49 = 48
    · have hc1 : cond0_1 (grid0.coords t) := (hcond0_1 t).mpr h1
      rw [leaves0_2_live V c t hc1, acc0_step V c t h0]
      iintro ⟨⟨HS, HR, Hg⟩, Ho, ⟨%d0, H0⟩, ⟨%d1, H1⟩, ⟨%d2, H2⟩⟩
      iapply (run0_C c Set.univ (grid0.coords t) (ms0_0 t) (hs0_0 t) (ms0_1 t) (hs0_1 t) (ms0_2 t) (hs0_2 t) scr0 (Memref.isWhole_whole _) hc0 hc1 (iblk0 V c 0 t) (iblk0 V c 1 t) (acc0 V c (t.val - 1) (Nat.lt_of_le_of_lt (Nat.sub_le _ _) t.isLt)) _)
      isplitl [H0]; · iexact H0
      isplitl [H1]; · iexact H1
      isplitl [H2]; · iexists _; iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · have hc1 : ¬ cond0_1 (grid0.coords t) := fun h => h1 ((hcond0_1 t).mp h)
      rw [leaves0_2_idle V c t hc1 h1]
      iintro ⟨⟨HS, HR, Hg⟩, Ho, ⟨%d0, H0⟩, ⟨%d1, H1⟩, H2⟩
      iapply (run0_B c Set.univ (grid0.coords t) (ms0_0 t) (hs0_0 t) (ms0_1 t) (hs0_1 t) (ms0_2 t) (hs0_2 t) scr0 (Memref.isWhole_whole _) hc0 hc1 (iblk0 V c 0 t) (iblk0 V c 1 t) (acc0 V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      iexact H2

theorem body_obligation0 (c : Dev nD) : BodyObligation (dat0 (F := F) V c) (defs₀ (F := F)) Variants.none () Set.univ := by
  intro t
  rw [bigSep_W0, bigSep_W0]
  exact sound_body0 V c t

end Cert.Kernel.Hand

end
-- ==== Proof.Kernel.Body1.lean ====
/-
  The scatter call's body at one grid point, in its three cases: the first edge block of a row of the grid (the
  accumulator is reset, then updated), a middle one (updated), and the last (updated, then stored into the output
  block). The index block and the block of gathered rows are read and left as they were.
-/
import proofs.«417799_j32796370273059_1_alg».proof.Proof.Kernel.Data
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First edge block (and not the last): the accumulator, whatever it held, ends at the update of zero. -/
theorem run1_A (c : Dev nD) (E : Set ℕ) (i : grid1.Coords) (arg2 : Memref sig .tc .vmem S1x4096 .i32) (harg2 : arg2.IsWhole) (arg3 : Memref sig .tc .vmem S4096x128 .bf16) (harg3 : arg3.IsWhole)
    (arg4 : Memref sig .tc .vmem S1024x128 .f32) (harg4 : arg4.IsWhole) (arg5 : Memref sig .tc .vmem S1024x128 .f32) (harg5 : arg5.IsWhole)
    (hc0 : cond1_0 i) (hc1 : ¬ cond1_1 i) (R : Vec F S1x4096 .i32) (X : Vec F S4096x128 .bf16) (K : PUnit → sProp 𝕄) :
    iprop(owns (c : Thread nD τ) arg2 fullShare R ∗ owns (c : Thread nD τ) arg3 fullShare X ∗ (∃ d, owns (c : Thread nD τ) arg5 fullShare d)
        ∗ (iprop(owns (c : Thread nD τ) arg2 fullShare R ∗ owns (c : Thread nD τ) arg3 fullShare X
            ∗ owns (c : Thread nD τ) arg5 fullShare (k1_pay2 i R X (k1_pay1 (F := F)))) -∗ K ⟨⟩))
      ⊢ wp frame (wpE (defs₀ (F := F)) Variants.none c none) E (cc1__scatter_kernel i arg2 harg2 arg3 harg3 arg4 harg4 arg5 harg5) K := by
  simp only [cc1__scatter_kernel_eq_skeleton]; unfold cc1__scatter_kernel_skel
  unfold owns
  iintro ⟨⟨%f2, %hf2, H2⟩, ⟨%f3, %hf3, H3⟩, ⟨%d5, %f5, -, H5⟩, Hk⟩
  obtain rfl := harg2.eq_unread hf2; obtain rfl := harg3.eq_unread hf3
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  iexists _; isplitr
  swap; · iexact H5
  ipureintro
  have hz5 : (![0, 0] : Fin S1024x128.rank → Nat) = fun _ => 0 := by funext a; fin_cases a <;> rfl
  have hz2 : (![0, 0] : Fin S1x4096.rank → Nat) = fun _ => 0 := by funext a; fin_cases a <;> rfl
  have hz3 : (![0, 0] : Fin S4096x128.rank → Nat) = fun _ => 0 := by funext a; fin_cases a <;> rfl
  have hcov5 : ∀ (w w' : S1024x128.Idx → Elt F .f32) (y : S1024x128.Idx),
      ∃ p ∈ ([⟨Rect.unit (s := S1024x128) ![0, 0] S1024x128.size inb_S1024x128_S1024x128_0_0, w⟩,
              ⟨Rect.unit (s := S1024x128) ![0, 0] S1024x128.size inb_S1024x128_S1024x128_0_0, w'⟩] : List (View.Piece (Elt F) S1024x128 .f32)), y ∈ p.1.set :=
    fun w w' y => ⟨_, List.mem_cons.mpr (Or.inl rfl), View.mem_set_unit_zero (S := S1024x128) hz5 inb_S1024x128_S1024x128_0_0 y⟩
  sl_unfold_words
  rw [View.read_writes_eq_canon _ _ _ (hcov5 _ _)]
  rw [View.canon_cons_unit_zero (S := S1024x128) hz5]
  simp only [View.readCov_unit_zero (S := S1024x128) _ hz5, View.readAt_eq_ld, harg2.read_unread, harg3.read_unread,
    View.ld_unit_zero (S := S1x4096) hz2, View.ld_unit_zero (S := S4096x128) hz3]

set_option maxHeartbeats 1000000 in
/-- A middle edge block: the accumulator at S ends at the update of S. -/
theorem run1_B (c : Dev nD) (E : Set ℕ) (i : grid1.Coords) (arg2 : Memref sig .tc .vmem S1x4096 .i32) (harg2 : arg2.IsWhole) (arg3 : Memref sig .tc .vmem S4096x128 .bf16) (harg3 : arg3.IsWhole)
    (arg4 : Memref sig .tc .vmem S1024x128 .f32) (harg4 : arg4.IsWhole) (arg5 : Memref sig .tc .vmem S1024x128 .f32) (harg5 : arg5.IsWhole)
    (hc0 : ¬ cond1_0 i) (hc1 : ¬ cond1_1 i) (R : Vec F S1x4096 .i32) (X : Vec F S4096x128 .bf16) (S : Vec F S1024x128 .f32) (K : PUnit → sProp 𝕄) :
    iprop(owns (c : Thread nD τ) arg2 fullShare R ∗ owns (c : Thread nD τ) arg3 fullShare X ∗ owns (c : Thread nD τ) arg5 fullShare S
        ∗ (iprop(owns (c : Thread nD τ) arg2 fullShare R ∗ owns (c : Thread nD τ) arg3 fullShare X
            ∗ owns (c : Thread nD τ) arg5 fullShare (k1_pay2 i R X S)) -∗ K ⟨⟩))
      ⊢ wp frame (wpE (defs₀ (F := F)) Variants.none c none) E (cc1__scatter_kernel i arg2 harg2 arg3 harg3 arg4 harg4 arg5 harg5) K := by
  simp only [cc1__scatter_kernel_eq_skeleton]; unfold cc1__scatter_kernel_skel
  unfold owns
  iintro ⟨⟨%f2, %hf2, H2⟩, ⟨%f3, %hf3, H3⟩, ⟨%f5, %hf5, H5⟩, Hk⟩
  obtain rfl := harg2.eq_unread hf2; obtain rfl := harg3.eq_unread hf3; obtain rfl := harg5.eq_unread hf5
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  iexists _; isplitr
  swap; · iexact H5
  ipureintro
  have hz5 : (![0, 0] : Fin S1024x128.rank → Nat) = fun _ => 0 := by funext a; fin_cases a <;> rfl
  have hz2 : (![0, 0] : Fin S1x4096.rank → Nat) = fun _ => 0 := by funext a; fin_cases a <;> rfl
  have hz3 : (![0, 0] : Fin S4096x128.rank → Nat) = fun _ => 0 := by funext a; fin_cases a <;> rfl
  have hcov : ∀ (w : S1024x128.Idx → Elt F .f32) (y : S1024x128.Idx),
      ∃ p ∈ ([⟨Rect.unit (s := S1024x128) ![0, 0] S1024x128.size inb_S1024x128_S1024x128_0_0, w⟩] : List (View.Piece (Elt F) S1024x128 .f32)), y ∈ p.1.set :=
    fun w y => ⟨_, List.mem_singleton_self _, View.mem_set_unit_zero (S := S1024x128) hz5 inb_S1024x128_S1024x128_0_0 y⟩
  sl_unfold_words
  rw [View.read_writes_eq_canon _ _ _ (hcov _)]
  rw [View.canon_unit_zero hz5]
  simp only [View.readAt_eq_ld, harg2.read_unread, harg3.read_unread, harg5.read_unread,
    View.ld_unit_zero (S := S1x4096) hz2, View.ld_unit_zero (S := S4096x128) hz3, View.ld_unit_zero (S := S1024x128) hz5]

set_option maxHeartbeats 1000000 in
/-- The last edge block (and not the first): as a middle one, and the output block ends at the accumulator. -/
theorem run1_C (c : Dev nD) (E : Set ℕ) (i : grid1.Coords) (arg2 : Memref sig .tc .vmem S1x4096 .i32) (harg2 : arg2.IsWhole) (arg3 : Memref sig .tc .vmem S4096x128 .bf16) (harg3 : arg3.IsWhole)
    (arg4 : Memref sig .tc .vmem S1024x128 .f32) (harg4 : arg4.IsWhole) (arg5 : Memref sig .tc .vmem S1024x128 .f32) (harg5 : arg5.IsWhole)
    (hc0 : ¬ cond1_0 i) (hc1 : cond1_1 i) (R : Vec F S1x4096 .i32) (X : Vec F S4096x128 .bf16) (S : Vec F S1024x128 .f32) (K : PUnit → sProp 𝕄) :
    iprop(owns (c : Thread nD τ) arg2 fullShare R ∗ owns (c : Thread nD τ) arg3 fullShare X ∗ (∃ d, owns (c : Thread nD τ) arg4 fullShare d) ∗ owns (c : Thread nD τ) arg5 fullShare S
        ∗ (iprop(owns (c : Thread nD τ) arg2 fullShare R ∗ owns (c : Thread nD τ) arg3 fullShare X
            ∗ owns (c : Thread nD τ) arg4 fullShare (k1_pay2 i R X S) ∗ owns (c : Thread nD τ) arg5 fullShare (k1_pay2 i R X S)) -∗ K ⟨⟩))
      ⊢ wp frame (wpE (defs₀ (F := F)) Variants.none c none) E (cc1__scatter_kernel i arg2 harg2 arg3 harg3 arg4 harg4 arg5 harg5) K := by
  simp only [cc1__scatter_kernel_eq_skeleton]; unfold cc1__scatter_kernel_skel
  unfold owns
  iintro ⟨⟨%f2, %hf2, H2⟩, ⟨%f3, %hf3, H3⟩, ⟨%d4, %f4, -, H4⟩, ⟨%f5, %hf5, H5⟩, Hk⟩
  obtain rfl := harg2.eq_unread hf2; obtain rfl := harg3.eq_unread hf3; obtain rfl := harg5.eq_unread hf5
  sl_exec (disch := first | exact hc0 | exact hc1)
  sl_step
  have hz5 : (![0, 0] : Fin S1024x128.rank → Nat) = fun _ => 0 := by funext a; fin_cases a <;> rfl
  have hz2 : (![0, 0] : Fin S1x4096.rank → Nat) = fun _ => 0 := by funext a; fin_cases a <;> rfl
  have hz3 : (![0, 0] : Fin S4096x128.rank → Nat) = fun _ => 0 := by funext a; fin_cases a <;> rfl
  have hcov : ∀ (w : S1024x128.Idx → Elt F .f32) (y : S1024x128.Idx),
      ∃ p ∈ ([⟨Rect.unit (s := S1024x128) ![0, 0] S1024x128.size inb_S1024x128_S1024x128_0_0, w⟩] : List (View.Piece (Elt F) S1024x128 .f32)), y ∈ p.1.set :=
    fun w y => ⟨_, List.mem_singleton_self _, View.mem_set_unit_zero (S := S1024x128) hz5 inb_S1024x128_S1024x128_0_0 y⟩
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_words
    rw [View.read_writes_eq_canon _ _ _ (hcov _)]
    rw [View.canon_unit_zero hz5]
    simp only [View.readCov_unit_zero (S := S1024x128) _ hz5, View.readAt_eq_ld, harg2.read_unread, harg3.read_unread,
      harg5.read_unread, View.ld_unit_zero (S := S1x4096) hz2, View.ld_unit_zero (S := S4096x128) hz3,
      View.ld_unit_zero (S := S1024x128) hz5]
  iexists _; isplitr
  swap; · iexact H5
  ipureintro
  sl_unfold_words
  rw [View.read_writes_eq_canon _ _ _ (hcov _)]
  rw [View.canon_unit_zero hz5]
  simp only [View.readAt_eq_ld, harg2.read_unread, harg3.read_unread, harg5.read_unread,
    View.ld_unit_zero (S := S1x4096) hz2, View.ld_unit_zero (S := S4096x128) hz3, View.ld_unit_zero (S := S1024x128) hz5]

end Cert.Kernel.Hand

end
-- ==== Proof.Kernel.Oblig1.lean ====
/-
  The body obligation of call 1: at every grid point, from the invariant before the point and the windows' current
  buffers as the pipeline hands them over, the body runs to the invariant after the point with every buffer at what the
  proof data say — an input's at its block, the output's at what the last point of a row stores and untouched elsewhere.
-/
import proofs.«417799_j32796370273059_1_alg».proof.Proof.Kernel.Body1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The schedule of the three windows -/

/-- The output window is idle wherever the last-edge-block condition fails, … -/
theorem idleAt1_2 (t : Fin cfg1.N) (h : ¬ cond1_1 (grid1.coords t)) : cfg1.idle 2 (cfg1.grid.coords t) = true := by
  show (!(k1_cond2 (grid1.coords t) == 1#1)) = true
  rw [beq_eq_false_iff_ne.mpr h]; rfl

/-- … live where it holds, … -/
theorem liveAt1_2 (t : Fin cfg1.N) (h : cond1_1 (grid1.coords t)) : cfg1.idle 2 (cfg1.grid.coords t) = false := by
  show (!(k1_cond2 (grid1.coords t) == 1#1)) = false
  rw [beq_iff_eq.mpr h]; rfl

/-- … and is not written back at a point that is not the last of its row. -/
theorem noFlush1_2 (t : Fin cfg1.N) (h1 : ¬ t.val % 123 = 122) : (cfg1.win 2).flush t = false :=
  Bool.eq_false_iff.mpr fun h => h1 ((flush1_2 t).mp h)

/-! ## What the input buffers hold when the body runs -/

/-- The index block's current buffer holds the block at every point. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The current buffer of the block of gathered rows holds the block at every point. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-! ## What the body leaves in each buffer -/

theorem leaves1_0 (c : Dev nD) (t : Fin cfg1.N) :
    (dat1 V c).leavesExact 0 t = owns (c : Thread nD τ) (ms1_0 t) fullShare (iblk1 V c 0 t) :=
  (show (dat1 V c).leavesExact 0 t = owns (c : Thread nD τ) (ms1_0 t) fullShare ((dat1 V c).after 0 t) from rfl).trans
    (by rw [after1_0])

theorem leaves1_1 (c : Dev nD) (t : Fin cfg1.N) :
    (dat1 V c).leavesExact 1 t = owns (c : Thread nD τ) (ms1_1 t) fullShare (iblk1 V c 1 t) :=
  (show (dat1 V c).leavesExact 1 t = owns (c : Thread nD τ) (ms1_1 t) fullShare ((dat1 V c).after 1 t) from rfl).trans
    (by rw [after1_1])

/-- At the last edge block of a row the output buffer is left at the accumulator. -/
theorem leaves1_2_live (c : Dev nD) (t : Fin cfg1.N) (h : cond1_1 (grid1.coords t)) :
    (dat1 V c).leavesExact 2 t = owns (c : Thread nD τ) (ms1_2 t) fullShare (acc1 V c t.val t.isLt) :=
  (show (dat1 V c).leavesExact 2 t = owns (c : Thread nD τ) (ms1_2 t) fullShare ((dat1 V c).after 2 t) from by
    unfold Dat.leavesExact; rw [liveAt1_2 t h]).trans (by rw [after1_2])

/-- Elsewhere it is handed back as it was found. -/
theorem leaves1_2_idle (c : Dev nD) (t : Fin cfg1.N) (h : ¬ cond1_1 (grid1.coords t)) (h1 : ¬ t.val % 123 = 122) :
    (dat1 V c).leavesExact 2 t = iprop(∃ d, owns (c : Thread nD τ) (ms1_2 t) fullShare ((dat1 V c).before 2 t d)) :=
  Dat.leavesExact_idle (dat1 V c) 2 t (idleAt1_2 t h) (noFlush1_2 t h1)

/-! ## The body at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 1600000 in
/-- The body at any point. The inputs' buffers hold their blocks; the point's position in its row says which of the
    three cases runs; the invariant hands over the accumulator (at anything before the very first point, which is a
    first edge block; else at what the point before left) and takes it back at this point's update. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ]
  rw [leaves1_0, leaves1_1, Phi1_castSucc V c t]
  by_cases h0 : t.val % 123 = 0
  · by_cases h1 : t.val % 123 = 122
    · exfalso; omega
    · have hc0 : cond1_0 (grid1.coords t) := (hcond1_0 t).mpr h0
      have hc1 : ¬ cond1_1 (grid1.coords t) := fun h => h1 ((hcond1_1 t).mp h)
      rw [leaves1_2_idle V c t hc1 h1, acc1_reset V c t h0]
      by_cases hz : t.val = 0
      · rw [Phi1_zero V c _ _ hz]
        iintro ⟨⟨HR, HS, Hg⟩, Ho, ⟨%d0, H0⟩, ⟨%d1, H1⟩, H2⟩
        iapply (run1_A c Set.univ (grid1.coords t) (ms1_0 t) (hs1_0 t) (ms1_1 t) (hs1_1 t) (ms1_2 t) (hs1_2 t) scr1 (Memref.isWhole_whole _) hc0 hc1 (iblk1 V c 0 t) (iblk1 V c 1 t) _)
        isplitl [H0]; · iexact H0
        isplitl [H1]; · iexact H1
        isplitl [HS]; · iexact HS
        iintro ⟨H0, H1, HS⟩
        isplitl [HS HR Hg]
        · isplitl [HR]; · iexact HR
          isplitl [HS]; · iexact HS
          iexact Hg
        isplitl [Ho]; · iexact Ho
        isplitl [H0]; · iexact H0
        isplitl [H1]; · iexact H1
        iexact H2
      · rw [Phi1_pos V c _ _ hz]
        iintro ⟨⟨HR, HS, Hg⟩, Ho, ⟨%d0, H0⟩, ⟨%d1, H1⟩, H2⟩
        iapply (run1_A c Set.univ (grid1.coords t) (ms1_0 t) (hs1_0 t) (ms1_1 t) (hs1_1 t) (ms1_2 t) (hs1_2 t) scr1 (Memref.isWhole_whole _) hc0 hc1 (iblk1 V c 0 t) (iblk1 V c 1 t) _)
        isplitl [H0]; · iexact H0
        isplitl [H1]; · iexact H1
        isplitl [HS]; · iexists _; iexact HS
        iintro ⟨H0, H1, HS⟩
        isplitl [HS HR Hg]
        · isplitl [HR]; · iexact HR
          isplitl [HS]; · iexact HS
          iexact Hg
        isplitl [Ho]; · iexact Ho
        isplitl [H0]; · iexact H0
        isplitl [H1]; · iexact H1
        iexact H2
  · have hc0 : ¬ cond1_0 (grid1.coords t) := fun h => h0 ((hcond1_0 t).mp h)
    have hz : t.val ≠ 0 := fun e => h0 (by rw [e])
    rw [Phi1_pos V c _ _ hz, acc1_step V c t h0]
    by_cases h1 : t.val % 123 = 122
    · have hc1 : cond1_1 (grid1.coords t) := (hcond1_1 t).mpr h1
      rw [leaves1_2_live V c t hc1, acc1_step V c t h0]
      iintro ⟨⟨HR, HS, Hg⟩, Ho, ⟨%d0, H0⟩, ⟨%d1, H1⟩, ⟨%d2, H2⟩⟩
      iapply (run1_C c Set.univ (grid1.coords t) (ms1_0 t) (hs1_0 t) (ms1_1 t) (hs1_1 t) (ms1_2 t) (hs1_2 t) scr1 (Memref.isWhole_whole _) hc0 hc1 (iblk1 V c 0 t) (iblk1 V c 1 t) (acc1 V c (t.val - 1) (Nat.lt_of_le_of_lt (Nat.sub_le _ _) t.isLt)) _)
      isplitl [H0]; · iexact H0
      isplitl [H1]; · iexact H1
      isplitl [H2]; · iexists _; iexact H2
      isplitl [HS]; · iexact HS
      iintro ⟨H0, H1, H2, HS⟩
      isplitl [HS HR Hg]
      · isplitl [HR]; · iexact HR
        isplitl [HS]; · iexact HS
        iexact Hg
      isplitl [Ho]; · iexact Ho
      isplitl [H0]; · iexact H0
      isplitl [H1]; · iexact H1
      iexact H2
    · have hc1 : ¬ cond1_1 (grid1.coords t) := fun h => h1 ((hcond1_1 t).mp h)
      rw [leaves1_2_idle V c t hc1 h1]
      iintro ⟨⟨HR, HS, Hg⟩, Ho, ⟨%d0, H0⟩, ⟨%d1, H1⟩, H2⟩
      iapply (run1_B c Set.univ (grid1.coords t) (ms1_0 t) (hs1_0 t) (ms1_1 t) (hs1_1 t) (ms1_2 t) (hs1_2 t) scr1 (Memref.isWhole_whole _) hc0 hc1 (iblk1 V c 0 t) (iblk1 V c 1 t) (acc1 V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [HS HR Hg]
      · isplitl [HR]; · iexact HR
        isplitl [HS]; · iexact HS
        iexact Hg
      isplitl [Ho]; · iexact Ho
      isplitl [H0]; · iexact H0
      isplitl [H1]; · iexact H1
      iexact H2

theorem body_obligation1 (c : Dev nD) : BodyObligation (dat1 (F := F) V c) (defs₀ (F := F)) Variants.none () Set.univ := by
  intro t
  rw [bigSep_W1, bigSep_W1]
  exact sound_body1 V c t

end Cert.Kernel.Hand

end
-- ==== Proof.Kernel.Vals.lean ====
/-
  The contents of the core's buffers at each boundary of the program: at launch, after each stretch of host
  operations, after the gather call (its output array at what its write-backs leave, every other buffer as entered),
  after the scatter call, and after the closing slice.
-/
import proofs.«417799_j32796370273059_1_alg».proof.Proof.Kernel.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core c's buffers at launch. -/
abbrev W0 : Dev nD → Valuation τ sig (Elt F) := fun c b => m (c, b)
/-- After the index rows are sliced out, flattened and padded with the dummy node number. -/
abbrev W1 : Dev nD → Valuation τ sig (Elt F) := fun c => StableHlo.after hostOps0 (W0 m c)
/-- After the feature table is padded with zero rows. -/
abbrev W2 : Dev nD → Valuation τ sig (Elt F) := fun c => StableHlo.after hostOps0_1 (W1 m c)
/-- After the two index vectors are laid out as a column and as a row: the gather call's entry. -/
abbrev W3 : Dev nD → Valuation τ sig (Elt F) := fun c => StableHlo.after hostOps0_2 (W2 m c)
abbrev V3 : (c : Dev nD) → (b : Ref sig .tc) → Buf (Elt F) ((c : Thread nD τ).loc b) := fun c b => W3 m c b
/-- At the gather call's exit: its arrays at what the pipeline leaves, every other buffer as entered. -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- The scatter call's entry. -/
abbrev V4 : (c : Dev nD) → (b : Ref sig .tc) → Buf (Elt F) ((c : Thread nD τ).loc b) := fun c b => W4 m c b
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)
/-- At the scatter call's exit. -/
def W5 (c : Dev nD) : Valuation τ sig (Elt F) :=
  Pipeline.withArrays spec1 c (W4 m c) fun w => (dat1 (V4 m) c).arrAt w cfg1.N
theorem W5_arr (c : Dev nD) (w : Fin cfg1.W) :
    W5 m c (Proc.devRef .tc (Pipeline.arrRef spec1 w)) = (dat1 (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev V5 : (c : Dev nD) → (b : Ref sig .tc) → Buf (Elt F) ((c : Thread nD τ).loc b) := fun c b => W5 m c b
theorem hF1 (c : Dev nD) (w : Fin cfg1.W) : (dat1 (V4 m) c).arrAt w cfg1.N = V5 m c (Pipeline.arrRef spec1 w) :=
  (W5_arr m c w).symm
theorem hrest1 (c : Dev nD) : ∀ b, b ∉ Finset.univ.image (Pipeline.arrRef spec1) → V5 m c b = V4 m c b :=
  fun b hb => W5_of_ne m c b fun w e => hb (Finset.mem_image.mpr ⟨w, Finset.mem_univ _, e⟩)
/-- After the closing slice of the first 50000 rows: the end of the program. -/
abbrev W6 : Dev nD → Valuation τ sig (Elt F) := fun c => StableHlo.after hostOps2 (W5 m c)

end Cert.Kernel.Hand

end
-- ==== Proof.Kernel.Run.lean ====
/-
  The program from launch to return: four stretches of host operations and the two pipelined calls, composed in order.
  Every weakly fair execution terminates without a fault, and at the end every unscoped buffer of the core holds what
  the boundary valuations say (W6).
-/
import proofs.«417799_j32796370273059_1_alg».proof.Proof.Kernel.Oblig0
import proofs.«417799_j32796370273059_1_alg».proof.Proof.Kernel.Oblig1
import proofs.«417799_j32796370273059_1_alg».proof.Proof.Kernel.Vals
import proofs.«417799_j32796370273059_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The proof data of the two calls and the thread state between items -/

/-- Each call's proof data at the contents the call is entered from: the gather from W3, the scatter from W4. -/
def pdats : (p : Fin 2) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V4 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the unscoped buffers through every item: the generator register at some state, and the core
    owing nothing. -/
abbrev R (c : Dev nD) : sProp 𝕄 :=
  iprop((∃ r, prngReg c r) ∗ ∃ W, owes (c : Thread nD τ) (0 : CellTallies nD τ sig Unit) W)

/-- A stretch of host operations as a segment: from every unscoped buffer at W, to every unscoped buffer at what the
    stretch leaves, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without the debt: every unscoped buffer at W6, the generator register at some state. -/
abbrev Tₙ (c : Dev nD) : sProp 𝕄 :=
  iprop(StableHlo.held (c : Thread nD τ) (Pipeline.ucRefs τ sig) (W6 m c) ∗ ∃ r, prngReg c r)

/-! # The invariants at the two ends of each call, against the scoped buffers the call does not stage through -/

/-- Call 0's invariant before the first point, from the generator register and the scoped buffers no window of the
    call stages through: the accumulator's buffer at whatever it holds, the other call's buffers beside it. -/
theorem hin0 (c : Dev nD) :
    (iprop((∃ r, prngReg c r) ∗ Pipeline.scopedRest (Ix := Unit) (Name := ℕ) (U := UR sig nD τ) (Lvl := ℕ) (Val := Elt F) spec0 c) : sProp 𝕄)
      ⊢ iprop((∃ d, owns (c : Thread nD τ) scr0 fullShare d) ∗ Rest0 (F := F) c ∗ (∃ r, prngReg c r)) := by
  rw [scopedRest0_eq]; unfold Rest0; simp only [scr0, owns_whole]
  iintro ⟨Hp, Hs, Hr⟩
  isplitl [Hs]; · iexact Hs
  isplitl [Hr]; · iexact Hr
  iexact Hp

/-- Call 0's invariant after the last point gives the register and those scoped buffers back, the accumulator's
    contents forgotten. -/
theorem hout0 (c : Dev nD) (d : Vec F S4096x128 .f32) :
    (iprop(owns (c : Thread nD τ) scr0 fullShare d ∗ Rest0 (F := F) c ∗ (∃ r, prngReg c r)) : sProp 𝕄)
      ⊢ iprop((∃ r, prngReg c r) ∗ Pipeline.scopedRest (Ix := Unit) (Name := ℕ) (U := UR sig nD τ) (Lvl := ℕ) (Val := Elt F) spec0 c) := by
  rw [scopedRest0_eq]; unfold Rest0; simp only [scr0, owns_whole]
  iintro ⟨Hs, Hr, Hp⟩
  isplitl [Hp]; · iexact Hp
  isplitl [Hs]; · iexists _; iexact Hs
  iexact Hr

/-- The same for call 1, whose accumulator's buffer comes last among the scoped buffers. -/
theorem hin1 (c : Dev nD) :
    (iprop((∃ r, prngReg c r) ∗ Pipeline.scopedRest (Ix := Unit) (Name := ℕ) (U := UR sig nD τ) (Lvl := ℕ) (Val := Elt F) spec1 c) : sProp 𝕄)
      ⊢ iprop(Rest1 (F := F) c ∗ (∃ d, owns (c : Thread nD τ) scr1 fullShare d) ∗ (∃ r, prngReg c r)) := by
  rw [scopedRest1_eq]; unfold Rest1; simp only [scr1, owns_whole]
  iintro ⟨Hp, H0, H1, H2, H3, H4, H5, H6, Hs⟩
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [Hs]; · iexact Hs
  iexact Hp

theorem hout1 (c : Dev nD) (d : Vec F S1024x128 .f32) :
    (iprop(Rest1 (F := F) c ∗ owns (c : Thread nD τ) scr1 fullShare d ∗ (∃ r, prngReg c r)) : sProp 𝕄)
      ⊢ iprop((∃ r, prngReg c r) ∗ Pipeline.scopedRest (Ix := Unit) (Name := ℕ) (U := UR sig nD τ) (Lvl := ℕ) (Val := Elt F) spec1 c) := by
  rw [scopedRest1_eq]; unfold Rest1; simp only [scr1, owns_whole]
  iintro ⟨⟨H0, H1, H2, H3, H4, H5, H6⟩, Hs, Hp⟩
  isplitl [Hp]; · iexact Hp
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact Hs

/-- Call 0's invariant at the first point and at the last, read off the proof data at any entry contents. -/
theorem Phi0_first (V : (c : Dev nD) → (b : Ref sig .tc) → Buf (Elt F) ((c : Thread nD τ).loc b)) (c : Dev nD) :
    (dat0 V c).Φ 0 = iprop((∃ d, owns (c : Thread nD τ) scr0 fullShare d) ∗ Rest0 (F := F) c ∗ (∃ r, prngReg c r)) :=
  Phi0_zero V c _ (Nat.zero_le _) rfl
theorem Phi0_last (V : (c : Dev nD) → (b : Ref sig .tc) → Buf (Elt F) ((c : Thread nD τ).loc b)) (c : Dev nD) :
    (dat0 V c).Φ (Fin.last cfg0.N)
      ⊢ iprop((∃ r, prngReg c r) ∗ Pipeline.scopedRest (Ix := Unit) (Name := ℕ) (U := UR sig nD τ) (Lvl := ℕ) (Val := Elt F) spec0 c) := by
  have hN : (Fin.last cfg0.N).val ≠ 0 := by
    rw [Fin.val_last]; exact (N_0 ▸ (by decide) : grid0.N ≠ 0)
  rw [show (dat0 V c).Φ (Fin.last cfg0.N) = Phi0 V c (Fin.last cfg0.N).val (Nat.le_of_lt_succ (Fin.last cfg0.N).isLt) from rfl,
    Phi0_pos V c _ _ hN]
  exact hout0 c _
theorem Phi1_first (V : (c : Dev nD) → (b : Ref sig .tc) → Buf (Elt F) ((c : Thread nD τ).loc b)) (c : Dev nD) :
    (dat1 V c).Φ 0 = iprop(Rest1 (F := F) c ∗ (∃ d, owns (c : Thread nD τ) scr1 fullShare d) ∗ (∃ r, prngReg c r)) :=
  Phi1_zero V c _ (Nat.zero_le _) rfl
theorem Phi1_last (V : (c : Dev nD) → (b : Ref sig .tc) → Buf (Elt F) ((c : Thread nD τ).loc b)) (c : Dev nD) :
    (dat1 V c).Φ (Fin.last cfg1.N)
      ⊢ iprop((∃ r, prngReg c r) ∗ Pipeline.scopedRest (Ix := Unit) (Name := ℕ) (U := UR sig nD τ) (Lvl := ℕ) (Val := Elt F) spec1 c) := by
  have hN : (Fin.last cfg1.N).val ≠ 0 := by
    rw [Fin.val_last]; exact (N_1 ▸ (by decide) : grid1.N ≠ 0)
  rw [show (dat1 V c).Φ (Fin.last cfg1.N) = Phi1 V c (Fin.last cfg1.N).val (Nat.le_of_lt_succ (Fin.last cfg1.N).isLt) from rfl,
    Phi1_pos V c _ _ hN]
  exact hout1 c _

/-! # The two calls as segments -/

set_option backward.isDefEq.respectTransparency.types false in
/-- THE GATHER CALL over the thread state: entered from every unscoped buffer at W3, left at W4. Its arrays are
    split out of the unscoped buffers and put back at what the pipeline leaves; the generator register and the scoped
    buffers the call does not stage through go into the invariant and come back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = _ from Phi0_first (V3 m) c]
    iintro ⟨Hp, -, Hr⟩
    iapply (hin0 (F := F) c)
    isplitl [Hp]; · iexact Hp
    iexact Hr
  hout c := by
    rw [Pipeline.ownSems0_none]
    refine BIBase.Entails.trans (Phi0_last (V3 m) c) ?_
    iintro ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SCATTER CALL over the thread state: entered from every unscoped buffer at W4 (what the gather call leaves),
    left at W5; otherwise as the gather call. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = _ from Phi1_first (V4 m) c]
    iintro ⟨Hp, -, Hr⟩
    iapply (hin1 (F := F) c)
    isplitl [Hp]; · iexact Hp
    iexact Hr
  hout c := by
    rw [Pipeline.ownSems0_none]
    refine BIBase.Entails.trans (Phi1_last (V4 m) c) ?_
    iintro ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (V5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # The program as segments, and the launch -/

/-- The six items in order: three host stretches, the gather call, the scatter call, the closing host stretch; each
    entered from the contents the one before it leaves. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .region (reg1 m),
    .host (hseg hostOps2 hostOps2_sub hostOps2_fresh (W5 m)) ]

/-- The program is the run of its segments. -/
theorem main_run (c : Dev nD) : main (F := F) c = Pipeline.Seg.run (segs m) := by
  rw [main_chain c, Pipeline.Seg.run_eq_chain]; rfl

set_option backward.isDefEq.respectTransparency.types false in
theorem run_main : θ_run defs (onTc (τ := τ) (main (F := F))) ⟨m, fun _ => 0, ρ⟩ (fun r => ∀ c : Dev nD,
      ∀ b ∈ Pipeline.ucRefs τ sig, r.2.mem ((c : Thread nD τ).1, b) = W6 m c b) := by
  exact Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c)
        ⊢ iprop(Tₙ m c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun _ h => h)

end Cert.Kernel.Hand

end
-- ==== Proof.Kernel.Frame.lean ====
/-
  What the run leaves in the argument arrays and in the result array. No stretch of host operations writes an
  argument and no call has one as an output, so walking the boundary valuations back from the end each argument holds
  its launch contents; the result array holds what the last valuation says.
-/
import proofs.«417799_j32796370273059_1_alg».proof.Proof.Kernel.Run
import proofs.«417799_j32796370273059_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped reference of the core is among those the final state is read at. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A reference that is neither written by a host stretch nor an array of either call keeps its launch contents. -/
theorem W6_kept (c : Dev nD) (r : Ref sig .tc) (h0 : r ∉ hostOps0_W) (h1 : r ∉ hostOps0_1_W) (h2 : r ∉ hostOps0_2_W)
    (h3 : ∀ w, Pipeline.arrRef spec0 w ≠ r) (h4 : ∀ w, Pipeline.arrRef spec1 w ≠ r) (h5 : r ∉ hostOps2_W) :
    W6 m c (Proc.devRef .tc r) = m ((c : Thread nD τ).loc r) :=
  calc W6 m c (Proc.devRef .tc r)
    _ = W5 m c (Proc.devRef .tc r) := StableHlo.after_of_writes_sub hostOps2 _ hostOps2_writes h5
    _ = W4 m c (Proc.devRef .tc r) := W5_of_ne m c r h4
    _ = W3 m c (Proc.devRef .tc r) := W4_of_ne m c r h3
    _ = W2 m c (Proc.devRef .tc r) := StableHlo.after_of_writes_sub hostOps0_2 _ hostOps0_2_writes h2
    _ = W1 m c (Proc.devRef .tc r) := StableHlo.after_of_writes_sub hostOps0_1 _ hostOps0_1_writes h1
    _ = W0 m c (Proc.devRef .tc r) := StableHlo.after_of_writes_sub hostOps0 _ hostOps0_writes h0
    _ = m ((c : Thread nD τ).loc r) := rfl

theorem W6_arg0 (c : Dev nD) : W6 m c (Proc.devRef .tc main_arg0) = m ((c : Thread nD τ).loc main_arg0) :=
  W6_kept m c main_arg0 (by decide) (by decide) (by decide) (by decide) (by decide) (by decide)
theorem W6_arg1 (c : Dev nD) : W6 m c (Proc.devRef .tc main_arg1) = m ((c : Thread nD τ).loc main_arg1) :=
  W6_kept m c main_arg1 (by decide) (by decide) (by decide) (by decide) (by decide) (by decide)

/-- THE RUN, read at the result and at the arguments: every weakly fair execution terminates, the result array at
    the last valuation's contents and both argument arrays as launched. -/
theorem run_result : θ_run defs (onTc (τ := τ) (main (F := F))) ⟨m, fun _ => 0, ρ⟩ (fun r => ∀ c : Dev nD,
      r.2.mem ((c.tc : Thread nD τ).loc main_v12) = W6 m c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨h c _ (mem_uc main_v12 (by decide)),
     (h c _ (mem_uc main_arg0 (by decide))).trans (W6_arg0 m c),
     (h c _ (mem_uc main_arg1 (by decide))).trans (W6_arg1 m c)⟩) (run_main m ρ)

/-- The frame: both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => (h c).2) (run_result m ρ)

end Cert.Kernel.Hand

end
-- ==== Proof.KernelIdeal.Data.lean ====
/-
  The two pipelined calls of the program, read as mathematics.

  Call 0 (the gather) walks a grid of 123 edge blocks by 49 node blocks, the node block moving fastest. At a point
  (e, n) it compares the 4096 source indices of edge block e with the 1024 node numbers of node block n, and adds to a
  4096 by 128 accumulator the product of that 0/1 matrix with node block n of the padded feature table. The
  accumulator is reset at n = 0 and written out (narrowed) at n = 48. Call 1 (the scatter) walks 49 node blocks by 123
  edge blocks, the edge block moving fastest; at (n, e) it adds to a 1024 by 128 accumulator the product of the 0/1
  matrix "node number = target index" with edge block e of the gathered rows, resets at e = 0 and writes out at
  e = 122.

  This module names what each accumulator holds after every grid point (acc0, acc1: a recursion on the point, one
  body payload per step), the invariant that carries the accumulator from point to point, and the proof data of the
  two pipelines over an arbitrary valuation V of the buffers at the call's entry.
-/
import proofs.«417799_j32796370273059_1_alg».proof.Proof.Gen.KernelIdeal.Launch
import proofs.«417799_j32796370273059_1_alg».proof.Proof.Gen.KernelIdeal.Skeleton
import proofs.«417799_j32796370273059_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Call 0: the gather -/

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body's first branch is taken exactly when the node-block coordinate is 0 … -/
abbrev cond0_0 (i : grid0.Coords) : Prop := (Scalar.cmpi .ne (Scalar.extui (Scalar.cmpi .eq (BitVec.ofNat 32 (i 1).val) 0#32)) 0#32) = 1#1
/-- … and its last exactly when it is 48. -/
abbrev cond0_1 (i : grid0.Coords) : Prop := k0_cond2 i = 1#1

theorem hcond0_0 : ∀ t : Fin cfg0.N, cond0_0 (grid0.coords t) ↔ t.val % 49 = 0 :=
  (by decide +kernel : ∀ t : Fin grid0.N, cond0_0 (grid0.coords t) ↔ t.val % 49 = 0)
theorem hcond0_1 : ∀ t : Fin cfg0.N, cond0_1 (grid0.coords t) ↔ t.val % 49 = 48 :=
  (by decide +kernel : ∀ t : Fin grid0.N, cond0_1 (grid0.coords t) ↔ t.val % 49 = 48)

/-- The staging memrefs the pipeline passes the body at point t, and the accumulator's memref. -/
abbrev ms0_0 (t : Fin cfg0.N) : Memref sig .tc .vmem S4096x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x128 .bf16 := win0_2.stage (cfg0.slots t 2)
abbrev hs0_2 (t : Fin cfg0.N) : (ms0_2 t).IsWhole := hstage0_2 ((cfg0.slots t 2).cast nbuf0_2)
abbrev scr0 : Memref sig .tc .vmem S4096x128 .f32 := Memref.whole cc0_scratch0

/-- THE ACCUMULATOR of call 0 after point n: the body's update of the index block, the feature block and what the
    accumulator held — zero at the first node block of a row of the grid, else what point n - 1 left. -/
def acc0 (c : Dev nD) : (n : ℕ) → n < cfg0.N → Vec F S4096x128 .f32
  | 0, h => k0_pay2 (grid0.coords ⟨0, h⟩) (iblk0 V c 0 ⟨0, h⟩) (iblk0 V c 1 ⟨0, h⟩) (k0_pay1 (F := F))
  | n + 1, h => k0_pay2 (grid0.coords ⟨n + 1, h⟩) (iblk0 V c 0 ⟨n + 1, h⟩) (iblk0 V c 1 ⟨n + 1, h⟩)
      (if (n + 1) % 49 = 0 then k0_pay1 (F := F) else acc0 c n (Nat.lt_of_succ_lt h))

/-- At the first node block the accumulator restarts from zero. -/
theorem acc0_reset (c : Dev nD) (t : Fin cfg0.N) (h0 : t.val % 49 = 0) :
    acc0 V c t.val t.isLt = k0_pay2 (grid0.coords t) (iblk0 V c 0 t) (iblk0 V c 1 t) (k0_pay1 (F := F)) := by
  obtain ⟨n, hn⟩ := t
  cases n with
  | zero => rfl
  | succ n => exact (congrArg (k0_pay2 _ _ _) (if_pos h0))

/-- At every other node block it continues from what the point before left. -/
theorem acc0_step (c : Dev nD) (t : Fin cfg0.N) (h0 : ¬ t.val % 49 = 0) :
    acc0 V c t.val t.isLt = k0_pay2 (grid0.coords t) (iblk0 V c 0 t) (iblk0 V c 1 t)
      (acc0 V c (t.val - 1) (Nat.lt_of_le_of_lt (Nat.sub_le _ _) t.isLt)) := by
  obtain ⟨n, hn⟩ := t
  cases n with
  | zero => exact absurd (Nat.zero_mod _) h0
  | succ n => exact (congrArg (k0_pay2 _ _ _) (if_neg h0))

/-- The scoped buffers of the core that call 0 neither stages through nor accumulates in (the other call's), each at
    some contents. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The invariant of call 0 before point n: the accumulator at anything before the first point, afterwards at what
    the point before left; beside it the other scoped buffers and the generator register, untouched. -/
def Phi0 (c : Dev nD) : (n : ℕ) → n ≤ cfg0.N → sProp 𝕄
  | 0, _ => iprop((∃ d, owns (c : Thread nD τ) scr0 fullShare d) ∗ Rest0 (F := F) c ∗ (∃ r, prngReg c r))
  | n + 1, hn => iprop(owns (c : Thread nD τ) scr0 fullShare (acc0 V c n hn) ∗ Rest0 (F := F) c ∗ (∃ r, prngReg c r))

theorem Phi0_zero (c : Dev nD) (n : ℕ) (h : n ≤ cfg0.N) (hz : n = 0) :
    Phi0 V c n h = iprop((∃ d, owns (c : Thread nD τ) scr0 fullShare d) ∗ Rest0 (F := F) c ∗ (∃ r, prngReg c r)) := by
  subst hz; rfl
theorem Phi0_succ (c : Dev nD) (n : ℕ) (hn : n < cfg0.N) :
    Phi0 V c (n + 1) hn = iprop(owns (c : Thread nD τ) scr0 fullShare (acc0 V c n hn) ∗ Rest0 (F := F) c ∗ (∃ r, prngReg c r)) := rfl
theorem Phi0_pos (c : Dev nD) (n : ℕ) (h : n ≤ cfg0.N) (hz : n ≠ 0) :
    Phi0 V c n h = iprop(owns (c : Thread nD τ) scr0 fullShare (acc0 V c (n - 1) (by omega)) ∗ Rest0 (F := F) c ∗ (∃ r, prngReg c r)) := by
  cases n with
  | zero => exact absurd rfl hz
  | succ n => rfl

/-- The proof data of call 0 on core c: the arrays as the call finds them; after the body at point t each input's
    buffer at its block and the output's at the narrowed accumulator (read only where the block is written back). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c t.val t.isLt)
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (acc0 V c t.val t.isLt) := by dsimp only [dat0]
theorem Phi0_castSucc (c : Dev nD) (t : Fin cfg0.N) :
    (dat0 V c).Φ t.castSucc = Phi0 V c t.val (Nat.le_of_lt t.isLt) := by
  dsimp only [dat0]; simp only [Fin.coe_castSucc]

/-! # Call 1: the scatter -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 1).val) 0#32)) 0#32) = 1#1
abbrev cond1_1 (i : grid1.Coords) : Prop := k1_cond2 i = 1#1

theorem hcond1_0 : ∀ t : Fin cfg1.N, cond1_0 (grid1.coords t) ↔ t.val % 123 = 0 :=
  (by decide +kernel : ∀ t : Fin grid1.N, cond1_0 (grid1.coords t) ↔ t.val % 123 = 0)
theorem hcond1_1 : ∀ t : Fin cfg1.N, cond1_1 (grid1.coords t) ↔ t.val % 123 = 122 :=
  (by decide +kernel : ∀ t : Fin grid1.N, cond1_1 (grid1.coords t) ↔ t.val % 123 = 122)

abbrev ms1_0 (t : Fin cfg1.N) : Memref sig .tc .vmem S1x4096 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
abbrev scr1 : Memref sig .tc .vmem S1024x128 .f32 := Memref.whole cc1_scratch0

/-- THE ACCUMULATOR of call 1 after point n. -/
def acc1 (c : Dev nD) : (n : ℕ) → n < cfg1.N → Vec F S1024x128 .f32
  | 0, h => k1_pay2 (grid1.coords ⟨0, h⟩) (iblk1 V c 0 ⟨0, h⟩) (iblk1 V c 1 ⟨0, h⟩) (k1_pay1 (F := F))
  | n + 1, h => k1_pay2 (grid1.coords ⟨n + 1, h⟩) (iblk1 V c 0 ⟨n + 1, h⟩) (iblk1 V c 1 ⟨n + 1, h⟩)
      (if (n + 1) % 123 = 0 then k1_pay1 (F := F) else acc1 c n (Nat.lt_of_succ_lt h))

theorem acc1_reset (c : Dev nD) (t : Fin cfg1.N) (h0 : t.val % 123 = 0) :
    acc1 V c t.val t.isLt = k1_pay2 (grid1.coords t) (iblk1 V c 0 t) (iblk1 V c 1 t) (k1_pay1 (F := F)) := by
  obtain ⟨n, hn⟩ := t
  cases n with
  | zero => rfl
  | succ n => exact (congrArg (k1_pay2 _ _ _) (if_pos h0))

theorem acc1_step (c : Dev nD) (t : Fin cfg1.N) (h0 : ¬ t.val % 123 = 0) :
    acc1 V c t.val t.isLt = k1_pay2 (grid1.coords t) (iblk1 V c 0 t) (iblk1 V c 1 t)
      (acc1 V c (t.val - 1) (Nat.lt_of_le_of_lt (Nat.sub_le _ _) t.isLt)) := by
  obtain ⟨n, hn⟩ := t
  cases n with
  | zero => exact absurd (Nat.zero_mod _) h0
  | succ n => exact (congrArg (k1_pay2 _ _ _) (if_neg h0))

/-- The scoped buffers that call 1 neither stages through nor accumulates in (call 0's), each at some contents. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

def Phi1 (c : Dev nD) : (n : ℕ) → n ≤ cfg1.N → sProp 𝕄
  | 0, _ => iprop(Rest1 (F := F) c ∗ (∃ d, owns (c : Thread nD τ) scr1 fullShare d) ∗ (∃ r, prngReg c r))
  | n + 1, hn => iprop(Rest1 (F := F) c ∗ owns (c : Thread nD τ) scr1 fullShare (acc1 V c n hn) ∗ (∃ r, prngReg c r))

theorem Phi1_zero (c : Dev nD) (n : ℕ) (h : n ≤ cfg1.N) (hz : n = 0) :
    Phi1 V c n h = iprop(Rest1 (F := F) c ∗ (∃ d, owns (c : Thread nD τ) scr1 fullShare d) ∗ (∃ r, prngReg c r)) := by
  subst hz; rfl
theorem Phi1_succ (c : Dev nD) (n : ℕ) (hn : n < cfg1.N) :
    Phi1 V c (n + 1) hn = iprop(Rest1 (F := F) c ∗ owns (c : Thread nD τ) scr1 fullShare (acc1 V c n hn) ∗ (∃ r, prngReg c r)) := rfl
theorem Phi1_pos (c : Dev nD) (n : ℕ) (h : n ≤ cfg1.N) (hz : n ≠ 0) :
    Phi1 V c n h = iprop(Rest1 (F := F) c ∗ owns (c : Thread nD τ) scr1 fullShare (acc1 V c (n - 1) (by omega)) ∗ (∃ r, prngReg c r)) := by
  cases n with
  | zero => exact absurd rfl hz
  | succ n => rfl

/-- The proof data of call 1 on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]
theorem Phi1_castSucc (c : Dev nD) (t : Fin cfg1.N) :
    (dat1 V c).Φ t.castSucc = Phi1 V c t.val (Nat.le_of_lt t.isLt) := by
  dsimp only [dat1]; simp only [Fin.coe_castSucc]

end Cert.KernelIdeal.Hand

end
-- ==== Proof.KernelIdeal.Body0.lean ====
/-
  The gather call's body at one grid point, in its three cases: the first node block of a row (the accumulator is
  reset, then updated), a middle one (updated), and the last (updated, then narrowed and stored into the output
  block). In each case the index block and the feature block are read and left as they were, and the accumulator
  ends at the body's update of them and of what it held (zero after a reset).
-/
import proofs.«417799_j32796370273059_1_alg».proof.Proof.KernelIdeal.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First node block of a row (and not the last): the accumulator, whatever it held, ends at the update of zero. -/
theorem run0_A (c : Dev nD) (E : Set ℕ) (i : grid0.Coords) (arg2 : Memref sig .tc .vmem S4096x1 .i32) (harg2 : arg2.IsWhole) (arg3 : Memref sig .tc .vmem S1024x128 .f32) (harg3 : arg3.IsWhole)
    (arg4 : Memref sig .tc .vmem S4096x128 .bf16) (harg4 : arg4.IsWhole) (arg5 : Memref sig .tc .vmem S4096x128 .f32) (harg5 : arg5.IsWhole)
    (hc0 : cond0_0 i) (hc1 : ¬ cond0_1 i) (R : Vec F S4096x1 .i32) (X : Vec F S1024x128 .f32) (K : PUnit → sProp 𝕄) :
    iprop(owns (c : Thread nD τ) arg2 fullShare R ∗ owns (c : Thread nD τ) arg3 fullShare X ∗ (∃ d, owns (c : Thread nD τ) arg5 fullShare d)
        ∗ (iprop(owns (c : Thread nD τ) arg2 fullShare R ∗ owns (c : Thread nD τ) arg3 fullShare X
            ∗ owns (c : Thread nD τ) arg5 fullShare (k0_pay2 i R X (k0_pay1 (F := F)))) -∗ K ⟨⟩))
      ⊢ wp frame (wpE (defs₀ (F := F)) Variants.none c none) E (cc0__gather_kernel i arg2 harg2 arg3 harg3 arg4 harg4 arg5 harg5) K := by
  simp only [cc0__gather_kernel_eq_skeleton]; unfold cc0__gather_kernel_skel
  unfold owns
  iintro ⟨⟨%f2, %hf2, H2⟩, ⟨%f3, %hf3, H3⟩, ⟨%d5, %f5, -, H5⟩, Hk⟩
  obtain rfl := harg2.eq_unread hf2; obtain rfl := harg3.eq_unread hf3
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  iexists _; isplitr
  swap; · iexact H5
  ipureintro
  have hz5 : (![0, 0] : Fin S4096x128.rank → Nat) = fun _ => 0 := by funext a; fin_cases a <;> rfl
  have hz2 : (![0, 0] : Fin S4096x1.rank → Nat) = fun _ => 0 := by funext a; fin_cases a <;> rfl
  have hz3 : (![0, 0] : Fin S1024x128.rank → Nat) = fun _ => 0 := by funext a; fin_cases a <;> rfl
  have hcov5 : ∀ (w w' : S4096x128.Idx → Elt F .f32) (y : S4096x128.Idx),
      ∃ p ∈ ([⟨Rect.unit (s := S4096x128) ![0, 0] S4096x128.size inb_S4096x128_S4096x128_0_0, w⟩,
              ⟨Rect.unit (s := S4096x128) ![0, 0] S4096x128.size inb_S4096x128_S4096x128_0_0, w'⟩] : List (View.Piece (Elt F) S4096x128 .f32)), y ∈ p.1.set :=
    fun w w' y => ⟨_, List.mem_cons.mpr (Or.inl rfl), View.mem_set_unit_zero (S := S4096x128) hz5 inb_S4096x128_S4096x128_0_0 y⟩
  sl_unfold_words
  rw [View.read_writes_eq_canon _ _ _ (hcov5 _ _)]
  rw [View.canon_cons_unit_zero (S := S4096x128) hz5]
  simp only [View.readCov_unit_zero (S := S4096x128) _ hz5, View.readAt_eq_ld, harg2.read_unread, harg3.read_unread,
    View.ld_unit_zero (S := S4096x1) hz2, View.ld_unit_zero (S := S1024x128) hz3]

set_option maxHeartbeats 1000000 in
/-- A middle node block: the accumulator at S ends at the update of S. -/
theorem run0_B (c : Dev nD) (E : Set ℕ) (i : grid0.Coords) (arg2 : Memref sig .tc .vmem S4096x1 .i32) (harg2 : arg2.IsWhole) (arg3 : Memref sig .tc .vmem S1024x128 .f32) (harg3 : arg3.IsWhole)
    (arg4 : Memref sig .tc .vmem S4096x128 .bf16) (harg4 : arg4.IsWhole) (arg5 : Memref sig .tc .vmem S4096x128 .f32) (harg5 : arg5.IsWhole)
    (hc0 : ¬ cond0_0 i) (hc1 : ¬ cond0_1 i) (R : Vec F S4096x1 .i32) (X : Vec F S1024x128 .f32) (S : Vec F S4096x128 .f32) (K : PUnit → sProp 𝕄) :
    iprop(owns (c : Thread nD τ) arg2 fullShare R ∗ owns (c : Thread nD τ) arg3 fullShare X ∗ owns (c : Thread nD τ) arg5 fullShare S
        ∗ (iprop(owns (c : Thread nD τ) arg2 fullShare R ∗ owns (c : Thread nD τ) arg3 fullShare X
            ∗ owns (c : Thread nD τ) arg5 fullShare (k0_pay2 i R X S)) -∗ K ⟨⟩))
      ⊢ wp frame (wpE (defs₀ (F := F)) Variants.none c none) E (cc0__gather_kernel i arg2 harg2 arg3 harg3 arg4 harg4 arg5 harg5) K := by
  simp only [cc0__gather_kernel_eq_skeleton]; unfold cc0__gather_kernel_skel
  unfold owns
  iintro ⟨⟨%f2, %hf2, H2⟩, ⟨%f3, %hf3, H3⟩, ⟨%f5, %hf5, H5⟩, Hk⟩
  obtain rfl := harg2.eq_unread hf2; obtain rfl := harg3.eq_unread hf3; obtain rfl := harg5.eq_unread hf5
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  iexists _; isplitr
  swap; · iexact H5
  ipureintro
  have hz5 : (![0, 0] : Fin S4096x128.rank → Nat) = fun _ => 0 := by funext a; fin_cases a <;> rfl
  have hz2 : (![0, 0] : Fin S4096x1.rank → Nat) = fun _ => 0 := by funext a; fin_cases a <;> rfl
  have hz3 : (![0, 0] : Fin S1024x128.rank → Nat) = fun _ => 0 := by funext a; fin_cases a <;> rfl
  have hcov : ∀ (w : S4096x128.Idx → Elt F .f32) (y : S4096x128.Idx),
      ∃ p ∈ ([⟨Rect.unit (s := S4096x128) ![0, 0] S4096x128.size inb_S4096x128_S4096x128_0_0, w⟩] : List (View.Piece (Elt F) S4096x128 .f32)), y ∈ p.1.set :=
    fun w y => ⟨_, List.mem_singleton_self _, View.mem_set_unit_zero (S := S4096x128) hz5 inb_S4096x128_S4096x128_0_0 y⟩
  rw [View.read_writes_eq_canon _ _ _ (hcov _)]
  rw [View.canon_unit_zero hz5]
  simp only [View.readAt_eq_ld, harg2.read_unread, harg3.read_unread, harg5.read_unread,
    View.ld_unit_zero (S := S4096x1) hz2, View.ld_unit_zero (S := S1024x128) hz3, View.ld_unit_zero (S := S4096x128) hz5]

set_option maxHeartbeats 1000000 in
/-- The last node block (and not the first): as a middle one, and the output block, whatever it held, ends at the
    narrowed accumulator. -/
theorem run0_C (c : Dev nD) (E : Set ℕ) (i : grid0.Coords) (arg2 : Memref sig .tc .vmem S4096x1 .i32) (harg2 : arg2.IsWhole) (arg3 : Memref sig .tc .vmem S1024x128 .f32) (harg3 : arg3.IsWhole)
    (arg4 : Memref sig .tc .vmem S4096x128 .bf16) (harg4 : arg4.IsWhole) (arg5 : Memref sig .tc .vmem S4096x128 .f32) (harg5 : arg5.IsWhole)
    (hc0 : ¬ cond0_0 i) (hc1 : cond0_1 i) (R : Vec F S4096x1 .i32) (X : Vec F S1024x128 .f32) (S : Vec F S4096x128 .f32) (K : PUnit → sProp 𝕄) :
    iprop(owns (c : Thread nD τ) arg2 fullShare R ∗ owns (c : Thread nD τ) arg3 fullShare X ∗ (∃ d, owns (c : Thread nD τ) arg4 fullShare d) ∗ owns (c : Thread nD τ) arg5 fullShare S
        ∗ (iprop(owns (c : Thread nD τ) arg2 fullShare R ∗ owns (c : Thread nD τ) arg3 fullShare X
            ∗ owns (c : Thread nD τ) arg4 fullShare (k0_pay3 (k0_pay2 i R X S)) ∗ owns (c : Thread nD τ) arg5 fullShare (k0_pay2 i R X S)) -∗ K ⟨⟩))
      ⊢ wp frame (wpE (defs₀ (F := F)) Variants.none c none) E (cc0__gather_kernel i arg2 harg2 arg3 harg3 arg4 harg4 arg5 harg5) K := by
  simp only [cc0__gather_kernel_eq_skeleton]; unfold cc0__gather_kernel_skel
  unfold owns
  iintro ⟨⟨%f2, %hf2, H2⟩, ⟨%f3, %hf3, H3⟩, ⟨%d4, %f4, -, H4⟩, ⟨%f5, %hf5, H5⟩, Hk⟩
  obtain rfl := harg2.eq_unread hf2; obtain rfl := harg3.eq_unread hf3; obtain rfl := harg5.eq_unread hf5
  sl_exec (disch := first | exact hc0 | exact hc1)
  sl_step
  have hz5 : (![0, 0] : Fin S4096x128.rank → Nat) = fun _ => 0 := by funext a; fin_cases a <;> rfl
  have hz2 : (![0, 0] : Fin S4096x1.rank → Nat) = fun _ => 0 := by funext a; fin_cases a <;> rfl
  have hz3 : (![0, 0] : Fin S1024x128.rank → Nat) = fun _ => 0 := by funext a; fin_cases a <;> rfl
  have hcov5 : ∀ (w : S4096x128.Idx → Elt F .f32) (y : S4096x128.Idx),
      ∃ p ∈ ([⟨Rect.unit (s := S4096x128) ![0, 0] S4096x128.size inb_S4096x128_S4096x128_0_0, w⟩] : List (View.Piece (Elt F) S4096x128 .f32)), y ∈ p.1.set :=
    fun w y => ⟨_, List.mem_singleton_self _, View.mem_set_unit_zero (S := S4096x128) hz5 inb_S4096x128_S4096x128_0_0 y⟩
  have hcov4 : ∀ (w : S4096x128.Idx → Elt F .bf16) (y : S4096x128.Idx),
      ∃ p ∈ ([⟨Rect.unit (s := S4096x128) ![0, 0] S4096x128.size inb_S4096x128_S4096x128_0_0, w⟩] : List (View.Piece (Elt F) S4096x128 .bf16)), y ∈ p.1.set :=
    fun w y => ⟨_, List.mem_singleton_self _, View.mem_set_unit_zero (S := S4096x128) hz5 inb_S4096x128_S4096x128_0_0 y⟩
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_words
    rw [View.read_writes_eq_canon _ _ _ (hcov4 _)]
    rw [View.canon_unit_zero hz5]
    simp only [View.readCov_unit_zero (S := S4096x128) _ hz5, View.readAt_eq_ld, harg2.read_unread, harg3.read_unread,
      harg5.read_unread, View.ld_unit_zero (S := S4096x1) hz2, View.ld_unit_zero (S := S1024x128) hz3,
      View.ld_unit_zero (S := S4096x128) hz5]
  iexists _; isplitr
  swap; · iexact H5
  ipureintro
  sl_unfold_words
  rw [View.read_writes_eq_canon _ _ _ (hcov5 _)]
  rw [View.canon_unit_zero hz5]
  simp only [View.readAt_eq_ld, harg2.read_unread, harg3.read_unread, harg5.read_unread,
    View.ld_unit_zero (S := S4096x1) hz2, View.ld_unit_zero (S := S1024x128) hz3, View.ld_unit_zero (S := S4096x128) hz5]

end Cert.KernelIdeal.Hand

end
-- ==== Proof.KernelIdeal.Oblig0.lean ====
/-
  The body obligation of call 0: at every grid point, from the invariant before the point and the windows' current
  buffers as the pipeline hands them over, the body runs to the invariant after the point with every buffer at what the
  proof data say — an input's at its block, the output's at what the last point of a row stores and untouched elsewhere.
-/
import proofs.«417799_j32796370273059_1_alg».proof.Proof.KernelIdeal.Body0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The schedule of the three windows -/

/-- The output window is idle wherever the last-node-block condition fails, … -/
theorem idleAt0_2 (t : Fin cfg0.N) (h : ¬ cond0_1 (grid0.coords t)) : cfg0.idle 2 (cfg0.grid.coords t) = true := by
  show (!(k0_cond2 (grid0.coords t) == 1#1)) = true
  rw [beq_eq_false_iff_ne.mpr h]; rfl

/-- … live where it holds, … -/
theorem liveAt0_2 (t : Fin cfg0.N) (h : cond0_1 (grid0.coords t)) : cfg0.idle 2 (cfg0.grid.coords t) = false := by
  show (!(k0_cond2 (grid0.coords t) == 1#1)) = false
  rw [beq_iff_eq.mpr h]; rfl

/-- … and is not written back at a point that is not the last of its row. -/
theorem noFlush0_2 (t : Fin cfg0.N) (h1 : ¬ t.val % 49 = 48) : (cfg0.win 2).flush t = false :=
  Bool.eq_false_iff.mpr fun h => h1 ((flush0_2 t).mp h)

/-! ## What the input buffers hold when the body runs -/

/-- The index block's current buffer holds the block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- The feature block's current buffer holds the block at every point. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-! ## What the body leaves in each buffer -/

theorem leaves0_0 (c : Dev nD) (t : Fin cfg0.N) :
    (dat0 V c).leavesExact 0 t = owns (c : Thread nD τ) (ms0_0 t) fullShare (iblk0 V c 0 t) :=
  (show (dat0 V c).leavesExact 0 t = owns (c : Thread nD τ) (ms0_0 t) fullShare ((dat0 V c).after 0 t) from rfl).trans
    (by rw [after0_0])

theorem leaves0_1 (c : Dev nD) (t : Fin cfg0.N) :
    (dat0 V c).leavesExact 1 t = owns (c : Thread nD τ) (ms0_1 t) fullShare (iblk0 V c 1 t) :=
  (show (dat0 V c).leavesExact 1 t = owns (c : Thread nD τ) (ms0_1 t) fullShare ((dat0 V c).after 1 t) from rfl).trans
    (by rw [after0_1])

/-- At the last node block of a row the output buffer is left at the narrowed accumulator. -/
theorem leaves0_2_live (c : Dev nD) (t : Fin cfg0.N) (h : cond0_1 (grid0.coords t)) :
    (dat0 V c).leavesExact 2 t = owns (c : Thread nD τ) (ms0_2 t) fullShare (k0_pay3 (acc0 V c t.val t.isLt)) :=
  (show (dat0 V c).leavesExact 2 t = owns (c : Thread nD τ) (ms0_2 t) fullShare ((dat0 V c).after 2 t) from by
    unfold Dat.leavesExact; rw [liveAt0_2 t h]).trans (by rw [after0_2])

/-- Elsewhere it is handed back as it was found. -/
theorem leaves0_2_idle (c : Dev nD) (t : Fin cfg0.N) (h : ¬ cond0_1 (grid0.coords t)) (h1 : ¬ t.val % 49 = 48) :
    (dat0 V c).leavesExact 2 t = iprop(∃ d, owns (c : Thread nD τ) (ms0_2 t) fullShare ((dat0 V c).before 2 t d)) :=
  Dat.leavesExact_idle (dat0 V c) 2 t (idleAt0_2 t h) (noFlush0_2 t h1)

/-! ## The body at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 1600000 in
/-- The body at any point. The inputs' buffers hold their blocks; the point's position in its row says which of the
    three cases runs; the invariant hands over the accumulator (at anything before the very first point, which is a
    first node block; else at what the point before left) and takes it back at this point's update. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Phi0 V c (t.val + 1) t.isLt from rfl, Phi0_succ]
  rw [leaves0_0, leaves0_1, Phi0_castSucc V c t]
  by_cases h0 : t.val % 49 = 0
  · by_cases h1 : t.val % 49 = 48
    · exfalso; omega
    · have hc0 : cond0_0 (grid0.coords t) := (hcond0_0 t).mpr h0
      have hc1 : ¬ cond0_1 (grid0.coords t) := fun h => h1 ((hcond0_1 t).mp h)
      rw [leaves0_2_idle V c t hc1 h1, acc0_reset V c t h0]
      by_cases hz : t.val = 0
      · rw [Phi0_zero V c _ _ hz]
        iintro ⟨⟨HS, HR, Hg⟩, Ho, ⟨%d0, H0⟩, ⟨%d1, H1⟩, H2⟩
        iapply (run0_A c Set.univ (grid0.coords t) (ms0_0 t) (hs0_0 t) (ms0_1 t) (hs0_1 t) (ms0_2 t) (hs0_2 t) scr0 (Memref.isWhole_whole _) hc0 hc1 (iblk0 V c 0 t) (iblk0 V c 1 t) _)
        isplitl [H0]; · iexact H0
        isplitl [H1]; · iexact H1
        isplitl [HS]; · iexact HS
        iintro ⟨H0, H1, HS⟩
        isplitl [HS HR Hg]
        · isplitl [HS]; · iexact HS
          isplitl [HR]; · iexact HR
          iexact Hg
        isplitl [Ho]; · iexact Ho
        isplitl [H0]; · iexact H0
        isplitl [H1]; · iexact H1
        iexact H2
      · rw [Phi0_pos V c _ _ hz]
        iintro ⟨⟨HS, HR, Hg⟩, Ho, ⟨%d0, H0⟩, ⟨%d1, H1⟩, H2⟩
        iapply (run0_A c Set.univ (grid0.coords t) (ms0_0 t) (hs0_0 t) (ms0_1 t) (hs0_1 t) (ms0_2 t) (hs0_2 t) scr0 (Memref.isWhole_whole _) hc0 hc1 (iblk0 V c 0 t) (iblk0 V c 1 t) _)
        isplitl [H0]; · iexact H0
        isplitl [H1]; · iexact H1
        isplitl [HS]; · iexists _; iexact HS
        iintro ⟨H0, H1, HS⟩
        isplitl [HS HR Hg]
        · isplitl [HS]; · iexact HS
          isplitl [HR]; · iexact HR
          iexact Hg
        isplitl [Ho]; · iexact Ho
        isplitl [H0]; · iexact H0
        isplitl [H1]; · iexact H1
        iexact H2
  · have hc0 : ¬ cond0_0 (grid0.coords t) := fun h => h0 ((hcond0_0 t).mp h)
    have hz : t.val ≠ 0 := fun e => h0 (by rw [e])
    rw [Phi0_pos V c _ _ hz, acc0_step V c t h0]
    by_cases h1 : t.val % 49 = 48
    · have hc1 : cond0_1 (grid0.coords t) := (hcond0_1 t).mpr h1
      rw [leaves0_2_live V c t hc1, acc0_step V c t h0]
      iintro ⟨⟨HS, HR, Hg⟩, Ho, ⟨%d0, H0⟩, ⟨%d1, H1⟩, ⟨%d2, H2⟩⟩
      iapply (run0_C c Set.univ (grid0.coords t) (ms0_0 t) (hs0_0 t) (ms0_1 t) (hs0_1 t) (ms0_2 t) (hs0_2 t) scr0 (Memref.isWhole_whole _) hc0 hc1 (iblk0 V c 0 t) (iblk0 V c 1 t) (acc0 V c (t.val - 1) (Nat.lt_of_le_of_lt (Nat.sub_le _ _) t.isLt)) _)
      isplitl [H0]; · iexact H0
      isplitl [H1]; · iexact H1
      isplitl [H2]; · iexists _; iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · have hc1 : ¬ cond0_1 (grid0.coords t) := fun h => h1 ((hcond0_1 t).mp h)
      rw [leaves0_2_idle V c t hc1 h1]
      iintro ⟨⟨HS, HR, Hg⟩, Ho, ⟨%d0, H0⟩, ⟨%d1, H1⟩, H2⟩
      iapply (run0_B c Set.univ (grid0.coords t) (ms0_0 t) (hs0_0 t) (ms0_1 t) (hs0_1 t) (ms0_2 t) (hs0_2 t) scr0 (Memref.isWhole_whole _) hc0 hc1 (iblk0 V c 0 t) (iblk0 V c 1 t) (acc0 V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      iexact H2

theorem body_obligation0 (c : Dev nD) : BodyObligation (dat0 (F := F) V c) (defs₀ (F := F)) Variants.none () Set.univ := by
  intro t
  rw [bigSep_W0, bigSep_W0]
  exact sound_body0 V c t

end Cert.KernelIdeal.Hand

end
-- ==== Proof.KernelIdeal.Body1.lean ====
/-
  The scatter call's body at one grid point, in its three cases: the first edge block of a row of the grid (the
  accumulator is reset, then updated), a middle one (updated), and the last (updated, then stored into the output
  block). The index block and the block of gathered rows are read and left as they were.
-/
import proofs.«417799_j32796370273059_1_alg».proof.Proof.KernelIdeal.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First edge block (and not the last): the accumulator, whatever it held, ends at the update of zero. -/
theorem run1_A (c : Dev nD) (E : Set ℕ) (i : grid1.Coords) (arg2 : Memref sig .tc .vmem S1x4096 .i32) (harg2 : arg2.IsWhole) (arg3 : Memref sig .tc .vmem S4096x128 .bf16) (harg3 : arg3.IsWhole)
    (arg4 : Memref sig .tc .vmem S1024x128 .f32) (harg4 : arg4.IsWhole) (arg5 : Memref sig .tc .vmem S1024x128 .f32) (harg5 : arg5.IsWhole)
    (hc0 : cond1_0 i) (hc1 : ¬ cond1_1 i) (R : Vec F S1x4096 .i32) (X : Vec F S4096x128 .bf16) (K : PUnit → sProp 𝕄) :
    iprop(owns (c : Thread nD τ) arg2 fullShare R ∗ owns (c : Thread nD τ) arg3 fullShare X ∗ (∃ d, owns (c : Thread nD τ) arg5 fullShare d)
        ∗ (iprop(owns (c : Thread nD τ) arg2 fullShare R ∗ owns (c : Thread nD τ) arg3 fullShare X
            ∗ owns (c : Thread nD τ) arg5 fullShare (k1_pay2 i R X (k1_pay1 (F := F)))) -∗ K ⟨⟩))
      ⊢ wp frame (wpE (defs₀ (F := F)) Variants.none c none) E (cc1__scatter_kernel i arg2 harg2 arg3 harg3 arg4 harg4 arg5 harg5) K := by
  simp only [cc1__scatter_kernel_eq_skeleton]; unfold cc1__scatter_kernel_skel
  unfold owns
  iintro ⟨⟨%f2, %hf2, H2⟩, ⟨%f3, %hf3, H3⟩, ⟨%d5, %f5, -, H5⟩, Hk⟩
  obtain rfl := harg2.eq_unread hf2; obtain rfl := harg3.eq_unread hf3
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  iexists _; isplitr
  swap; · iexact H5
  ipureintro
  have hz5 : (![0, 0] : Fin S1024x128.rank → Nat) = fun _ => 0 := by funext a; fin_cases a <;> rfl
  have hz2 : (![0, 0] : Fin S1x4096.rank → Nat) = fun _ => 0 := by funext a; fin_cases a <;> rfl
  have hz3 : (![0, 0] : Fin S4096x128.rank → Nat) = fun _ => 0 := by funext a; fin_cases a <;> rfl
  have hcov5 : ∀ (w w' : S1024x128.Idx → Elt F .f32) (y : S1024x128.Idx),
      ∃ p ∈ ([⟨Rect.unit (s := S1024x128) ![0, 0] S1024x128.size inb_S1024x128_S1024x128_0_0, w⟩,
              ⟨Rect.unit (s := S1024x128) ![0, 0] S1024x128.size inb_S1024x128_S1024x128_0_0, w'⟩] : List (View.Piece (Elt F) S1024x128 .f32)), y ∈ p.1.set :=
    fun w w' y => ⟨_, List.mem_cons.mpr (Or.inl rfl), View.mem_set_unit_zero (S := S1024x128) hz5 inb_S1024x128_S1024x128_0_0 y⟩
  sl_unfold_words
  rw [View.read_writes_eq_canon _ _ _ (hcov5 _ _)]
  rw [View.canon_cons_unit_zero (S := S1024x128) hz5]
  simp only [View.readCov_unit_zero (S := S1024x128) _ hz5, View.readAt_eq_ld, harg2.read_unread, harg3.read_unread,
    View.ld_unit_zero (S := S1x4096) hz2, View.ld_unit_zero (S := S4096x128) hz3]

set_option maxHeartbeats 1000000 in
/-- A middle edge block: the accumulator at S ends at the update of S. -/
theorem run1_B (c : Dev nD) (E : Set ℕ) (i : grid1.Coords) (arg2 : Memref sig .tc .vmem S1x4096 .i32) (harg2 : arg2.IsWhole) (arg3 : Memref sig .tc .vmem S4096x128 .bf16) (harg3 : arg3.IsWhole)
    (arg4 : Memref sig .tc .vmem S1024x128 .f32) (harg4 : arg4.IsWhole) (arg5 : Memref sig .tc .vmem S1024x128 .f32) (harg5 : arg5.IsWhole)
    (hc0 : ¬ cond1_0 i) (hc1 : ¬ cond1_1 i) (R : Vec F S1x4096 .i32) (X : Vec F S4096x128 .bf16) (S : Vec F S1024x128 .f32) (K : PUnit → sProp 𝕄) :
    iprop(owns (c : Thread nD τ) arg2 fullShare R ∗ owns (c : Thread nD τ) arg3 fullShare X ∗ owns (c : Thread nD τ) arg5 fullShare S
        ∗ (iprop(owns (c : Thread nD τ) arg2 fullShare R ∗ owns (c : Thread nD τ) arg3 fullShare X
            ∗ owns (c : Thread nD τ) arg5 fullShare (k1_pay2 i R X S)) -∗ K ⟨⟩))
      ⊢ wp frame (wpE (defs₀ (F := F)) Variants.none c none) E (cc1__scatter_kernel i arg2 harg2 arg3 harg3 arg4 harg4 arg5 harg5) K := by
  simp only [cc1__scatter_kernel_eq_skeleton]; unfold cc1__scatter_kernel_skel
  unfold owns
  iintro ⟨⟨%f2, %hf2, H2⟩, ⟨%f3, %hf3, H3⟩, ⟨%f5, %hf5, H5⟩, Hk⟩
  obtain rfl := harg2.eq_unread hf2; obtain rfl := harg3.eq_unread hf3; obtain rfl := harg5.eq_unread hf5
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  iexists _; isplitr
  swap; · iexact H5
  ipureintro
  have hz5 : (![0, 0] : Fin S1024x128.rank → Nat) = fun _ => 0 := by funext a; fin_cases a <;> rfl
  have hz2 : (![0, 0] : Fin S1x4096.rank → Nat) = fun _ => 0 := by funext a; fin_cases a <;> rfl
  have hz3 : (![0, 0] : Fin S4096x128.rank → Nat) = fun _ => 0 := by funext a; fin_cases a <;> rfl
  have hcov : ∀ (w : S1024x128.Idx → Elt F .f32) (y : S1024x128.Idx),
      ∃ p ∈ ([⟨Rect.unit (s := S1024x128) ![0, 0] S1024x128.size inb_S1024x128_S1024x128_0_0, w⟩] : List (View.Piece (Elt F) S1024x128 .f32)), y ∈ p.1.set :=
    fun w y => ⟨_, List.mem_singleton_self _, View.mem_set_unit_zero (S := S1024x128) hz5 inb_S1024x128_S1024x128_0_0 y⟩
  sl_unfold_words
  rw [View.read_writes_eq_canon _ _ _ (hcov _)]
  rw [View.canon_unit_zero hz5]
  simp only [View.readAt_eq_ld, harg2.read_unread, harg3.read_unread, harg5.read_unread,
    View.ld_unit_zero (S := S1x4096) hz2, View.ld_unit_zero (S := S4096x128) hz3, View.ld_unit_zero (S := S1024x128) hz5]

set_option maxHeartbeats 1000000 in
/-- The last edge block (and not the first): as a middle one, and the output block ends at the accumulator. -/
theorem run1_C (c : Dev nD) (E : Set ℕ) (i : grid1.Coords) (arg2 : Memref sig .tc .vmem S1x4096 .i32) (harg2 : arg2.IsWhole) (arg3 : Memref sig .tc .vmem S4096x128 .bf16) (harg3 : arg3.IsWhole)
    (arg4 : Memref sig .tc .vmem S1024x128 .f32) (harg4 : arg4.IsWhole) (arg5 : Memref sig .tc .vmem S1024x128 .f32) (harg5 : arg5.IsWhole)
    (hc0 : ¬ cond1_0 i) (hc1 : cond1_1 i) (R : Vec F S1x4096 .i32) (X : Vec F S4096x128 .bf16) (S : Vec F S1024x128 .f32) (K : PUnit → sProp 𝕄) :
    iprop(owns (c : Thread nD τ) arg2 fullShare R ∗ owns (c : Thread nD τ) arg3 fullShare X ∗ (∃ d, owns (c : Thread nD τ) arg4 fullShare d) ∗ owns (c : Thread nD τ) arg5 fullShare S
        ∗ (iprop(owns (c : Thread nD τ) arg2 fullShare R ∗ owns (c : Thread nD τ) arg3 fullShare X
            ∗ owns (c : Thread nD τ) arg4 fullShare (k1_pay2 i R X S) ∗ owns (c : Thread nD τ) arg5 fullShare (k1_pay2 i R X S)) -∗ K ⟨⟩))
      ⊢ wp frame (wpE (defs₀ (F := F)) Variants.none c none) E (cc1__scatter_kernel i arg2 harg2 arg3 harg3 arg4 harg4 arg5 harg5) K := by
  simp only [cc1__scatter_kernel_eq_skeleton]; unfold cc1__scatter_kernel_skel
  unfold owns
  iintro ⟨⟨%f2, %hf2, H2⟩, ⟨%f3, %hf3, H3⟩, ⟨%d4, %f4, -, H4⟩, ⟨%f5, %hf5, H5⟩, Hk⟩
  obtain rfl := harg2.eq_unread hf2; obtain rfl := harg3.eq_unread hf3; obtain rfl := harg5.eq_unread hf5
  sl_exec (disch := first | exact hc0 | exact hc1)
  sl_step
  have hz5 : (![0, 0] : Fin S1024x128.rank → Nat) = fun _ => 0 := by funext a; fin_cases a <;> rfl
  have hz2 : (![0, 0] : Fin S1x4096.rank → Nat) = fun _ => 0 := by funext a; fin_cases a <;> rfl
  have hz3 : (![0, 0] : Fin S4096x128.rank → Nat) = fun _ => 0 := by funext a; fin_cases a <;> rfl
  have hcov : ∀ (w : S1024x128.Idx → Elt F .f32) (y : S1024x128.Idx),
      ∃ p ∈ ([⟨Rect.unit (s := S1024x128) ![0, 0] S1024x128.size inb_S1024x128_S1024x128_0_0, w⟩] : List (View.Piece (Elt F) S1024x128 .f32)), y ∈ p.1.set :=
    fun w y => ⟨_, List.mem_singleton_self _, View.mem_set_unit_zero (S := S1024x128) hz5 inb_S1024x128_S1024x128_0_0 y⟩
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_words
    rw [View.read_writes_eq_canon _ _ _ (hcov _)]
    rw [View.canon_unit_zero hz5]
    simp only [View.readCov_unit_zero (S := S1024x128) _ hz5, View.readAt_eq_ld, harg2.read_unread, harg3.read_unread,
      harg5.read_unread, View.ld_unit_zero (S := S1x4096) hz2, View.ld_unit_zero (S := S4096x128) hz3,
      View.ld_unit_zero (S := S1024x128) hz5]
  iexists _; isplitr
  swap; · iexact H5
  ipureintro
  sl_unfold_words
  rw [View.read_writes_eq_canon _ _ _ (hcov _)]
  rw [View.canon_unit_zero hz5]
  simp only [View.readAt_eq_ld, harg2.read_unread, harg3.read_unread, harg5.read_unread,
    View.ld_unit_zero (S := S1x4096) hz2, View.ld_unit_zero (S := S4096x128) hz3, View.ld_unit_zero (S := S1024x128) hz5]

end Cert.KernelIdeal.Hand

end
-- ==== Proof.KernelIdeal.Oblig1.lean ====
/-
  The body obligation of call 1: at every grid point, from the invariant before the point and the windows' current
  buffers as the pipeline hands them over, the body runs to the invariant after the point with every buffer at what the
  proof data say — an input's at its block, the output's at what the last point of a row stores and untouched elsewhere.
-/
import proofs.«417799_j32796370273059_1_alg».proof.Proof.KernelIdeal.Body1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The schedule of the three windows -/

/-- The output window is idle wherever the last-edge-block condition fails, … -/
theorem idleAt1_2 (t : Fin cfg1.N) (h : ¬ cond1_1 (grid1.coords t)) : cfg1.idle 2 (cfg1.grid.coords t) = true := by
  show (!(k1_cond2 (grid1.coords t) == 1#1)) = true
  rw [beq_eq_false_iff_ne.mpr h]; rfl

/-- … live where it holds, … -/
theorem liveAt1_2 (t : Fin cfg1.N) (h : cond1_1 (grid1.coords t)) : cfg1.idle 2 (cfg1.grid.coords t) = false := by
  show (!(k1_cond2 (grid1.coords t) == 1#1)) = false
  rw [beq_iff_eq.mpr h]; rfl

/-- … and is not written back at a point that is not the last of its row. -/
theorem noFlush1_2 (t : Fin cfg1.N) (h1 : ¬ t.val % 123 = 122) : (cfg1.win 2).flush t = false :=
  Bool.eq_false_iff.mpr fun h => h1 ((flush1_2 t).mp h)

/-! ## What the input buffers hold when the body runs -/

/-- The index block's current buffer holds the block at every point. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The current buffer of the block of gathered rows holds the block at every point. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-! ## What the body leaves in each buffer -/

theorem leaves1_0 (c : Dev nD) (t : Fin cfg1.N) :
    (dat1 V c).leavesExact 0 t = owns (c : Thread nD τ) (ms1_0 t) fullShare (iblk1 V c 0 t) :=
  (show (dat1 V c).leavesExact 0 t = owns (c : Thread nD τ) (ms1_0 t) fullShare ((dat1 V c).after 0 t) from rfl).trans
    (by rw [after1_0])

theorem leaves1_1 (c : Dev nD) (t : Fin cfg1.N) :
    (dat1 V c).leavesExact 1 t = owns (c : Thread nD τ) (ms1_1 t) fullShare (iblk1 V c 1 t) :=
  (show (dat1 V c).leavesExact 1 t = owns (c : Thread nD τ) (ms1_1 t) fullShare ((dat1 V c).after 1 t) from rfl).trans
    (by rw [after1_1])

/-- At the last edge block of a row the output buffer is left at the accumulator. -/
theorem leaves1_2_live (c : Dev nD) (t : Fin cfg1.N) (h : cond1_1 (grid1.coords t)) :
    (dat1 V c).leavesExact 2 t = owns (c : Thread nD τ) (ms1_2 t) fullShare (acc1 V c t.val t.isLt) :=
  (show (dat1 V c).leavesExact 2 t = owns (c : Thread nD τ) (ms1_2 t) fullShare ((dat1 V c).after 2 t) from by
    unfold Dat.leavesExact; rw [liveAt1_2 t h]).trans (by rw [after1_2])

/-- Elsewhere it is handed back as it was found. -/
theorem leaves1_2_idle (c : Dev nD) (t : Fin cfg1.N) (h : ¬ cond1_1 (grid1.coords t)) (h1 : ¬ t.val % 123 = 122) :
    (dat1 V c).leavesExact 2 t = iprop(∃ d, owns (c : Thread nD τ) (ms1_2 t) fullShare ((dat1 V c).before 2 t d)) :=
  Dat.leavesExact_idle (dat1 V c) 2 t (idleAt1_2 t h) (noFlush1_2 t h1)

/-! ## The body at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 1600000 in
/-- The body at any point. The inputs' buffers hold their blocks; the point's position in its row says which of the
    three cases runs; the invariant hands over the accumulator (at anything before the very first point, which is a
    first edge block; else at what the point before left) and takes it back at this point's update. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ]
  rw [leaves1_0, leaves1_1, Phi1_castSucc V c t]
  by_cases h0 : t.val % 123 = 0
  · by_cases h1 : t.val % 123 = 122
    · exfalso; omega
    · have hc0 : cond1_0 (grid1.coords t) := (hcond1_0 t).mpr h0
      have hc1 : ¬ cond1_1 (grid1.coords t) := fun h => h1 ((hcond1_1 t).mp h)
      rw [leaves1_2_idle V c t hc1 h1, acc1_reset V c t h0]
      by_cases hz : t.val = 0
      · rw [Phi1_zero V c _ _ hz]
        iintro ⟨⟨HR, HS, Hg⟩, Ho, ⟨%d0, H0⟩, ⟨%d1, H1⟩, H2⟩
        iapply (run1_A c Set.univ (grid1.coords t) (ms1_0 t) (hs1_0 t) (ms1_1 t) (hs1_1 t) (ms1_2 t) (hs1_2 t) scr1 (Memref.isWhole_whole _) hc0 hc1 (iblk1 V c 0 t) (iblk1 V c 1 t) _)
        isplitl [H0]; · iexact H0
        isplitl [H1]; · iexact H1
        isplitl [HS]; · iexact HS
        iintro ⟨H0, H1, HS⟩
        isplitl [HS HR Hg]
        · isplitl [HR]; · iexact HR
          isplitl [HS]; · iexact HS
          iexact Hg
        isplitl [Ho]; · iexact Ho
        isplitl [H0]; · iexact H0
        isplitl [H1]; · iexact H1
        iexact H2
      · rw [Phi1_pos V c _ _ hz]
        iintro ⟨⟨HR, HS, Hg⟩, Ho, ⟨%d0, H0⟩, ⟨%d1, H1⟩, H2⟩
        iapply (run1_A c Set.univ (grid1.coords t) (ms1_0 t) (hs1_0 t) (ms1_1 t) (hs1_1 t) (ms1_2 t) (hs1_2 t) scr1 (Memref.isWhole_whole _) hc0 hc1 (iblk1 V c 0 t) (iblk1 V c 1 t) _)
        isplitl [H0]; · iexact H0
        isplitl [H1]; · iexact H1
        isplitl [HS]; · iexists _; iexact HS
        iintro ⟨H0, H1, HS⟩
        isplitl [HS HR Hg]
        · isplitl [HR]; · iexact HR
          isplitl [HS]; · iexact HS
          iexact Hg
        isplitl [Ho]; · iexact Ho
        isplitl [H0]; · iexact H0
        isplitl [H1]; · iexact H1
        iexact H2
  · have hc0 : ¬ cond1_0 (grid1.coords t) := fun h => h0 ((hcond1_0 t).mp h)
    have hz : t.val ≠ 0 := fun e => h0 (by rw [e])
    rw [Phi1_pos V c _ _ hz, acc1_step V c t h0]
    by_cases h1 : t.val % 123 = 122
    · have hc1 : cond1_1 (grid1.coords t) := (hcond1_1 t).mpr h1
      rw [leaves1_2_live V c t hc1, acc1_step V c t h0]
      iintro ⟨⟨HR, HS, Hg⟩, Ho, ⟨%d0, H0⟩, ⟨%d1, H1⟩, ⟨%d2, H2⟩⟩
      iapply (run1_C c Set.univ (grid1.coords t) (ms1_0 t) (hs1_0 t) (ms1_1 t) (hs1_1 t) (ms1_2 t) (hs1_2 t) scr1 (Memref.isWhole_whole _) hc0 hc1 (iblk1 V c 0 t) (iblk1 V c 1 t) (acc1 V c (t.val - 1) (Nat.lt_of_le_of_lt (Nat.sub_le _ _) t.isLt)) _)
      isplitl [H0]; · iexact H0
      isplitl [H1]; · iexact H1
      isplitl [H2]; · iexists _; iexact H2
      isplitl [HS]; · iexact HS
      iintro ⟨H0, H1, H2, HS⟩
      isplitl [HS HR Hg]
      · isplitl [HR]; · iexact HR
        isplitl [HS]; · iexact HS
        iexact Hg
      isplitl [Ho]; · iexact Ho
      isplitl [H0]; · iexact H0
      isplitl [H1]; · iexact H1
      iexact H2
    · have hc1 : ¬ cond1_1 (grid1.coords t) := fun h => h1 ((hcond1_1 t).mp h)
      rw [leaves1_2_idle V c t hc1 h1]
      iintro ⟨⟨HR, HS, Hg⟩, Ho, ⟨%d0, H0⟩, ⟨%d1, H1⟩, H2⟩
      iapply (run1_B c Set.univ (grid1.coords t) (ms1_0 t) (hs1_0 t) (ms1_1 t) (hs1_1 t) (ms1_2 t) (hs1_2 t) scr1 (Memref.isWhole_whole _) hc0 hc1 (iblk1 V c 0 t) (iblk1 V c 1 t) (acc1 V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [HS HR Hg]
      · isplitl [HR]; · iexact HR
        isplitl [HS]; · iexact HS
        iexact Hg
      isplitl [Ho]; · iexact Ho
      isplitl [H0]; · iexact H0
      isplitl [H1]; · iexact H1
      iexact H2

theorem body_obligation1 (c : Dev nD) : BodyObligation (dat1 (F := F) V c) (defs₀ (F := F)) Variants.none () Set.univ := by
  intro t
  rw [bigSep_W1, bigSep_W1]
  exact sound_body1 V c t

end Cert.KernelIdeal.Hand

end
-- ==== Proof.KernelIdeal.Vals.lean ====
/-
  The contents of the core's buffers at each boundary of the program: at launch, after each stretch of host
  operations, after the gather call (its output array at what its write-backs leave, every other buffer as entered),
  after the scatter call, and after the closing slice.
-/
import proofs.«417799_j32796370273059_1_alg».proof.Proof.KernelIdeal.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core c's buffers at launch. -/
abbrev W0 : Dev nD → Valuation τ sig (Elt F) := fun c b => m (c, b)
/-- After the index rows are sliced out, flattened and padded with the dummy node number. -/
abbrev W1 : Dev nD → Valuation τ sig (Elt F) := fun c => StableHlo.after hostOps0 (W0 m c)
/-- After the feature table is padded with zero rows. -/
abbrev W2 : Dev nD → Valuation τ sig (Elt F) := fun c => StableHlo.after hostOps0_1 (W1 m c)
/-- After the two index vectors are laid out as a column and as a row: the gather call's entry. -/
abbrev W3 : Dev nD → Valuation τ sig (Elt F) := fun c => StableHlo.after hostOps0_2 (W2 m c)
abbrev V3 : (c : Dev nD) → (b : Ref sig .tc) → Buf (Elt F) ((c : Thread nD τ).loc b) := fun c b => W3 m c b
/-- At the gather call's exit: its arrays at what the pipeline leaves, every other buffer as entered. -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- The scatter call's entry. -/
abbrev V4 : (c : Dev nD) → (b : Ref sig .tc) → Buf (Elt F) ((c : Thread nD τ).loc b) := fun c b => W4 m c b
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)
/-- At the scatter call's exit. -/
def W5 (c : Dev nD) : Valuation τ sig (Elt F) :=
  Pipeline.withArrays spec1 c (W4 m c) fun w => (dat1 (V4 m) c).arrAt w cfg1.N
theorem W5_arr (c : Dev nD) (w : Fin cfg1.W) :
    W5 m c (Proc.devRef .tc (Pipeline.arrRef spec1 w)) = (dat1 (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev V5 : (c : Dev nD) → (b : Ref sig .tc) → Buf (Elt F) ((c : Thread nD τ).loc b) := fun c b => W5 m c b
theorem hF1 (c : Dev nD) (w : Fin cfg1.W) : (dat1 (V4 m) c).arrAt w cfg1.N = V5 m c (Pipeline.arrRef spec1 w) :=
  (W5_arr m c w).symm
theorem hrest1 (c : Dev nD) : ∀ b, b ∉ Finset.univ.image (Pipeline.arrRef spec1) → V5 m c b = V4 m c b :=
  fun b hb => W5_of_ne m c b fun w e => hb (Finset.mem_image.mpr ⟨w, Finset.mem_univ _, e⟩)
/-- After the closing slice of the first 50000 rows: the end of the program. -/
abbrev W6 : Dev nD → Valuation τ sig (Elt F) := fun c => StableHlo.after hostOps2 (W5 m c)

end Cert.KernelIdeal.Hand

end
-- ==== Proof.KernelIdeal.Run.lean ====
/-
  The program from launch to return: four stretches of host operations and the two pipelined calls, composed in order.
  Every weakly fair execution terminates without a fault, and at the end every unscoped buffer of the core holds what
  the boundary valuations say (W6).
-/
import proofs.«417799_j32796370273059_1_alg».proof.Proof.KernelIdeal.Oblig0
import proofs.«417799_j32796370273059_1_alg».proof.Proof.KernelIdeal.Oblig1
import proofs.«417799_j32796370273059_1_alg».proof.Proof.KernelIdeal.Vals
import proofs.«417799_j32796370273059_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The proof data of the two calls and the thread state between items -/

/-- Each call's proof data at the contents the call is entered from: the gather from W3, the scatter from W4. -/
def pdats : (p : Fin 2) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V4 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the unscoped buffers through every item: the generator register at some state, and the core
    owing nothing. -/
abbrev R (c : Dev nD) : sProp 𝕄 :=
  iprop((∃ r, prngReg c r) ∗ ∃ W, owes (c : Thread nD τ) (0 : CellTallies nD τ sig Unit) W)

/-- A stretch of host operations as a segment: from every unscoped buffer at W, to every unscoped buffer at what the
    stretch leaves, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without the debt: every unscoped buffer at W6, the generator register at some state. -/
abbrev Tₙ (c : Dev nD) : sProp 𝕄 :=
  iprop(StableHlo.held (c : Thread nD τ) (Pipeline.ucRefs τ sig) (W6 m c) ∗ ∃ r, prngReg c r)

/-! # The invariants at the two ends of each call, against the scoped buffers the call does not stage through -/

/-- Call 0's invariant before the first point, from the generator register and the scoped buffers no window of the
    call stages through: the accumulator's buffer at whatever it holds, the other call's buffers beside it. -/
theorem hin0 (c : Dev nD) :
    (iprop((∃ r, prngReg c r) ∗ Pipeline.scopedRest (Ix := Unit) (Name := ℕ) (U := UR sig nD τ) (Lvl := ℕ) (Val := Elt F) spec0 c) : sProp 𝕄)
      ⊢ iprop((∃ d, owns (c : Thread nD τ) scr0 fullShare d) ∗ Rest0 (F := F) c ∗ (∃ r, prngReg c r)) := by
  rw [scopedRest0_eq]; unfold Rest0; simp only [scr0, owns_whole]
  iintro ⟨Hp, Hs, Hr⟩
  isplitl [Hs]; · iexact Hs
  isplitl [Hr]; · iexact Hr
  iexact Hp

/-- Call 0's invariant after the last point gives the register and those scoped buffers back, the accumulator's
    contents forgotten. -/
theorem hout0 (c : Dev nD) (d : Vec F S4096x128 .f32) :
    (iprop(owns (c : Thread nD τ) scr0 fullShare d ∗ Rest0 (F := F) c ∗ (∃ r, prngReg c r)) : sProp 𝕄)
      ⊢ iprop((∃ r, prngReg c r) ∗ Pipeline.scopedRest (Ix := Unit) (Name := ℕ) (U := UR sig nD τ) (Lvl := ℕ) (Val := Elt F) spec0 c) := by
  rw [scopedRest0_eq]; unfold Rest0; simp only [scr0, owns_whole]
  iintro ⟨Hs, Hr, Hp⟩
  isplitl [Hp]; · iexact Hp
  isplitl [Hs]; · iexists _; iexact Hs
  iexact Hr

/-- The same for call 1, whose accumulator's buffer comes last among the scoped buffers. -/
theorem hin1 (c : Dev nD) :
    (iprop((∃ r, prngReg c r) ∗ Pipeline.scopedRest (Ix := Unit) (Name := ℕ) (U := UR sig nD τ) (Lvl := ℕ) (Val := Elt F) spec1 c) : sProp 𝕄)
      ⊢ iprop(Rest1 (F := F) c ∗ (∃ d, owns (c : Thread nD τ) scr1 fullShare d) ∗ (∃ r, prngReg c r)) := by
  rw [scopedRest1_eq]; unfold Rest1; simp only [scr1, owns_whole]
  iintro ⟨Hp, H0, H1, H2, H3, H4, H5, H6, Hs⟩
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [Hs]; · iexact Hs
  iexact Hp

theorem hout1 (c : Dev nD) (d : Vec F S1024x128 .f32) :
    (iprop(Rest1 (F := F) c ∗ owns (c : Thread nD τ) scr1 fullShare d ∗ (∃ r, prngReg c r)) : sProp 𝕄)
      ⊢ iprop((∃ r, prngReg c r) ∗ Pipeline.scopedRest (Ix := Unit) (Name := ℕ) (U := UR sig nD τ) (Lvl := ℕ) (Val := Elt F) spec1 c) := by
  rw [scopedRest1_eq]; unfold Rest1; simp only [scr1, owns_whole]
  iintro ⟨⟨H0, H1, H2, H3, H4, H5, H6⟩, Hs, Hp⟩
  isplitl [Hp]; · iexact Hp
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact Hs

/-- Call 0's invariant at the first point and at the last, read off the proof data at any entry contents. -/
theorem Phi0_first (V : (c : Dev nD) → (b : Ref sig .tc) → Buf (Elt F) ((c : Thread nD τ).loc b)) (c : Dev nD) :
    (dat0 V c).Φ 0 = iprop((∃ d, owns (c : Thread nD τ) scr0 fullShare d) ∗ Rest0 (F := F) c ∗ (∃ r, prngReg c r)) :=
  Phi0_zero V c _ (Nat.zero_le _) rfl
theorem Phi0_last (V : (c : Dev nD) → (b : Ref sig .tc) → Buf (Elt F) ((c : Thread nD τ).loc b)) (c : Dev nD) :
    (dat0 V c).Φ (Fin.last cfg0.N)
      ⊢ iprop((∃ r, prngReg c r) ∗ Pipeline.scopedRest (Ix := Unit) (Name := ℕ) (U := UR sig nD τ) (Lvl := ℕ) (Val := Elt F) spec0 c) := by
  have hN : (Fin.last cfg0.N).val ≠ 0 := by
    rw [Fin.val_last]; exact (N_0 ▸ (by decide) : grid0.N ≠ 0)
  rw [show (dat0 V c).Φ (Fin.last cfg0.N) = Phi0 V c (Fin.last cfg0.N).val (Nat.le_of_lt_succ (Fin.last cfg0.N).isLt) from rfl,
    Phi0_pos V c _ _ hN]
  exact hout0 c _
theorem Phi1_first (V : (c : Dev nD) → (b : Ref sig .tc) → Buf (Elt F) ((c : Thread nD τ).loc b)) (c : Dev nD) :
    (dat1 V c).Φ 0 = iprop(Rest1 (F := F) c ∗ (∃ d, owns (c : Thread nD τ) scr1 fullShare d) ∗ (∃ r, prngReg c r)) :=
  Phi1_zero V c _ (Nat.zero_le _) rfl
theorem Phi1_last (V : (c : Dev nD) → (b : Ref sig .tc) → Buf (Elt F) ((c : Thread nD τ).loc b)) (c : Dev nD) :
    (dat1 V c).Φ (Fin.last cfg1.N)
      ⊢ iprop((∃ r, prngReg c r) ∗ Pipeline.scopedRest (Ix := Unit) (Name := ℕ) (U := UR sig nD τ) (Lvl := ℕ) (Val := Elt F) spec1 c) := by
  have hN : (Fin.last cfg1.N).val ≠ 0 := by
    rw [Fin.val_last]; exact (N_1 ▸ (by decide) : grid1.N ≠ 0)
  rw [show (dat1 V c).Φ (Fin.last cfg1.N) = Phi1 V c (Fin.last cfg1.N).val (Nat.le_of_lt_succ (Fin.last cfg1.N).isLt) from rfl,
    Phi1_pos V c _ _ hN]
  exact hout1 c _

/-! # The two calls as segments -/

set_option backward.isDefEq.respectTransparency.types false in
/-- THE GATHER CALL over the thread state: entered from every unscoped buffer at W3, left at W4. Its arrays are
    split out of the unscoped buffers and put back at what the pipeline leaves; the generator register and the scoped
    buffers the call does not stage through go into the invariant and come back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = _ from Phi0_first (V3 m) c]
    iintro ⟨Hp, -, Hr⟩
    iapply (hin0 (F := F) c)
    isplitl [Hp]; · iexact Hp
    iexact Hr
  hout c := by
    rw [Pipeline.ownSems0_none]
    refine BIBase.Entails.trans (Phi0_last (V3 m) c) ?_
    iintro ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SCATTER CALL over the thread state: entered from every unscoped buffer at W4 (what the gather call leaves),
    left at W5; otherwise as the gather call. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = _ from Phi1_first (V4 m) c]
    iintro ⟨Hp, -, Hr⟩
    iapply (hin1 (F := F) c)
    isplitl [Hp]; · iexact Hp
    iexact Hr
  hout c := by
    rw [Pipeline.ownSems0_none]
    refine BIBase.Entails.trans (Phi1_last (V4 m) c) ?_
    iintro ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (V5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # The program as segments, and the launch -/

/-- The six items in order: three host stretches, the gather call, the scatter call, the closing host stretch; each
    entered from the contents the one before it leaves. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .region (reg1 m),
    .host (hseg hostOps2 hostOps2_sub hostOps2_fresh (W5 m)) ]

/-- The program is the run of its segments. -/
theorem main_run (c : Dev nD) : main (F := F) c = Pipeline.Seg.run (segs m) := by
  rw [main_chain c, Pipeline.Seg.run_eq_chain]; rfl

set_option backward.isDefEq.respectTransparency.types false in
theorem run_main : θ_run defs (onTc (τ := τ) (main (F := F))) ⟨m, fun _ => 0, ρ⟩ (fun r => ∀ c : Dev nD,
      ∀ b ∈ Pipeline.ucRefs τ sig, r.2.mem ((c : Thread nD τ).1, b) = W6 m c b) := by
  exact Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c)
        ⊢ iprop(Tₙ m c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun _ h => h)

end Cert.KernelIdeal.Hand

end
-- ==== Proof.KernelIdeal.Frame.lean ====
/-
  What the run leaves in the argument arrays and in the result array. No stretch of host operations writes an
  argument and no call has one as an output, so walking the boundary valuations back from the end each argument holds
  its launch contents; the result array holds what the last valuation says.
-/
import proofs.«417799_j32796370273059_1_alg».proof.Proof.KernelIdeal.Run
import proofs.«417799_j32796370273059_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped reference of the core is among those the final state is read at. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A reference that is neither written by a host stretch nor an array of either call keeps its launch contents. -/
theorem W6_kept (c : Dev nD) (r : Ref sig .tc) (h0 : r ∉ hostOps0_W) (h1 : r ∉ hostOps0_1_W) (h2 : r ∉ hostOps0_2_W)
    (h3 : ∀ w, Pipeline.arrRef spec0 w ≠ r) (h4 : ∀ w, Pipeline.arrRef spec1 w ≠ r) (h5 : r ∉ hostOps2_W) :
    W6 m c (Proc.devRef .tc r) = m ((c : Thread nD τ).loc r) :=
  calc W6 m c (Proc.devRef .tc r)
    _ = W5 m c (Proc.devRef .tc r) := StableHlo.after_of_writes_sub hostOps2 _ hostOps2_writes h5
    _ = W4 m c (Proc.devRef .tc r) := W5_of_ne m c r h4
    _ = W3 m c (Proc.devRef .tc r) := W4_of_ne m c r h3
    _ = W2 m c (Proc.devRef .tc r) := StableHlo.after_of_writes_sub hostOps0_2 _ hostOps0_2_writes h2
    _ = W1 m c (Proc.devRef .tc r) := StableHlo.after_of_writes_sub hostOps0_1 _ hostOps0_1_writes h1
    _ = W0 m c (Proc.devRef .tc r) := StableHlo.after_of_writes_sub hostOps0 _ hostOps0_writes h0
    _ = m ((c : Thread nD τ).loc r) := rfl

theorem W6_arg0 (c : Dev nD) : W6 m c (Proc.devRef .tc main_arg0) = m ((c : Thread nD τ).loc main_arg0) :=
  W6_kept m c main_arg0 (by decide) (by decide) (by decide) (by decide) (by decide) (by decide)
theorem W6_arg1 (c : Dev nD) : W6 m c (Proc.devRef .tc main_arg1) = m ((c : Thread nD τ).loc main_arg1) :=
  W6_kept m c main_arg1 (by decide) (by decide) (by decide) (by decide) (by decide) (by decide)

/-- THE RUN, read at the result and at the arguments: every weakly fair execution terminates, the result array at
    the last valuation's contents and both argument arrays as launched. -/
theorem run_result : θ_run defs (onTc (τ := τ) (main (F := F))) ⟨m, fun _ => 0, ρ⟩ (fun r => ∀ c : Dev nD,
      r.2.mem ((c.tc : Thread nD τ).loc main_v12) = W6 m c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨h c _ (mem_uc main_v12 (by decide)),
     (h c _ (mem_uc main_arg0 (by decide))).trans (W6_arg0 m c),
     (h c _ (mem_uc main_arg1 (by decide))).trans (W6_arg1 m c)⟩) (run_main m ρ)

/-- The frame: both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => (h c).2) (run_result m ρ)

end Cert.KernelIdeal.Hand

end
-- ==== Proof.Spec.lean ====
/-
  What the two calls compute, as functions of whole arrays at the exact reals.

  The gather's output row e is the sum, over all 50176 padded node numbers j, of row j of the padded feature table
  where the source index of edge e equals j (one term at most). The scatter's output row n is the sum, over all 503808
  padded edges e, of gathered row e where the target index of edge e equals n.
-/
import proofs.«417799_j32796370273059_1_alg».proof.KernelIdeal
import Idealize.ShloMosaic.Lib.ValueIdx
import Idealize.ShloMosaic.PureOps.Ideal

noncomputable section

open scoped BigOperators

namespace Cert.Spec

open Idealize.ShloMosaic Idealize.ShloMosaic.ValueIdx Cert.KernelIdeal

/-- The gathered rows: entry (e, d) is the sum over node numbers j of xp[j, d] where r[e] = j. -/
def G0 (r : S503808x1.Idx → BitVec 32) (xp : S50176x128.Idx → EReal) : S503808x128.Idx → EReal :=
  fun i => ∑ j : Fin 50176, if r (ix2 (i 0) (0 : Fin 1)) = BitVec.ofNat 32 j.val then xp (ix2 j (i 1)) else 0

/-- The scattered sums: entry (n, d) is the sum over edges e of g[e, d] where cl[e] = n. -/
def G1 (cl : S1x503808.Idx → BitVec 32) (g : S503808x128.Idx → EReal) : S50176x128.Idx → EReal :=
  fun i => ∑ e : Fin 503808, if BitVec.ofNat 32 (i 0).val = cl (ix2 (0 : Fin 1) e) then g (ix2 e (i 1)) else 0

end Cert.Spec

end
-- ==== Proof.LibPlainDot.lean ====
/-
  A plain matrix product read at an entry.

  For dimension numbers that contract the left operand's axis 1 with the right operand's axis 0, keep the
  left operand's axis 0 and the right operand's axis 1, and have no batch axes, the operand indices at the
  result entry (p, q) and contraction position k are (p, k) and (k, q). So, at the ideal values, a
  `tpu.matmul` into the zero accumulator is the textbook sum  ∑ k, l (p, k) * r (k, q)  over the
  extended reals. Stated for ANY record with those six lists (each equation is `rfl` at a printed record),
  at any extents and element formats.
-/
import Idealize.ShloMosaic.Lib.ValueIdx
import Idealize.ShloMosaic.PureOps.Ideal.Laws

noncomputable section

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Two reads of an index at positions that are equal numbers agree. -/
private theorem val_congr {n : Nat} {sz : Fin n → Nat} (j : (a : Fin n) → Fin (sz a)) :
    ∀ (a b : Nat) (ha : a < n) (hb : b < n), a = b → (j ⟨a, ha⟩).val = (j ⟨b, hb⟩).val :=
  fun a b ha hb h => by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = [])
    (hrb : d.rhsBatch = []) (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact val_congr j _ _ _ _ (by simp [hlb, hln, hrn])

/-- A `tpu.matmul` of such a record into the zero accumulator, at the ideal values and at entry (p, q): the sum
    over the contraction positions of the products of the left operand's row p and the right operand's column q. -/
theorem matmul_zero_apply {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (p : Fin M) (q : Fin N) :
    FloatOps.matmul d prec l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hln hlb _ _
    | ⟨1, _⟩ => exact (lhs_col d hlc _ _).trans hk)
  have er : d.rhsIdx (ix2 p q) ((contrEquiv1 d K hr hs).symm k) = ix2 k q := funext fun a => Fin.ext (by
    match a with
    | ⟨0, _⟩ => exact (rhs_row d hrc _ _).trans hk
    | ⟨1, _⟩ => exact rhs_col d hln hrn hlb hrb _ _)
  rw [el, er]

/-- The same at any index of the result, its two coordinates read off it. -/
theorem matmul_zero_apply_at {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (y : (⟨2, ![M, N]⟩ : Shape).Idx) :
    FloatOps.matmul d prec l r (constant (F := Ideal) ⟨2, ![M, N]⟩ .f32 0x00000000#32) y
      = ∑ k : Fin K, l (ix2 ⟨(y 0).val, (y 0).isLt⟩ k) * r (ix2 k ⟨(y 1).val, (y 1).isLt⟩) :=
  (congrArg (FloatOps.matmul d prec l r (constant (F := Ideal) ⟨2, ![M, N]⟩ .f32 0x00000000#32)) (eq_ix2 y)).trans
    (matmul_zero_apply d hlc hrc hln hrn hlb hrb hr hs prec l r (y 0) (y 1))

end Idealize.ShloMosaic.PlainDot

end
-- ==== Proof.KernelIdeal.Value0a.lean ====
/-
  The gather's step read at an entry, at the exact reals.

  The body's update of the accumulator adds, at entry (p, q), the product of row p of a 0/1 matrix with column q of
  the feature block: the matrix's entry (p, k) is the float of the widened bit "the index word of row p equals the
  node number 1024·n + k". One times anything is itself and zero times anything is zero over the extended reals, so
  the product is the sum over k of the block's entry (k, q) where the words agree.
-/
import proofs.«417799_j32796370273059_1_alg».proof.Proof.Gen.KernelIdeal.Skeleton
import proofs.«417799_j32796370273059_1_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.ValueIdx

/-- The float of the widened comparison bit: one where the two words are equal, zero where they are not. -/
theorem onehot_entry (x y : BitVec 32) :
    (FloatOps.sitofp (F := Ideal) .f32 ((IntOp.cmpi .eq x y).setWidth 32) : EReal) = if x = y then 1 else 0 := by
  show (((((BitVec.ofBool (x == y)).setWidth 32).toInt : ℝ)) : EReal) = _
  by_cases h : x = y
  · rw [if_pos h, show (x == y) = true from beq_iff_eq.mpr h]
    rw [show ((BitVec.ofBool true).setWidth 32).toInt = 1 from by decide]
    simp
  · rw [if_neg h, show (x == y) = false from beq_eq_false_iff_ne.mpr h]
    rw [show ((BitVec.ofBool false).setWidth 32).toInt = 0 from by decide]
    simp

/-- A column broadcast along the rows reads its row's one entry. -/
theorem bcast_col (R : IVec S4096x1 32) (h : S4096x1.Broadcasts S4096x1024) (p : Fin 4096) (k : Fin 1024) :
    broadcastTo S4096x1024 R h (ix2 p k) = R (ix2 p (0 : Fin 1)) :=
  broadcastTo_apply R h (ix2 p k) (ix2 p (0 : Fin 1)) fun a => by
    match a with
    | ⟨0, _⟩ => rfl
    | ⟨1, _⟩ => rfl

/-- A row broadcast along the columns reads its column's one entry. -/
theorem bcast_row (C : IVec S1x1024 32) (h : S1x1024.Broadcasts S4096x1024) (p : Fin 4096) (k : Fin 1024) :
    broadcastTo S4096x1024 C h (ix2 p k) = C (ix2 (0 : Fin 1) k) :=
  broadcastTo_apply C h (ix2 p k) (ix2 (0 : Fin 1) k) fun a => by
    match a with
    | ⟨0, _⟩ => rfl
    | ⟨1, _⟩ => rfl

set_option maxHeartbeats 400000 in
/-- THE STEP AT AN ENTRY: what the accumulator held there, plus the feature block's entries (k, q) over the k whose
    node number 1024·n + k is row p's index word. -/
theorem pay2_apply (i : grid0.Coords) (R : Vec Ideal S4096x1 .i32) (X : Vec Ideal S1024x128 .f32)
    (S : Vec Ideal S4096x128 .f32) (p : Fin 4096) (q : Fin 128) :
    k0_pay2 (F := Ideal) i R X S (ix2 p q)
      = S (ix2 p q) + ∑ k : Fin 1024,
          (if R (ix2 p (0 : Fin 1)) = BitVec.ofNat 32 (i 1).val * 1024#32 + BitVec.ofNat 32 k.val then X (ix2 k q) else 0) := by
  unfold k0_pay2
  simp only [shapeCast_self]
  rw [addf_apply]
  refine congrArg (S (ix2 p q) + ·) ?_
  simp only [matmul]
  rw [Idealize.ShloMosaic.PlainDot.matmul_zero_apply dot_S4096x1024_S1024x128_S4096x128_1_0_0_1_n_n rfl rfl rfl rfl rfl rfl rfl rfl]
  refine Finset.sum_congr rfl fun k _ => ?_
  rw [truncf_apply, truncf_apply, sitofp_apply, extui_apply]
  show FloatOps.sitofp (F := Ideal) .f32 ((IntOp.cmpi .eq (broadcastTo S4096x1024 R broadcasts_S4096x1_S4096x1024 (ix2 p k))
      (broadcastTo S4096x1024 (addi (broadcast S1x1024 (Scalar.muli (BitVec.ofNat 32 (i 1).val) 1024#32))
        (iota Kind.tc S1x1024 32 [1] iota_S1x1024_d1_w32)) broadcasts_S1x1024_S4096x1024 (ix2 p k))).setWidth 32) * X (ix2 k q) = _
  rw [bcast_col, bcast_row, onehot_entry]
  show (if R (ix2 p (0 : Fin 1)) = IntOp.addi (BitVec.ofNat 32 (i 1).val * 1024#32) (iota Kind.tc S1x1024 32 [1] iota_S1x1024_d1_w32 (ix2 (0 : Fin 1) k)) then (1 : EReal) else 0) * X (ix2 k q) = _
  rw [iota_single_apply]
  show (if R (ix2 p (0 : Fin 1)) = BitVec.ofNat 32 (i 1).val * 1024#32 + BitVec.ofNat 32 k.val then (1 : EReal) else 0) * X (ix2 k q) = _
  split
  · exact one_mul _
  · exact zero_mul _

end Cert.KernelIdeal.Hand

end
-- ==== Proof.KernelIdeal.Value0b.lean ====
/-
  The gather call's blocks read where their arrays say, and its accumulator as a sum over node numbers.

  At the grid point t = 49·e + n the index block is rows 4096·e … 4096·e + 4095 of the index column, the feature block
  rows 1024·n … 1024·n + 1023 of the padded table, and the output block rows 4096·e … of the output array. The
  accumulator after that point holds, at (p, q), the table's entries (j, q) summed over the node numbers j below
  1024·(n + 1) that row 4096·e + p's index word names.
-/
import proofs.«417799_j32796370273059_1_alg».proof.Proof.KernelIdeal.Data
import proofs.«417799_j32796370273059_1_alg».proof.Proof.KernelIdeal.Value0a
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The grid of call 0, decided once: the node-block coordinate of point t is t mod 49; the index and output windows
    sit at block row t / 49, the feature window at block row t mod 49, all at block column 0. -/
theorem grid_facts0 : ∀ t : Fin cfg0.N,
    (grid0.coords t 1).val = t.val % 49
    ∧ win0_0.index t (0 : Fin 2) = t.val / 49 ∧ win0_0.index t (1 : Fin 2) = 0
    ∧ win0_1.index t (0 : Fin 2) = t.val % 49 ∧ win0_1.index t (1 : Fin 2) = 0
    ∧ win0_2.index t (0 : Fin 2) = t.val / 49 ∧ win0_2.index t (1 : Fin 2) = 0 :=
  (by decide +kernel : ∀ t : Fin grid0.N, _)

section Blocks

variable {F : FTy → Type} [FloatOps F]
variable (V : (c : Dev nD) → (b : Ref sig .tc) → Buf (Elt F) ((c : Thread nD τ).loc b))

/-- The index block at point t, row p: row 4096·(t / 49) + p of the index column. -/
theorem iblk0_0_apply (c : Dev nD) (t : Fin cfg0.N) (p : Fin 4096) (z : Fin 1)
    (hb : 4096 * (t.val / 49) + p.val < 503808) :
    (iblk0 V c 0 t : Vec F S4096x1 .i32) (ix2 p z)
      = (V c main_v8 : S503808x1.Idx → BitVec 32) (ix2 ⟨4096 * (t.val / 49) + p.val, hb⟩ (0 : Fin 1)) := by
  obtain ⟨-, e0, e1, -⟩ := grid_facts0 t
  unfold iblk0
  rw [View.read_apply]
  show V c main_v8 _ = V c main_v8 _
  congr 1
  funext a
  apply Fin.ext
  match a with
  | ⟨0, _⟩ => show win0_0.index t (0 : Fin 2) * 4096 + 1 * p.val = 4096 * (t.val / 49) + p.val; rw [e0]; omega
  | ⟨1, _⟩ => show win0_0.index t (1 : Fin 2) * 1 + 1 * z.val = 0; rw [e1]; omega

/-- The feature block at point t, entry (k, q): entry (1024·(t mod 49) + k, q) of the padded table. -/
theorem iblk0_1_apply (c : Dev nD) (t : Fin cfg0.N) (k : Fin 1024) (q : Fin 128)
    (hb : 1024 * (t.val % 49) + k.val < 50176) :
    (iblk0 V c 1 t : Vec F S1024x128 .f32) (ix2 k q)
      = (V c main_v7 : S50176x128.Idx → F .f32) (ix2 ⟨1024 * (t.val % 49) + k.val, hb⟩ q) := by
  obtain ⟨-, -, -, e0, e1, -⟩ := grid_facts0 t
  unfold iblk0
  rw [View.read_apply]
  show V c main_v7 _ = V c main_v7 _
  congr 1
  funext a
  apply Fin.ext
  match a with
  | ⟨0, _⟩ => show win0_1.index t (0 : Fin 2) * 1024 + 1 * k.val = 1024 * (t.val % 49) + k.val; rw [e0]; omega
  | ⟨1, _⟩ => show win0_1.index t (1 : Fin 2) * 128 + 1 * q.val = q.val; rw [e1]; omega

end Blocks

/-! ## The accumulator as a sum over node numbers (at the exact reals) -/

section Fold

variable (V : (c : Dev nD) → (b : Ref sig .tc) → Buf (Elt Ideal) ((c : Thread nD τ).loc b))

/-- The table's entry (j, q) where the word w is node number j; zero where it is not, and past the table. -/
def nodeTerm (xp : S50176x128.Idx → EReal) (w : BitVec 32) (q : Fin 128) (j : ℕ) : EReal :=
  if h : j < 50176 then (if w = BitVec.ofNat 32 j then xp (ix2 ⟨j, h⟩ q) else 0) else 0

/-- The node number the body compares with, as one word: 1024·n + k. -/
theorem node_word (n k : ℕ) : BitVec.ofNat 32 n * 1024#32 + BitVec.ofNat 32 k = BitVec.ofNat 32 (1024 * n + k) := by
  rw [Nat.mul_comm, BitVec.ofNat_add, BitVec.ofNat_mul]

/-- Rows of the index column that are equal numbers hold the same word. -/
theorem row_word_congr (c : Dev nD) (a b : ℕ) (ha : a < 503808) (hb : b < 503808) (e : a = b) :
    (V c main_v8 : S503808x1.Idx → BitVec 32) (ix2 ⟨a, ha⟩ (0 : Fin 1)) = V c main_v8 (ix2 ⟨b, hb⟩ (0 : Fin 1)) := by
  subst e; rfl

/-- THE STEP AT A POINT: the body at point t adds, at (p, q), the terms of the 1024 node numbers of node block
    t mod 49, for the index word of row 4096·(t / 49) + p. -/
theorem point_sum (c : Dev nD) (t : Fin cfg0.N) (p : Fin 4096) (q : Fin 128)
    (hb : 4096 * (t.val / 49) + p.val < 503808) (S : Vec Ideal S4096x128 .f32) :
    k0_pay2 (F := Ideal) (grid0.coords t) (iblk0 V c 0 t) (iblk0 V c 1 t) S (ix2 p q)
      = S (ix2 p q) + ∑ k ∈ Finset.range 1024,
          nodeTerm (V c main_v7) (V c main_v8 (ix2 ⟨4096 * (t.val / 49) + p.val, hb⟩ (0 : Fin 1))) q (1024 * (t.val % 49) + k) := by
  obtain ⟨e1, -⟩ := grid_facts0 t
  refine (pay2_apply _ _ _ _ p q).trans ?_
  refine congrArg (S (ix2 p q) + ·) ?_
  rw [Finset.sum_range]
  refine Finset.sum_congr rfl fun k _ => ?_
  have hk : 1024 * (t.val % 49) + k.val < 50176 := by have := k.isLt; omega
  rw [e1, node_word, iblk0_0_apply V c t p 0 hb, iblk0_1_apply V c t k q hk]
  unfold nodeTerm
  rw [dif_pos hk]

/-- At the first node block of a row of the grid the accumulator holds the first 1024 node numbers' terms. -/
theorem acc0_apply_reset (c : Dev nD) (p : Fin 4096) (q : Fin 128) (n : ℕ) (h : n < cfg0.N)
    (hb : 4096 * (n / 49) + p.val < 503808) (h0 : n % 49 = 0) :
    acc0 V c n h (ix2 p q)
      = ∑ j ∈ Finset.range (1024 * (n % 49 + 1)),
          nodeTerm (V c main_v7) (V c main_v8 (ix2 ⟨4096 * (n / 49) + p.val, hb⟩ (0 : Fin 1))) q j := by
  have e : acc0 V c n h = _ := acc0_reset V c ⟨n, h⟩ h0
  rw [e, point_sum V c ⟨n, h⟩ p q hb]
  show Ideal.ofBits .f32 0x00000000#32 + _ = _
  rw [Ideal.ofBits_zero_f32, zero_add]
  show ∑ k ∈ Finset.range 1024, nodeTerm _ _ q (1024 * (n % 49) + k) = _
  rw [h0]
  refine Finset.sum_congr rfl fun k _ => ?_
  rw [Nat.mul_zero, Nat.zero_add]

/-- THE ACCUMULATOR after point n, at (p, q): the terms of the node numbers below 1024·(n mod 49 + 1), for the index
    word of row 4096·(n / 49) + p — by induction on the point. -/
theorem acc0_apply (c : Dev nD) (p : Fin 4096) (q : Fin 128) :
    ∀ (n : ℕ) (h : n < cfg0.N) (hb : 4096 * (n / 49) + p.val < 503808),
      acc0 V c n h (ix2 p q)
        = ∑ j ∈ Finset.range (1024 * (n % 49 + 1)),
            nodeTerm (V c main_v7) (V c main_v8 (ix2 ⟨4096 * (n / 49) + p.val, hb⟩ (0 : Fin 1))) q j := by
  intro n
  induction n with
  | zero => intro h hb; exact acc0_apply_reset V c p q 0 h hb rfl
  | succ m ih =>
    intro h hb
    by_cases h0 : (m + 1) % 49 = 0
    · exact acc0_apply_reset V c p q (m + 1) h hb h0
    · have e : acc0 V c (m + 1) h = _ := acc0_step V c ⟨m + 1, h⟩ h0
      have hd : m / 49 = (m + 1) / 49 := by omega
      have hm : (m + 1) % 49 = m % 49 + 1 := by omega
      have hb' : 4096 * (m / 49) + p.val < 503808 := by omega
      rw [e, point_sum V c ⟨m + 1, h⟩ p q hb]
      show acc0 V c m (Nat.lt_of_succ_lt h) (ix2 p q) + ∑ k ∈ Finset.range 1024, nodeTerm _ _ q (1024 * ((m + 1) % 49) + k) = _
      rw [ih (Nat.lt_of_succ_lt h) hb', row_word_congr V c _ _ hb' hb (by rw [hd]),
        show 1024 * ((m + 1) % 49 + 1) = 1024 * (m % 49 + 1) + 1024 from by omega, Finset.sum_range_add,
        show 1024 * ((m + 1) % 49) = 1024 * (m % 49 + 1) from by omega]

end Fold

end Cert.KernelIdeal.Hand

end
-- ==== Proof.KernelIdeal.Cover0.lean ====
/-
  The gather call's output blocks tile its output array. The output (503808 rows of 128) is written in blocks of 4096
  rows: the point (edge block b, node block n) has output block (b, 0) and writes it back at the last node block,
  n = 48. So row r lies in the block of edge block r / 4096, which the point 49 · (r / 4096) + 48 writes back.
-/
import proofs.«417799_j32796370273059_1_alg».proof.Proof.KernelIdeal.Data
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The output window's block index at point t, decided once over the grid: (t / 49, 0). -/
theorem idx0_2 : ∀ t : Fin cfg0.N, win0_2.index t (0 : Fin 2) = t.val / 49 ∧ win0_2.index t (1 : Fin 2) = 0 :=
  (by decide +kernel : ∀ t : Fin grid0.N, win0_2.index t (0 : Fin 2) = t.val / 49 ∧ win0_2.index t (1 : Fin 2) = 0)

/-- An index of the output array is in point t's block iff each coordinate is in the block's range on its axis. -/
theorem mem_blk0_2 (t : Fin cfg0.N) (i : S503808x128.Idx) :
    i ∈ ((cfg0.win 2).blk t).view.set ↔ ∀ a : Fin 2, win0_2.index t a * S4096x128.size a ≤ (i a).val ∧ (i a).val < win0_2.index t a * S4096x128.size a + S4096x128.size a := by
  show i ∈ ((View.whole main_v10).slice (win0_2.rect t)).set ↔ _
  rw [View.set_slice_whole, Rect.mem_set_unit]
  exact Iff.rfl

/-- Array row r is in the block that the last point of edge block r / 4096 writes back. -/
theorem cover0_idx (i : S503808x128.Idx) :
    ∃ t : Fin cfg0.N, (cfg0.win 2).flush t = true ∧ i ∈ ((cfg0.win 2).blk t).view.set := by
  have hi0 : (i 0).val < 503808 := (i 0).isLt
  have hi1 : (i 1).val < 128 := (i 1).isLt
  have hN : cfg0.N = 6027 := N_0
  have ht : 49 * ((i 0).val / 4096) + 48 < cfg0.N := by rw [hN]; omega
  obtain ⟨e0, e1⟩ := idx0_2 ⟨49 * ((i 0).val / 4096) + 48, ht⟩
  have e0' : win0_2.index ⟨49 * ((i 0).val / 4096) + 48, ht⟩ (0 : Fin 2) = (49 * ((i 0).val / 4096) + 48) / 49 := e0
  refine ⟨⟨49 * ((i 0).val / 4096) + 48, ht⟩, (flush0_2 _).mpr ?_, ?_⟩
  · show (49 * ((i 0).val / 4096) + 48) % 49 = 48
    omega
  · rw [mem_blk0_2]
    intro a
    match a with
    | ⟨0, _⟩ =>
      show win0_2.index ⟨49 * ((i 0).val / 4096) + 48, ht⟩ (0 : Fin 2) * 4096 ≤ (i 0).val
        ∧ (i 0).val < win0_2.index ⟨49 * ((i 0).val / 4096) + 48, ht⟩ (0 : Fin 2) * 4096 + 4096
      omega
    | ⟨1, _⟩ =>
      show win0_2.index ⟨49 * ((i 0).val / 4096) + 48, ht⟩ (1 : Fin 2) * 128 ≤ (i 1).val
        ∧ (i 1).val < win0_2.index ⟨49 * ((i 0).val / 4096) + 48, ht⟩ (1 : Fin 2) * 128 + 128
      omega

/-- THE COVER: every index of the gather call's output array is in the block of some point that writes back. -/
theorem cover0 (c : Dev nD) : ∀ i : ((cfg0.win 2).arr.view.loc (c.tc : Thread nD τ)).2.ty.Idx,
    ∃ t : Fin cfg0.N, (cfg0.win 2).flush t = true ∧ i ∈ ((cfg0.win 2).blk t).view.set :=
  fun i => cover0_idx i

end Cert.KernelIdeal.Hand

end
-- ==== Proof.KernelIdeal.Value0.lean ====
/-
  The gather call at the exact reals: after the run its output array holds, at (e, d), the sum over all padded node
  numbers j of the padded feature table's entry (j, d) where the source index of edge e equals j. The accumulator
  after the point (edge block, node block n) holds that sum over the node numbers of blocks 0 … n (each step adds one
  block's one-hot product, zero times anything being zero and one times x being x); the last node block's point
  writes it back, and those blocks tile the output array.
-/
import proofs.«417799_j32796370273059_1_alg».proof.Proof.KernelIdeal.Data
import proofs.«417799_j32796370273059_1_alg».proof.Proof.Spec
import proofs.«417799_j32796370273059_1_alg».proof.Proof.KernelIdeal.Value0b
import proofs.«417799_j32796370273059_1_alg».proof.Proof.KernelIdeal.Cover0
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- An entry (p, q) of the output block at point t is entry (4096·(t / 49) + p, q) of the output array. -/
theorem emb0_2 (t : Fin cfg0.N) (p : Fin 4096) (q : Fin 128) (hb : 4096 * (t.val / 49) + p.val < 503808) :
    (((cfg0.win 2).blk t).view.emb (ix2 p q) : S503808x128.Idx) = ix2 ⟨4096 * (t.val / 49) + p.val, hb⟩ q := by
  obtain ⟨-, -, -, -, -, e0, e1⟩ := grid_facts0 t
  funext a
  apply Fin.ext
  match a with
  | ⟨0, _⟩ => show win0_2.index t (0 : Fin 2) * 4096 + 1 * p.val = 4096 * (t.val / 49) + p.val; rw [e0]; omega
  | ⟨1, _⟩ => show win0_2.index t (1 : Fin 2) * 128 + 1 * q.val = q.val; rw [e1]; omega

/-- The narrowing to the output's format is the identity on the extended reals. -/
theorem pay3_apply (X : Vec Ideal S4096x128 .f32) (j : S4096x128.Idx) : k0_pay3 (F := Ideal) X j = X j := rfl

/-- The output window's blocks are never cut by the array's edge: what a point writes back is the whole block. -/
theorem cut0_2 (t : Fin cfg0.N) (X : Vec Ideal S4096x128 .bf16) (p : Fin 4096) (q : Fin 128) :
    (cfg0.win 2).cut (grid0.coords t) X (ix2 p q) = X (ix2 p q) := rfl

/-- The gathered rows at (a, q), spelt out: the table's entries (j, q) over the node numbers j that row a's index word
    names. -/
theorem G0_apply (r : S503808x1.Idx → BitVec 32) (xp : S50176x128.Idx → EReal) (a : Fin 503808) (q : Fin 128) :
    Cert.Spec.G0 r xp (ix2 a q)
      = ∑ j : Fin 50176, if r (ix2 a (0 : Fin 1)) = BitVec.ofNat 32 j.val then xp (ix2 j q) else 0 := rfl

/-- Over the table's own node numbers the terms are the specification's. -/
theorem nodeTerm_sum (xp : S50176x128.Idx → EReal) (w : BitVec 32) (q : Fin 128) :
    ∑ j : Fin 50176, nodeTerm xp w q j.val = ∑ j : Fin 50176, if w = BitVec.ofNat 32 j.val then xp (ix2 j q) else 0 :=
  Finset.sum_congr rfl fun j _ => by unfold nodeTerm; rw [dif_pos j.isLt]

/-- Block t of whole-array contents of the output array, read at (p, q): the contents at (4096·(t / 49) + p, q). -/
theorem read0_2 (G : S503808x128.Idx → EReal) (t : Fin cfg0.N) (p : Fin 4096) (q : Fin 128)
    (hb : 4096 * (t.val / 49) + p.val < 503808) :
    ((cfg0.win 2).blk t).view.read (Elt Ideal) G (ix2 p q) = G (ix2 ⟨4096 * (t.val / 49) + p.val, hb⟩ q) := by
  rw [View.read_apply]
  show G _ = G _
  exact congrArg G (emb0_2 t p q hb)

/-- WHAT THE LAST NODE BLOCK'S POINT WRITES BACK is its block of the gathered rows: there the accumulator holds the
    terms of all 50176 node numbers. -/
theorem flushed0_eq (c : Dev nD) (t : Fin cfg0.N) (hf : (cfg0.win 2).flush t = true) :
    (dat0 (F := Ideal) V c).flushed 2 t
      = ((cfg0.win 2).blk t).view.read (Elt Ideal) (Cert.Spec.G0 (V c main_v8) (V c main_v7)) := by
  have h48 : t.val % 49 = 48 := (flush0_2 t).mp hf
  have hN : cfg0.N = 6027 := N_0
  have hlt : t.val < 6027 := hN ▸ t.isLt
  show (cfg0.win 2).cut (grid0.coords t) ((dat0 V c).after 2 t) = _
  rw [after0_2]
  funext j
  obtain ⟨p, q, rfl⟩ : ∃ (p : Fin 4096) (q : Fin 128), j = ix2 p q := ⟨j 0, j 1, eq_ix2 j⟩
  have hb : 4096 * (t.val / 49) + p.val < 503808 := by have := p.isLt; omega
  refine ((cut0_2 t _ p q).trans ((pay3_apply _ _).trans ?_)).trans
    (read0_2 (Cert.Spec.G0 (V c main_v8) (V c main_v7)) t p q hb).symm
  rw [acc0_apply V c p q t.val t.isLt hb, h48, Finset.sum_range, nodeTerm_sum]
  exact (G0_apply _ _ _ q).symm

theorem final0 (c : Dev nD) :
    (dat0 (F := Ideal) V c).arrAt 2 cfg0.N = (Cert.Spec.G0 (V c main_v8) (V c main_v7) : Buf (Elt Ideal) ((cfg0.win 2).arr.view.loc (c.tc : Thread nD τ))) := by
  exact (dat0 (F := Ideal) V c).arrAt_eq_of_cover 2 (Cert.Spec.G0 (V c main_v8) (V c main_v7))
    (fun t hf => flushed0_eq V c t hf) (cover0 c)

end Cert.KernelIdeal.Hand

end
-- ==== Proof.KernelIdeal.Cover1.lean ====
/-
  The scatter call's output blocks tile its output array. The output (50176 rows of 128) is written in blocks of 1024
  rows: the point (node block b, edge block k) has output block (b, 0) and writes it back at the last edge block,
  k = 122. So row r lies in the block of node block r / 1024, which the point 123 · (r / 1024) + 122 writes back.
-/
import proofs.«417799_j32796370273059_1_alg».proof.Proof.KernelIdeal.Data
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The output window's block index at point t, decided once over the grid: (t / 123, 0). -/
theorem idx1_2 : ∀ t : Fin cfg1.N, win1_2.index t (0 : Fin 2) = t.val / 123 ∧ win1_2.index t (1 : Fin 2) = 0 :=
  (by decide +kernel : ∀ t : Fin grid1.N, win1_2.index t (0 : Fin 2) = t.val / 123 ∧ win1_2.index t (1 : Fin 2) = 0)

/-- An index of the output array is in point t's block iff each coordinate is in the block's range on its axis. -/
theorem mem_blk1_2 (t : Fin cfg1.N) (i : S50176x128.Idx) :
    i ∈ ((cfg1.win 2).blk t).view.set ↔ ∀ a : Fin 2, win1_2.index t a * S1024x128.size a ≤ (i a).val ∧ (i a).val < win1_2.index t a * S1024x128.size a + S1024x128.size a := by
  show i ∈ ((View.whole main_v11).slice (win1_2.rect t)).set ↔ _
  rw [View.set_slice_whole, Rect.mem_set_unit]
  exact Iff.rfl

/-- Array row r is in the block that the last point of node block r / 1024 writes back. -/
theorem cover1_idx (i : S50176x128.Idx) :
    ∃ t : Fin cfg1.N, (cfg1.win 2).flush t = true ∧ i ∈ ((cfg1.win 2).blk t).view.set := by
  have hi0 : (i 0).val < 50176 := (i 0).isLt
  have hi1 : (i 1).val < 128 := (i 1).isLt
  have hN : cfg1.N = 6027 := N_1
  have ht : 123 * ((i 0).val / 1024) + 122 < cfg1.N := by rw [hN]; omega
  obtain ⟨e0, e1⟩ := idx1_2 ⟨123 * ((i 0).val / 1024) + 122, ht⟩
  have e0' : win1_2.index ⟨123 * ((i 0).val / 1024) + 122, ht⟩ (0 : Fin 2) = (123 * ((i 0).val / 1024) + 122) / 123 := e0
  refine ⟨⟨123 * ((i 0).val / 1024) + 122, ht⟩, (flush1_2 _).mpr ?_, ?_⟩
  · show (123 * ((i 0).val / 1024) + 122) % 123 = 122
    omega
  · rw [mem_blk1_2]
    intro a
    match a with
    | ⟨0, _⟩ =>
      show win1_2.index ⟨123 * ((i 0).val / 1024) + 122, ht⟩ (0 : Fin 2) * 1024 ≤ (i 0).val
        ∧ (i 0).val < win1_2.index ⟨123 * ((i 0).val / 1024) + 122, ht⟩ (0 : Fin 2) * 1024 + 1024
      omega
    | ⟨1, _⟩ =>
      show win1_2.index ⟨123 * ((i 0).val / 1024) + 122, ht⟩ (1 : Fin 2) * 128 ≤ (i 1).val
        ∧ (i 1).val < win1_2.index ⟨123 * ((i 0).val / 1024) + 122, ht⟩ (1 : Fin 2) * 128 + 128
      omega

/-- THE COVER: every index of the scatter call's output array is in the block of some point that writes back. -/
theorem cover1 (c : Dev nD) : ∀ i : ((cfg1.win 2).arr.view.loc (c.tc : Thread nD τ)).2.ty.Idx,
    ∃ t : Fin cfg1.N, (cfg1.win 2).flush t = true ∧ i ∈ ((cfg1.win 2).blk t).view.set :=
  fun i => cover1_idx i

end Cert.KernelIdeal.Hand

end
-- ==== Proof.KernelIdeal.Value1.lean ====
/-
  The scatter call at the exact reals: after the run its output array holds, at (n, d), the sum over all padded edges
  e of the gathered array's entry (e, d) where the target index of edge e equals n. The accumulator after the point
  (node block, edge block k) holds that sum over the edges of blocks 0 … k; the last edge block's point writes it
  back, and those blocks tile the output array.
-/
import proofs.«417799_j32796370273059_1_alg».proof.Proof.KernelIdeal.Data
import proofs.«417799_j32796370273059_1_alg».proof.Proof.KernelIdeal.Cover1
import proofs.«417799_j32796370273059_1_alg».proof.Proof.Spec
import proofs.«417799_j32796370273059_1_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- An entry of the 0/1 matrix: the comparison bit widened, converted and narrowed is 1 where the words agree, else 0. -/
theorem onehot1_entry (x y : BitVec 32) (hb : FTy.bits .bf16 < FTy.bits .f32) :
    FloatOps.truncf (F := Ideal) .bf16 hb (FloatOps.sitofp (F := Ideal) .f32 ((IntOp.cmpi .eq x y).setWidth 32)) = if x = y then (1 : EReal) else 0 := by
  rw [Ideal.truncf_def]
  by_cases h : x = y
  · have e : (x == y) = true := by simpa using h
    rw [if_pos h]
    unfold IntOp.cmpi
    simp only [e]
    show ((((BitVec.ofBool true).setWidth 32).toInt : ℝ) : EReal) = 1
    rw [show ((BitVec.ofBool true).setWidth 32).toInt = 1 from by decide]
    simp
  · have e : (x == y) = false := by simpa using h
    rw [if_neg h]
    unfold IntOp.cmpi
    simp only [e]
    show ((((BitVec.ofBool false).setWidth 32).toInt : ℝ) : EReal) = 0
    rw [show ((BitVec.ofBool false).setWidth 32).toInt = 0 from by decide]
    simp

set_option maxHeartbeats 400000 in
/-- The update of the accumulator at an entry: what it held plus the sum, over the 4096 edges of the block, of the gathered
    entry of the edges whose target is this row's node number (zero times anything is zero and one times x is x). -/
theorem k1_pay2_apply (i : grid1.Coords) (R : Vec Ideal S1x4096 .i32) (X : Vec Ideal S4096x128 .bf16) (S : Vec Ideal S1024x128 .f32) (p : Fin 1024) (q : Fin 128) :
    k1_pay2 (F := Ideal) i R X S (ix2 p q)
      = S (ix2 p q) + ∑ k : Fin 4096, (if BitVec.ofNat 32 (i 0).val * 1024#32 + BitVec.ofNat 32 p.val = R (ix2 (0 : Fin 1) k) then X (ix2 k q) else 0) := by
  unfold k1_pay2
  simp only [shapeCast_self]
  rw [addf_apply]
  refine congrArg (S (ix2 p q) + ·) ?_
  refine (Idealize.ShloMosaic.PlainDot.matmul_zero_apply (M := 1024) (K := 4096) (N := 128) (φ₁ := .bf16) (φ₂ := .bf16)
    dot_S1024x4096_S4096x128_S1024x128_1_0_0_1_n_n rfl rfl rfl rfl rfl rfl rfl rfl none _ X p q).trans ?_
  refine Finset.sum_congr rfl fun k _ => ?_
  have e1 : broadcastTo S1024x4096 (addi (broadcast S1024x1 (Scalar.muli (BitVec.ofNat 32 (i 0).val) 1024#32)) (iota Kind.tc S1024x1 32 [0] iota_S1024x1_d0_w32)) broadcasts_S1024x1_S1024x4096 (ix2 p k)
      = BitVec.ofNat 32 (i 0).val * 1024#32 + BitVec.ofNat 32 p.val := by
    rw [broadcastTo_apply _ _ (ix2 p k) (ix2 p (0 : Fin 1)) (fun a => by match a with | ⟨0, _⟩ => rfl | ⟨1, _⟩ => rfl)]
    show IntOp.addi (Scalar.muli _ _) (iota Kind.tc S1024x1 32 [0] iota_S1024x1_d0_w32 (ix2 p 0)) = _
    rw [iota_single_apply]
    rfl
  have e2 : broadcastTo S1024x4096 R broadcasts_S1x4096_S1024x4096 (ix2 p k) = R (ix2 (0 : Fin 1) k) :=
    broadcastTo_apply _ _ (ix2 p k) (ix2 (0 : Fin 1) k) (fun a => by match a with | ⟨0, _⟩ => rfl | ⟨1, _⟩ => rfl)
  simp only [truncf, sitofp, extui, cmpi]
  rw [e1, e2, onehot1_entry]
  split
  · exact one_mul _
  · exact zero_mul _

variable (V : (c : Dev nD) → (b : Ref sig .tc) → Buf (Elt Ideal) ((c : Thread nD τ).loc b))

/-! ## The grid: 49 node blocks by 123 edge blocks, the edge block moving fastest -/

/-- The node-block coordinate of point t. -/
theorem coords1_0 (t : Fin cfg1.N) : (grid1.coords t 0).val = t.val / 123 := by
  have hN : t.val < 6027 := N_1 ▸ t.isLt
  show t.val / grid1.stride 0 % 49 = _
  rw [show grid1.stride 0 = 123 from by decide]
  omega

/-- The edge-block coordinate of point t. -/
theorem coords1_1 (t : Fin cfg1.N) : (grid1.coords t 1).val = t.val % 123 := by
  show t.val / grid1.stride 1 % 123 = _
  rw [show grid1.stride 1 = 1 from by decide, Nat.div_one]

/-- The index row's block at point t is (0, edge block); -/
theorem idx1_0 (t : Fin cfg1.N) : win1_0.index t (0 : Fin 2) = 0 ∧ win1_0.index t (1 : Fin 2) = t.val % 123 := by
  refine ⟨rfl, ?_⟩
  show (BitVec.ofNat 32 (grid1.coords t 1).val).toNat = _
  rw [BitVec.toNat_ofNat, coords1_1]
  omega

/-- the gathered rows' block is (edge block, 0). -/
theorem idx1_1 (t : Fin cfg1.N) : win1_1.index t (0 : Fin 2) = t.val % 123 ∧ win1_1.index t (1 : Fin 2) = 0 := by
  refine ⟨?_, rfl⟩
  show (BitVec.ofNat 32 (grid1.coords t 1).val).toNat = _
  rw [BitVec.toNat_ofNat, coords1_1]
  omega

/-! ## The input blocks, read where the arrays' indices say -/

set_option maxHeartbeats 400000 in
/-- Entry k of the index block at point t is entry 4096·(edge block) + k of the index row. -/
theorem iblk1_0_apply (c : Dev nD) (t : Fin cfg1.N) (k : Fin 4096) :
    (iblk1 V c 0 t : Vec Ideal S1x4096 .i32) (ix2 (0 : Fin 1) k)
      = V c main_v9 (ix2 (0 : Fin 1) (⟨4096 * (t.val % 123) + k.val, by have := k.isLt; omega⟩ : Fin 503808)) := by
  unfold iblk1
  rw [View.read_apply]
  show V c main_v9 _ = V c main_v9 _
  congr 1
  funext a
  apply Fin.ext
  match a with
  | ⟨0, _⟩ => show win1_0.index t (0 : Fin 2) * 1 + 1 * 0 = 0; rw [(idx1_0 t).1]
  | ⟨1, _⟩ => show win1_0.index t (1 : Fin 2) * 4096 + 1 * k.val = 4096 * (t.val % 123) + k.val; rw [(idx1_0 t).2]; omega

set_option maxHeartbeats 400000 in
/-- Entry (k, d) of the gathered block at point t is entry (4096·(edge block) + k, d) of the gathered array. -/
theorem iblk1_1_apply (c : Dev nD) (t : Fin cfg1.N) (k : Fin 4096) (d : Fin 128) :
    (iblk1 V c 1 t : Vec Ideal S4096x128 .bf16) (ix2 k d)
      = V c main_v10 (ix2 (⟨4096 * (t.val % 123) + k.val, by have := k.isLt; omega⟩ : Fin 503808) d) := by
  unfold iblk1
  rw [View.read_apply]
  show V c main_v10 _ = V c main_v10 _
  congr 1
  funext a
  apply Fin.ext
  match a with
  | ⟨0, _⟩ => show win1_1.index t (0 : Fin 2) * 4096 + 1 * k.val = 4096 * (t.val % 123) + k.val; rw [(idx1_1 t).1]; omega
  | ⟨1, _⟩ => show win1_1.index t (1 : Fin 2) * 128 + 1 * d.val = d.val; rw [(idx1_1 t).2]; omega

/-! ## The accumulator along a row of the grid -/

/-- The reset value is the zero block. -/
theorem k1_pay1_apply (i : S1024x128.Idx) : k1_pay1 (F := Ideal) i = 0 := by
  unfold k1_pay1
  simp only [shapeCast_self]
  exact Ideal.ofBits_zero_f32

/-- What point n adds to entry i of the accumulator, for an index row cl and a gathered array g: the sum, over the 4096
    edges of its edge block, of the gathered entry of the edges whose target is the node number of row i of its node
    block. -/
def addend1 (cl : S1x503808.Idx → BitVec 32) (g : S503808x128.Idx → EReal) (n : ℕ) (i : S1024x128.Idx) : EReal :=
  ∑ k : Fin 4096,
    if BitVec.ofNat 32 (n / 123) * 1024#32 + BitVec.ofNat 32 (i 0).val
        = cl (ix2 (0 : Fin 1) (⟨4096 * (n % 123) + k.val, by have := k.isLt; omega⟩ : Fin 503808))
    then g (ix2 (⟨4096 * (n % 123) + k.val, by have := k.isLt; omega⟩ : Fin 503808) (i 1)) else 0

set_option maxHeartbeats 400000 in
/-- One step of the body at point t adds point t's addend. -/
theorem step1_apply (c : Dev nD) (t : Fin cfg1.N) (S : Vec Ideal S1024x128 .f32) (i : S1024x128.Idx) :
    k1_pay2 (F := Ideal) (grid1.coords t) (iblk1 V c 0 t) (iblk1 V c 1 t) S i
      = S i + addend1 (V c main_v9) (V c main_v10) t.val i := by
  obtain ⟨p, q, rfl⟩ : ∃ (p : Fin 1024) (q : Fin 128), i = ix2 p q := ⟨i 0, i 1, eq_ix2 i⟩
  rw [k1_pay2_apply]
  refine congrArg (S (ix2 p q) + ·) ?_
  unfold addend1
  refine Finset.sum_congr rfl fun k _ => ?_
  rw [iblk1_0_apply, iblk1_1_apply, coords1_0]

set_option maxHeartbeats 400000 in
/-- THE INVARIANT: after point t the accumulator holds, at each entry, the sum of the addends of the points of t's row
    of the grid up to t. -/
theorem acc1_apply (c : Dev nD) (t : Fin cfg1.N) (i : S1024x128.Idx) :
    acc1 V c t.val t.isLt i
      = ∑ s ∈ Finset.range (t.val % 123 + 1), addend1 (V c main_v9) (V c main_v10) (123 * (t.val / 123) + s) i := by
  have h' : 123 * (t.val / 123) + t.val % 123 < cfg1.N := by rw [Nat.div_add_mod]; exact t.isLt
  have hm : t.val % 123 < 123 := Nat.mod_lt _ (by decide)
  rw [Pipeline.eq_accAt_of_mod (acc1 V c) 123
      (fun n h => k1_pay2 (grid1.coords ⟨n, h⟩) (iblk1 V c 0 ⟨n, h⟩) (iblk1 V c 1 ⟨n, h⟩) (k1_pay1 (F := Ideal)))
      (fun n h acc => k1_pay2 (grid1.coords ⟨n, h⟩) (iblk1 V c 0 ⟨n, h⟩) (iblk1 V c 1 ⟨n, h⟩) acc)
      (fun n h h0 => acc1_reset V c ⟨n, h⟩ h0)
      (fun n h hs => acc1_step V c ⟨n + 1, h⟩ hs)
      (by decide) t.val t.isLt h']
  rw [Pipeline.accAt_add_apply _ _ (fun _ => 0) (addend1 (V c main_v9) (V c main_v10)) (123 * (t.val / 123)) 122
      (fun h j => by rw [step1_apply V c ⟨_, h⟩, k1_pay1_apply])
      (fun n h acc j _ _ => step1_apply V c ⟨n, h⟩ acc j)
      (t.val % 123) (by omega) h' i, zero_add]

/-! ## From the row's last point to the array -/

/-- A sum over the 503808 padded edges is the sum over the 123 edge blocks of the sums over each block's 4096 edges. -/
theorem sum_edge_blocks {M : Type*} [AddCommMonoid M] (f : Fin 503808 → M) :
    ∑ e : Fin 503808, f e
      = ∑ s ∈ Finset.range 123, ∑ k : Fin 4096, f ⟨4096 * (s % 123) + k.val, by have := k.isLt; omega⟩ := by
  rw [← Fin.sum_univ_eq_sum_range (fun s => ∑ k : Fin 4096, f ⟨4096 * (s % 123) + k.val, by have := k.isLt; omega⟩) 123,
    ← Equiv.sum_comp (finProdFinEquiv (m := 123) (n := 4096)) f, Fintype.sum_prod_type]
  refine Finset.sum_congr rfl fun s _ => Finset.sum_congr rfl fun k _ => congrArg f (Fin.ext ?_)
  show k.val + 4096 * s.val = 4096 * (s.val % 123) + k.val
  have := s.isLt
  omega

/-- The node number of row p of node block b, as the body computes it, is the word of 1024·b + p. -/
theorem node_word1 (b p : ℕ) : BitVec.ofNat 32 b * 1024#32 + BitVec.ofNat 32 p = BitVec.ofNat 32 (1024 * b + p) := by
  rw [BitVec.ofNat_add, BitVec.ofNat_mul, BitVec.mul_comm]

set_option maxHeartbeats 400000 in
/-- The scattered sum at row p of node block b is the sum of the addends of the 123 points of that node block's row of
    the grid. -/
theorem G1_rows (cl : S1x503808.Idx → BitVec 32) (g : S503808x128.Idx → EReal) (b : ℕ) (hb : b < 49) (p : Fin 1024) (q : Fin 128) :
    Cert.Spec.G1 cl g (ix2 (⟨1024 * b + p.val, by have := p.isLt; omega⟩ : Fin 50176) q)
      = ∑ s ∈ Finset.range 123, addend1 cl g (123 * b + s) (ix2 p q) := by
  refine (sum_edge_blocks (fun e => if BitVec.ofNat 32 (1024 * b + p.val) = cl (ix2 (0 : Fin 1) e) then g (ix2 e q) else 0)).trans ?_
  refine Finset.sum_congr rfl fun s hs => ?_
  have hs' : s < 123 := Finset.mem_range.mp hs
  have e1 : (123 * b + s) / 123 = b := by omega
  have e2 : (123 * b + s) % 123 = s % 123 := by omega
  unfold addend1
  refine Finset.sum_congr rfl fun k _ => ?_
  simp only [e1, e2, node_word1]

set_option maxHeartbeats 400000 in
/-- WHAT A ROW'S LAST POINT WRITES BACK is its node block of the scattered sums. -/
theorem flushed1_eq (c : Dev nD) (t : Fin cfg1.N) (hf : (cfg1.win 2).flush t = true) :
    (dat1 (F := Ideal) V c).flushed 2 t
      = ((cfg1.win 2).blk t).view.read (Elt Ideal) (Cert.Spec.G1 (V c main_v9) (V c main_v10)) := by
  have h122 : t.val % 123 = 122 := (flush1_2 t).mp hf
  have hN : t.val < 6027 := N_1 ▸ t.isLt
  show (cfg1.win 2).cut (grid1.coords t) ((dat1 (F := Ideal) V c).after 2 t) = _
  rw [after1_2]
  funext j
  rw [View.read_apply]
  obtain ⟨p, q, rfl⟩ : ∃ (p : Fin 1024) (q : Fin 128), j = ix2 p q := ⟨j 0, j 1, eq_ix2 j⟩
  have hemb : ((cfg1.win 2).blk t).view.emb (ix2 p q)
      = ix2 (⟨1024 * (t.val / 123) + p.val, by have := p.isLt; omega⟩ : Fin 50176) q := by
    funext a
    apply Fin.ext
    match a with
    | ⟨0, _⟩ => show win1_2.index t (0 : Fin 2) * 1024 + 1 * p.val = 1024 * (t.val / 123) + p.val; rw [(idx1_2 t).1]; omega
    | ⟨1, _⟩ => show win1_2.index t (1 : Fin 2) * 128 + 1 * q.val = q.val; rw [(idx1_2 t).2]; omega
  have hcut : (cfg1.win 2).cut (grid1.coords t) (acc1 V c t.val t.isLt) (ix2 p q) = acc1 V c t.val t.isLt (ix2 p q) := rfl
  rw [hemb, cast_eq, hcut, acc1_apply, h122]
  exact (G1_rows (V c main_v9) (V c main_v10) (t.val / 123) (by omega) p q).symm

/-- THE ARRAY after the run: the scattered sums of the two input arrays as the call found them. -/
theorem final1 (c : Dev nD) :
    (dat1 (F := Ideal) V c).arrAt 2 cfg1.N = (Cert.Spec.G1 (V c main_v9) (V c main_v10) : Buf (Elt Ideal) ((cfg1.win 2).arr.view.loc (c.tc : Thread nD τ))) :=
  (dat1 (F := Ideal) V c).arrAt_eq_of_cover 2 (Cert.Spec.G1 (V c main_v9) (V c main_v10)) (fun t hf => flushed1_eq V c t hf) (cover1 c)

end Cert.KernelIdeal.Hand

end
-- ==== Proof.HostSpec.lean ====
/-
  The host side of the kernel's program as functions of whole arrays: each index row of the index array flattened,
  padded to 503808 entries with the dummy node number 50000 and laid out as a column (sources) or as a row (targets);
  the feature table padded with 176 zero rows; and the closing cut of the first 50000 rows.
-/
import proofs.«417799_j32796370273059_1_alg».proof.KernelIdeal

noncomputable section

namespace Cert.KernelIdeal.Hand

open Idealize.ShloMosaic Cert.KernelIdeal
open Cert.KernelIdeal.Facts₀

variable [Cert.KernelIdeal.Facts] {F : FTy → Type} [FloatOps F]

/-- The padded source indices, as a column. -/
def rowsCol (a : IVec S2x500000 32) : IVec S503808x1 32 :=
  shapeCast S503808x1
    (concatenate S503808 0
      [⟨S500000, shapeCast S500000 (extractStridedSlice S1x500000 ![0, 0] a slices_S2x500000_S1x500000_0_0) shapeCasts_S1x500000_S500000⟩,
       ⟨S3808, broadcastInDim S3808 ![] bcast_S_S3808 (constantI S_ 32 50000#32)⟩]
      concatenates_S500000_S3808_S503808_d0)
    shapeCasts_S503808_S503808x1

/-- The padded target indices, as a row. -/
def colsRow (a : IVec S2x500000 32) : IVec S1x503808 32 :=
  shapeCast S1x503808
    (concatenate S503808 0
      [⟨S500000, shapeCast S500000 (extractStridedSlice S1x500000 ![1, 0] a slices_S2x500000_S1x500000_1_0) shapeCasts_S1x500000_S500000⟩,
       ⟨S3808, broadcastInDim S3808 ![] bcast_S_S3808 (constantI S_ 32 50000#32)⟩]
      concatenates_S500000_S3808_S503808_d0)
    shapeCasts_S503808_S1x503808

/-- The feature table with 176 zero rows appended. -/
def xpad (x : FVec F S50000x128 .f32) : FVec F S50176x128 .f32 :=
  pad S50176x128 ![0, 0] ![176, 0] ![0, 0] x (sitofp (F := F) .f32 (constantI S_ 32 0#32)) pads_S50000x128_S50176x128_01760_000 h_S_

/-- The first 50000 rows of a padded table. -/
def outRows (y : FVec F S50176x128 .f32) : FVec F S50000x128 .f32 :=
  extractStridedSlice S50000x128 ![0, 0] y slices_S50176x128_S50000x128_0_0

end Cert.KernelIdeal.Hand

end
-- ==== Proof.RefSpec.lean ====
/-
  The reference's result as one term of its two arguments: the source and target index rows are sliced out and
  flattened; the rows of x at the source indices are taken (a negative index wrapped once, a row whose wrapped index
  is out of range replaced by the fill value); and the taken rows are added into a zero table at the target indices.
-/
import proofs.«417799_j32796370273059_1_alg».proof.ReferenceIdeal

noncomputable section

namespace Cert.ReferenceIdeal.Hand

open Idealize.ShloMosaic Cert.ReferenceIdeal
open Cert.ReferenceIdeal.Facts₀

variable [Cert.ReferenceIdeal.Facts] {F : FTy → Type} [FloatOps F]

/-- The source indices: row 0 of the index array, flattened. -/
def rowIdx (a : IVec S2x500000 32) : IVec S500000 32 :=
  shapeCast S500000 (extractStridedSlice S1x500000 ![0, 0] a slices_S2x500000_S1x500000_0_0) shapeCasts_S1x500000_S500000

/-- The target indices: row 1 of the index array, flattened. -/
def colIdx (a : IVec S2x500000 32) : IVec S500000 32 :=
  shapeCast S500000 (extractStridedSlice S1x500000 ![1, 0] a slices_S2x500000_S1x500000_1_0) shapeCasts_S1x500000_S500000

/-- The source indices with the negative ones wrapped once. -/
def wrapped (idx : IVec S500000 32) : IVec S500000 32 :=
  select (cmpi .slt idx (broadcastInDim S500000 ![] bcast_S_S500000 (constantI S_ 32 0#32)))
    (addi idx (broadcastInDim S500000 ![] bcast_S_S500000 (constantI S_ 32 50000#32))) idx

/-- The rows of x taken at the source indices, as the printed take computes them. -/
def taken (x : FVec F S50000x128 .f32) (idx : IVec S500000 32) : FVec F S500000x128 .f32 :=
  select
    (broadcastInDim S500000x128 ![0] bcast_S500000_S500000x128_0
      (Host.reduce IntOp.andi
        (andi
          (cmpi .sge (broadcastInDim S500000x1 ![0] bcast_S500000_S500000x1_0 (wrapped idx))
            (broadcastInDim S500000x1 ![] bcast_S_S500000x1 (constantI S_ 32 0#32)))
          (cmpi .sle (broadcastInDim S500000x1 ![0] bcast_S500000_S500000x1_0 (wrapped idx))
            (broadcastInDim S500000x1 ![0, 1] bcast_S1x1_S500000x1_0_1
              (broadcastInDim S1x1 ![1] bcast_S1_S1x1_1 (constantI S1 32 49999#32)))))
        (constantI S_ 1 1#1) reducesTo_S500000x1_S500000_d1 h_S_))
    (Host.gather gather_S50000x128_S500000x1_S500000x128_1_0_n_n_0_1_1128 x
      (broadcastInDim S500000x1 ![0] bcast_S500000_S500000x1_0 (wrapped idx)))
    (broadcastInDim S500000x128 ![] bcast_S_S500000x128 (constant (F := F) S_ .f32 0x7FC00000#32))

/-- THE REFERENCE'S RESULT: the taken rows added into a zero table at the target indices. -/
def refVal (x : FVec F S50000x128 .f32) (a : IVec S2x500000 32) : FVec F S50000x128 .f32 :=
  Host.scatterAdd scatter_S50000x128_S500000x1_S500000x128_1_0_0_1
    (broadcastInDim S50000x128 ![] bcast_S_S50000x128 (constant (F := F) S_ .f32 0x00000000#32))
    (broadcastInDim S500000x1 ![0] bcast_S500000_S500000x1_0 (colIdx a))
    (taken x (rowIdx a))

end Cert.ReferenceIdeal.Hand

end
-- ==== Proof.LibTake.lean ====
/-
  jnp.take along axis 0 with in-range indices.

  The default-mode take wraps negative indices once, gathers with the wrapped indices as start
  indices, and replaces by a fill value every row whose wrapped index lies outside the table.
  When every index is already a natural number below the table's row count N (with N below 2³¹,
  so that each word is non-negative as a signed integer), nothing wraps, every row passes the
  range test, and the whole composite is the plain gather at the given indices.

  Also here: a concatenation of in-range indices with an iota stays in range.
-/
import Idealize.ShloMosaic.PureOps
import Idealize.ShloMosaic.Lib.StableHlo.Predicate
import Idealize.ShloMosaic.Lib.ReduceAll
import Idealize.ShloMosaic.Lib.Pipeline.Value

namespace Cert.LibTake

open Idealize.ShloMosaic
open Idealize.ShloMosaic.StableHlo.Predicate

variable {α : Type}

/-! ## A select whose condition is all ones -/

/-- A select under a mask that is 1 at every index returns its first branch. -/
theorem select_ones {s : Shape} (mask : IVec s 1) (a b : s.Idx → α) (h : ∀ i, mask i = 1#1) :
    select mask a b = a := by
  funext i
  show Scalar.select (mask i) (a i) (b i) = a i
  unfold Scalar.select
  rw [h i]
  exact if_pos rfl

/-- A select under a mask that is 1 nowhere returns its second branch. -/
theorem select_none {s : Shape} (mask : IVec s 1) (a b : s.Idx → α) (h : ∀ i, ¬ mask i = 1#1) :
    select mask a b = b := by
  funext i
  show Scalar.select (mask i) (a i) (b i) = b i
  unfold Scalar.select
  exact if_neg (h i)

/-! ## The wrap of negative indices -/

/-- With every index a natural number below N < 2³¹, no index is negative as a signed word, so the
    select that adds N to the negative ones returns the index vector itself. -/
theorem wrap_id {R N : Nat} (hN : N < 2 ^ 31) (idx : IVec ⟨1, ![R]⟩ 32) (hidx : ∀ r, (idx r).toNat < N)
    (hz hn : (⟨0, ![]⟩ : Shape).BroadcastsInDim ⟨1, ![R]⟩ ![]) :
    select (cmpi .slt idx (broadcastInDim ⟨1, ![R]⟩ ![] hz (constantI ⟨0, ![]⟩ 32 0#32)))
      (addi idx (broadcastInDim ⟨1, ![R]⟩ ![] hn (constantI ⟨0, ![]⟩ 32 (BitVec.ofNat 32 N)))) idx = idx := by
  apply select_none
  intro r
  show ¬ IntOp.cmpi .slt (idx r) 0#32 = 1#1
  have hr := hidx r
  rw [slt_iff_toNat (by omega) (by decide)]
  simp

/-! ## The range mask -/

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = (1#1 : BitVec 1) from by decide]
    exact foldl_andi_ones f hf l

/-- A reduction by `and` from an initial value 1 of an array that is 1 everywhere is 1 at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1)
    (j : t.Idx) : Host.reduce IntOp.andi x init h hu j = 1#1 := by
  rw [Host.reduce_eq_foldl, hinit]
  exact foldl_andi_ones x hx _

/-- With every index a natural number below N < 2³¹, the start-index column passes both range tests
    (0 ≤ index, index ≤ N − 1) in every row, so the row mask — their conjunction reduced by `and` along the
    column axis — is 1 at every row. -/
theorem mask_ones {R N : Nat} (hN : N < 2 ^ 31) (idx : IVec ⟨1, ![R]⟩ 32) (hidx : ∀ r, (idx r).toNat < N)
    (hI : (⟨1, ![R]⟩ : Shape).BroadcastsInDim ⟨2, ![R, 1]⟩ ![0])
    (h0 : (⟨0, ![]⟩ : Shape).BroadcastsInDim ⟨2, ![R, 1]⟩ ![])
    (h1 : (⟨1, ![1]⟩ : Shape).BroadcastsInDim ⟨2, ![1, 1]⟩ ![1])
    (h2 : (⟨2, ![1, 1]⟩ : Shape).BroadcastsInDim ⟨2, ![R, 1]⟩ ![0, 1])
    (hr : (⟨2, ![R, 1]⟩ : Shape).ReducesTo [1] ⟨1, ![R]⟩) (hu : 0 < (⟨0, ![]⟩ : Shape).numel)
    (j : (⟨1, ![R]⟩ : Shape).Idx) :
    Host.reduce IntOp.andi
      (andi
        (cmpi .sge (broadcastInDim ⟨2, ![R, 1]⟩ ![0] hI idx)
          (broadcastInDim ⟨2, ![R, 1]⟩ ![] h0 (constantI ⟨0, ![]⟩ 32 0#32)))
        (cmpi .sle (broadcastInDim ⟨2, ![R, 1]⟩ ![0] hI idx)
          (broadcastInDim ⟨2, ![R, 1]⟩ ![0, 1] h2
            (broadcastInDim ⟨2, ![1, 1]⟩ ![1] h1 (constantI ⟨1, ![1]⟩ 32 (BitVec.ofNat 32 (N - 1)))))))
      (constantI ⟨0, ![]⟩ 1 1#1) hr hu j = 1#1 := by
  apply reduce_andi_ones _ _ hr hu _ rfl
  intro i
  -- the start index at i is one of the given indices
  obtain ⟨r, hIr⟩ : ∃ r, broadcastInDim ⟨2, ![R, 1]⟩ ![0] hI idx i = idx r := ⟨_, rfl⟩
  have hlt := hidx r
  have hM : (BitVec.ofNat 32 (N - 1)).toNat = N - 1 := by
    rw [BitVec.toNat_ofNat]; exact Nat.mod_eq_of_lt (by omega)
  show IntOp.andi (IntOp.cmpi .sge (broadcastInDim ⟨2, ![R, 1]⟩ ![0] hI idx i) 0#32)
      (IntOp.cmpi .sle (broadcastInDim ⟨2, ![R, 1]⟩ ![0] hI idx i) (BitVec.ofNat 32 (N - 1))) = 1#1
  rw [hIr, IntOp.andi_eq_one, sge_iff_toNat (by omega) (by decide), sle_iff_toNat (by omega) (by rw [hM]; omega), hM]
  exact ⟨Nat.zero_le _, by omega⟩

/-! ## The take composite is the plain gather -/

/-- THE TAKE OF ROWS (a table whose gathered slices have C entries each; result [R, C]). With every index a natural number
    below N < 2³¹: the wrap of negative indices does nothing, the row mask — broadcast along the rows of the result — is
    all ones, and so the select between the gathered rows and the fill array is the gather at the given indices kept
    as an [R, 1] column. The table's shape, the gather's dimension numbers and the fill array are arbitrary. -/
theorem take_rows_eq {R N C : Nat} {s : Shape} (hN : N < 2 ^ 31) (idx : IVec ⟨1, ![R]⟩ 32)
    (hidx : ∀ r, (idx r).toNat < N) (d : GatherDims s ⟨2, ![R, 1]⟩ ⟨2, ![R, C]⟩) (x : s.Idx → α)
    (fill : (⟨2, ![R, C]⟩ : Shape).Idx → α)
    (hz hn : (⟨0, ![]⟩ : Shape).BroadcastsInDim ⟨1, ![R]⟩ ![])
    (hI : (⟨1, ![R]⟩ : Shape).BroadcastsInDim ⟨2, ![R, 1]⟩ ![0])
    (h0 : (⟨0, ![]⟩ : Shape).BroadcastsInDim ⟨2, ![R, 1]⟩ ![])
    (h1 : (⟨1, ![1]⟩ : Shape).BroadcastsInDim ⟨2, ![1, 1]⟩ ![1])
    (h2 : (⟨2, ![1, 1]⟩ : Shape).BroadcastsInDim ⟨2, ![R, 1]⟩ ![0, 1])
    (hr : (⟨2, ![R, 1]⟩ : Shape).ReducesTo [1] ⟨1, ![R]⟩) (hu : 0 < (⟨0, ![]⟩ : Shape).numel)
    (hm : (⟨1, ![R]⟩ : Shape).BroadcastsInDim ⟨2, ![R, C]⟩ ![0]) :
    select
      (broadcastInDim ⟨2, ![R, C]⟩ ![0] hm
        (Host.reduce IntOp.andi
          (andi
            (cmpi .sge
              (broadcastInDim ⟨2, ![R, 1]⟩ ![0] hI
                (select (cmpi .slt idx (broadcastInDim ⟨1, ![R]⟩ ![] hz (constantI ⟨0, ![]⟩ 32 0#32)))
                  (addi idx (broadcastInDim ⟨1, ![R]⟩ ![] hn (constantI ⟨0, ![]⟩ 32 (BitVec.ofNat 32 N)))) idx))
              (broadcastInDim ⟨2, ![R, 1]⟩ ![] h0 (constantI ⟨0, ![]⟩ 32 0#32)))
            (cmpi .sle
              (broadcastInDim ⟨2, ![R, 1]⟩ ![0] hI
                (select (cmpi .slt idx (broadcastInDim ⟨1, ![R]⟩ ![] hz (constantI ⟨0, ![]⟩ 32 0#32)))
                  (addi idx (broadcastInDim ⟨1, ![R]⟩ ![] hn (constantI ⟨0, ![]⟩ 32 (BitVec.ofNat 32 N)))) idx))
              (broadcastInDim ⟨2, ![R, 1]⟩ ![0, 1] h2
                (broadcastInDim ⟨2, ![1, 1]⟩ ![1] h1 (constantI ⟨1, ![1]⟩ 32 (BitVec.ofNat 32 (N - 1)))))))
          (constantI ⟨0, ![]⟩ 1 1#1) hr hu))
      (Host.gather d x
        (broadcastInDim ⟨2, ![R, 1]⟩ ![0] hI
          (select (cmpi .slt idx (broadcastInDim ⟨1, ![R]⟩ ![] hz (constantI ⟨0, ![]⟩ 32 0#32)))
            (addi idx (broadcastInDim ⟨1, ![R]⟩ ![] hn (constantI ⟨0, ![]⟩ 32 (BitVec.ofNat 32 N)))) idx)))
      fill
    = Host.gather d x (broadcastInDim ⟨2, ![R, 1]⟩ ![0] hI idx) := by
  rw [wrap_id hN idx hidx hz hn]
  apply select_ones
  intro i
  exact mask_ones hN idx hidx hI h0 h1 h2 hr hu _

/-- THE TAKE OF ENTRIES (a table whose gathered slices are single entries; result [R]). As `take_rows_eq`, the row
    mask used as it is. -/
theorem take_vec_eq {R N : Nat} {s : Shape} (hN : N < 2 ^ 31) (idx : IVec ⟨1, ![R]⟩ 32)
    (hidx : ∀ r, (idx r).toNat < N) (d : GatherDims s ⟨2, ![R, 1]⟩ ⟨1, ![R]⟩) (x : s.Idx → α)
    (fill : (⟨1, ![R]⟩ : Shape).Idx → α)
    (hz hn : (⟨0, ![]⟩ : Shape).BroadcastsInDim ⟨1, ![R]⟩ ![])
    (hI : (⟨1, ![R]⟩ : Shape).BroadcastsInDim ⟨2, ![R, 1]⟩ ![0])
    (h0 : (⟨0, ![]⟩ : Shape).BroadcastsInDim ⟨2, ![R, 1]⟩ ![])
    (h1 : (⟨1, ![1]⟩ : Shape).BroadcastsInDim ⟨2, ![1, 1]⟩ ![1])
    (h2 : (⟨2, ![1, 1]⟩ : Shape).BroadcastsInDim ⟨2, ![R, 1]⟩ ![0, 1])
    (hr : (⟨2, ![R, 1]⟩ : Shape).ReducesTo [1] ⟨1, ![R]⟩) (hu : 0 < (⟨0, ![]⟩ : Shape).numel) :
    select
      (Host.reduce IntOp.andi
        (andi
          (cmpi .sge
            (broadcastInDim ⟨2, ![R, 1]⟩ ![0] hI
              (select (cmpi .slt idx (broadcastInDim ⟨1, ![R]⟩ ![] hz (constantI ⟨0, ![]⟩ 32 0#32)))
                (addi idx (broadcastInDim ⟨1, ![R]⟩ ![] hn (constantI ⟨0, ![]⟩ 32 (BitVec.ofNat 32 N)))) idx))
            (broadcastInDim ⟨2, ![R, 1]⟩ ![] h0 (constantI ⟨0, ![]⟩ 32 0#32)))
          (cmpi .sle
            (broadcastInDim ⟨2, ![R, 1]⟩ ![0] hI
              (select (cmpi .slt idx (broadcastInDim ⟨1, ![R]⟩ ![] hz (constantI ⟨0, ![]⟩ 32 0#32)))
                (addi idx (broadcastInDim ⟨1, ![R]⟩ ![] hn (constantI ⟨0, ![]⟩ 32 (BitVec.ofNat 32 N)))) idx))
            (broadcastInDim ⟨2, ![R, 1]⟩ ![0, 1] h2
              (broadcastInDim ⟨2, ![1, 1]⟩ ![1] h1 (constantI ⟨1, ![1]⟩ 32 (BitVec.ofNat 32 (N - 1)))))))
        (constantI ⟨0, ![]⟩ 1 1#1) hr hu)
      (Host.gather d x
        (broadcastInDim ⟨2, ![R, 1]⟩ ![0] hI
          (select (cmpi .slt idx (broadcastInDim ⟨1, ![R]⟩ ![] hz (constantI ⟨0, ![]⟩ 32 0#32)))
            (addi idx (broadcastInDim ⟨1, ![R]⟩ ![] hn (constantI ⟨0, ![]⟩ 32 (BitVec.ofNat 32 N)))) idx)))
      fill
    = Host.gather d x (broadcastInDim ⟨2, ![R, 1]⟩ ![0] hI idx) := by
  rw [wrap_id hN idx hidx hz hn]
  apply select_ones
  intro i
  exact mask_ones hN idx hidx hI h0 h1 h2 hr hu i

/-! ## Indices followed by an iota -/

/-- A vector of n words each below B as a natural number, followed by the positions 0, 1, …, m − 1 with m ≤ B, has
    every entry below B. -/
theorem concat_iota_lt {n m T B : Nat} (hmB : m ≤ B) (v : IVec ⟨1, ![n]⟩ 32) (hv : ∀ i, (v i).toNat < B)
    (hc : Shape.Concatenates [(⟨1, ![n]⟩ : Shape), ⟨1, ![m]⟩] ⟨1, ![T]⟩ 0) (j : (⟨1, ![T]⟩ : Shape).Idx) :
    (concatenate ⟨1, ![T]⟩ 0 [⟨⟨1, ![n]⟩, v⟩, ⟨⟨1, ![m]⟩, iotaInDim ⟨1, ![m]⟩ 32 0⟩] hc j).toNat < B := by
  have hT : n + (m + 0) = T := hc.2.2
  have hj : (j 0).val < T := (j 0).isLt
  by_cases hlt : (j 0).val < n
  · rw [concatenate_pair_apply_left (t := ⟨1, ![T]⟩) (s₁ := ⟨1, ![n]⟩) (s₂ := ⟨1, ![m]⟩) (0 : Fin 1) v _ hc j rfl (Shape.Idx.ofFin ⟨(j 0).val, hlt⟩) (fun b => by
      have hb : b = 0 := Subsingleton.elim _ _
      subst hb; rfl)]
    exact hv _
  · have hm' : (j 0).val - n < m := by omega
    rw [concatenate_pair_apply_right (t := ⟨1, ![T]⟩) (s₁ := ⟨1, ![n]⟩) (s₂ := ⟨1, ![m]⟩) (0 : Fin 1) v _ hc j rfl rfl (Shape.Idx.ofFin ⟨(j 0).val - n, hm'⟩)
      (fun b hb => absurd (Subsingleton.elim _ _) hb) (by show (j 0).val - n + n = (j 0).val; omega)]
    show (BitVec.ofNat 32 ((j 0).val - n)).toNat < B
    rw [BitVec.toNat_ofNat]
    exact lt_of_le_of_lt (Nat.mod_le _ _) (by omega)

end Cert.LibTake
-- ==== Proof.LibScatterRows.lean ====
/-
  ROW SCATTER-ADD READ AT AN ENTRY.

  A segment sum over the leading axis is the accumulating scatter whose dimension numbers are
  update window axes [1] (or none, for a vector), inserted window axes [0], scatter-dims-to-operand-dims
  [0] and index vector axis 1, over an operand [C, A] (or [C]), scatter indices [N, 1] and updates [N, A]
  (or [N]). Update row n carries ONE start index, the word idx[n, 0] read as a signed integer; it is the
  start on operand axis 0, where the window coordinate is 0 because that axis is inserted. On operand axis 1
  the start is 0 (the map does not name the axis) and the window coordinate is the update's own column. So
  update element (n, a') lands at operand element (idx[n, 0], a') when 0 ≤ idx[n, 0] < C and is dropped
  otherwise; the column is always in range, being below A on both sides.

  Hence the result at (c, a) is the operand there plus the sum, over the rows n whose index word reads
  exactly c, of upd[n, a]:

      scatter(x, idx, upd)[c, a] = x[c, a] + ∑ n, if idx[n, 0] = c then upd[n, a] else 0 .

  An index word that is negative or at least C matches no c below C, so the dropped updates need no
  separate clause. The statements hold at every extent C, N, A and every index width w, for any record of
  dimension numbers whose four lists are the ones above. The rank-1 form (operand [C], updates [N]) is the
  same with the column removed.
-/
import Idealize.ShloMosaic.Lib.ValueIdx
import Idealize.ShloMosaic.PureOps.Ideal

noncomputable section

open scoped BigOperators

namespace Idealize.ShloMosaic.ScatterRows

open Idealize.ShloMosaic Idealize.ShloMosaic.ValueIdx

/-! ## Operand [C, A], scatter indices [N, 1], updates [N, A] -/

section Rows2
variable {C N A w : ℕ}

/-- The row scatter's dimension numbers as a record of literal lists: update window axes [1], inserted
    window axes [0], scatter-dims-to-operand-dims [0], index vector axis 1. -/
abbrev rows2 (wf : ScatterDims.WF ⟨2, ![C, A]⟩ ⟨2, ![N, 1]⟩ ⟨2, ![N, A]⟩ [1] [0] [0] 1) :
    ScatterDims ⟨2, ![C, A]⟩ ⟨2, ![N, 1]⟩ ⟨2, ![N, A]⟩ := ⟨[1], [0], [0], 1, wf⟩

/-- On operand axis 0 the window of update (n, a') starts at the index word idx[n, 0], read signed. -/
theorem rows2_start0 (wf : ScatterDims.WF ⟨2, ![C, A]⟩ ⟨2, ![N, 1]⟩ ⟨2, ![N, A]⟩ [1] [0] [0] 1)
    (j : (⟨2, ![N, A]⟩ : Shape).Idx) (idx : IVec ⟨2, ![N, 1]⟩ w) :
    (rows2 wf).start j idx 0 = (idx (ix2 (j 0) (0 : Fin 1))).toInt := by
  unfold ScatterDims.start
  rw [dif_pos (List.mem_singleton.mpr rfl)]
  congr 2
  funext b
  refine Fin.ext ?_
  match b with
  | ⟨0, _⟩ => rfl
  | ⟨1, _⟩ => rfl

/-- On operand axis 1, which the map does not name, the window starts at 0. -/
theorem rows2_start1 (wf : ScatterDims.WF ⟨2, ![C, A]⟩ ⟨2, ![N, 1]⟩ ⟨2, ![N, A]⟩ [1] [0] [0] 1)
    (j : (⟨2, ![N, A]⟩ : Shape).Idx) (idx : IVec ⟨2, ![N, 1]⟩ w) :
    (rows2 wf).start j idx 1 = 0 := by
  unfold ScatterDims.start
  rw [dif_neg (show ¬ ((1 : Fin 2) ∈ ([0] : List (Fin 2))) by decide)]

/-- Operand axis 0 is inserted: the window coordinate there is 0. -/
theorem rows2_window0 (wf : ScatterDims.WF ⟨2, ![C, A]⟩ ⟨2, ![N, 1]⟩ ⟨2, ![N, A]⟩ [1] [0] [0] 1)
    (j : (⟨2, ![N, A]⟩ : Shape).Idx) :
    (rows2 wf).window j 0 = 0 := by
  unfold ScatterDims.window
  have h : ¬ ((0 : Fin 2) ∈ (rows2 wf).sKept) := by
    show ¬ ((0 : Fin 2) ∈ ([1] : List (Fin 2)))
    decide
  rw [dif_neg h]

/-- Operand axis 1 is the one kept axis: the window coordinate there is the update's column. -/
theorem rows2_window1 (wf : ScatterDims.WF ⟨2, ![C, A]⟩ ⟨2, ![N, 1]⟩ ⟨2, ![N, A]⟩ [1] [0] [0] 1)
    (j : (⟨2, ![N, A]⟩ : Shape).Idx) :
    (rows2 wf).window j 1 = (j 1).val := by
  unfold ScatterDims.window
  have h : (1 : Fin 2) ∈ (rows2 wf).sKept := by
    show (1 : Fin 2) ∈ ([1] : List (Fin 2))
    decide
  rw [dif_pos h]
  rfl

/-- WHERE AN UPDATE LANDS: update (n, a') lands at operand element (c, a) exactly when its row's index word
    reads c and its column is a. (An index word outside [0, C) lands nowhere, and equals no c below C.) -/
theorem rows2_resultIdx?_eq_some (wf : ScatterDims.WF ⟨2, ![C, A]⟩ ⟨2, ![N, 1]⟩ ⟨2, ![N, A]⟩ [1] [0] [0] 1)
    (j : (⟨2, ![N, A]⟩ : Shape).Idx) (idx : IVec ⟨2, ![N, 1]⟩ w) (c : Fin C) (a : Fin A) :
    (rows2 wf).resultIdx? j idx = some (ix2 c a) ↔
      (idx (ix2 (j 0) (0 : Fin 1))).toInt = (c.val : ℤ) ∧ j 1 = a := by
  have e0 : (rows2 wf).start j idx 0 + ((rows2 wf).window j 0 : ℕ) = (idx (ix2 (j 0) (0 : Fin 1))).toInt := by
    rw [rows2_start0, rows2_window0]; simp
  have e1 : (rows2 wf).start j idx 1 + ((rows2 wf).window j 1 : ℕ) = ((j 1).val : ℤ) := by
    rw [rows2_start1, rows2_window1]; simp
  unfold ScatterDims.resultIdx?
  split_ifs with h
  · rw [Option.some.injEq]
    constructor
    · intro hf
      have h0 : ((rows2 wf).start j idx 0 + ((rows2 wf).window j 0 : ℕ)).toNat = c.val :=
        congrArg Fin.val (congrFun hf 0)
      have h1 : ((rows2 wf).start j idx 1 + ((rows2 wf).window j 1 : ℕ)).toNat = a.val :=
        congrArg Fin.val (congrFun hf 1)
      have hp := (h 0).1
      rw [e0] at h0 hp
      rw [e1] at h1
      refine ⟨by omega, Fin.ext (by omega)⟩
    · rintro ⟨hc, ha⟩
      funext b
      refine Fin.ext ?_
      match b with
      | ⟨0, _⟩ =>
        show ((rows2 wf).start j idx 0 + ((rows2 wf).window j 0 : ℕ)).toNat = c.val
        rw [e0, hc]; simp
      | ⟨1, _⟩ =>
        show ((rows2 wf).start j idx 1 + ((rows2 wf).window j 1 : ℕ)).toNat = a.val
        rw [e1, ha]; simp
  · constructor
    · intro hf; cases hf
    · rintro ⟨hc, ha⟩
      refine absurd ?_ h
      intro b
      match b with
      | ⟨0, _⟩ =>
        show 0 ≤ (rows2 wf).start j idx 0 + ((rows2 wf).window j 0 : ℕ) ∧
          (rows2 wf).start j idx 0 + ((rows2 wf).window j 0 : ℕ) < ((C : ℕ) : ℤ)
        rw [e0, hc]
        have := c.isLt
        omega
      | ⟨1, _⟩ =>
        show 0 ≤ (rows2 wf).start j idx 1 + ((rows2 wf).window j 1 : ℕ) ∧
          (rows2 wf).start j idx 1 + ((rows2 wf).window j 1 : ℕ) < ((A : ℕ) : ℤ)
        rw [e1, ha]
        have := a.isLt
        omega

/-- The same, for an update index given by its coordinates. -/
theorem rows2_resultIdx?_ix2 (wf : ScatterDims.WF ⟨2, ![C, A]⟩ ⟨2, ![N, 1]⟩ ⟨2, ![N, A]⟩ [1] [0] [0] 1)
    (n : Fin N) (b : Fin A) (idx : IVec ⟨2, ![N, 1]⟩ w) (c : Fin C) (a : Fin A) :
    (rows2 wf).resultIdx? (ix2 n b) idx = some (ix2 c a) ↔
      (idx (ix2 n (0 : Fin 1))).toInt = (c.val : ℤ) ∧ b = a :=
  rows2_resultIdx?_eq_some wf (ix2 n b) idx c a

/-- The row scatter-add of the literal record, read at (c, a). -/
theorem rows2_apply (wf : ScatterDims.WF ⟨2, ![C, A]⟩ ⟨2, ![N, 1]⟩ ⟨2, ![N, A]⟩ [1] [0] [0] 1)
    (x : (⟨2, ![C, A]⟩ : Shape).Idx → EReal) (idx : IVec ⟨2, ![N, 1]⟩ w)
    (upd : (⟨2, ![N, A]⟩ : Shape).Idx → EReal) (c : Fin C) (a : Fin A) :
    Ideal.hostScatterAdd (rows2 wf) x idx upd (ix2 c a) =
      x (ix2 c a) + ∑ n : Fin N, if (idx (ix2 n (0 : Fin 1))).toInt = (c.val : ℤ) then upd (ix2 n a) else 0 := by
  unfold Ideal.hostScatterAdd
  congr 1
  rw [Finset.sum_filter, sum_idx2]
  refine Finset.sum_congr rfl fun n _ => ?_
  simp only [rows2_resultIdx?_ix2]
  by_cases hc : (idx (ix2 n (0 : Fin 1))).toInt = (c.val : ℤ)
  · simp [hc]
  · simp [hc]

end Rows2

/-- ROW SCATTER-ADD AT AN ENTRY, operand [C, A]: for any dimension-number record with update window axes
    [1], inserted window axes [0], scatter-dims-to-operand-dims [0] and index vector axis 1, the result at
    (c, a) is the operand there plus the sum of upd[n, a] over the rows n whose index word idx[n, 0], read
    signed, is c. Rows whose index word is negative or at least C contribute nothing. -/
theorem scatterRows2_apply {C N A w : ℕ} (d : ScatterDims ⟨2, ![C, A]⟩ ⟨2, ![N, 1]⟩ ⟨2, ![N, A]⟩)
    (hu : d.updateWindowDims = [1]) (hi : d.insertedWindowDims = [0]) (hs : d.scatterDimsToOperandDims = [0])
    (hv : d.indexVectorDim = 1)
    (x : (⟨2, ![C, A]⟩ : Shape).Idx → EReal) (idx : IVec ⟨2, ![N, 1]⟩ w)
    (upd : (⟨2, ![N, A]⟩ : Shape).Idx → EReal) (c : Fin C) (a : Fin A) :
    Ideal.hostScatterAdd d x idx upd (ix2 c a) =
      x (ix2 c a) + ∑ n : Fin N, if (idx (ix2 n (0 : Fin 1))).toInt = (c.val : ℤ) then upd (ix2 n a) else 0 := by
  obtain ⟨uw, iw, sd, iv, wf⟩ := d
  dsimp only at hu hi hs hv
  subst hu hi hs hv
  exact rows2_apply wf x idx upd c a

/-! ## Operand [C], scatter indices [N, 1], updates [N] -/

section Rows1
variable {C N w : ℕ}

/-- A rank-1 index set is its one coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- The vector scatter's dimension numbers as a record of literal lists: no update window axes, inserted
    window axes [0], scatter-dims-to-operand-dims [0], index vector axis 1. -/
abbrev rows1 (wf : ScatterDims.WF ⟨1, ![C]⟩ ⟨2, ![N, 1]⟩ ⟨1, ![N]⟩ [] [0] [0] 1) :
    ScatterDims ⟨1, ![C]⟩ ⟨2, ![N, 1]⟩ ⟨1, ![N]⟩ := ⟨[], [0], [0], 1, wf⟩

/-- On the operand's one axis the window of update n starts at the index word idx[n, 0], read signed. -/
theorem rows1_start0 (wf : ScatterDims.WF ⟨1, ![C]⟩ ⟨2, ![N, 1]⟩ ⟨1, ![N]⟩ [] [0] [0] 1)
    (j : (⟨1, ![N]⟩ : Shape).Idx) (idx : IVec ⟨2, ![N, 1]⟩ w) :
    (rows1 wf).start j idx 0 = (idx (ix2 (j 0) (0 : Fin 1))).toInt := by
  unfold ScatterDims.start
  rw [dif_pos (List.mem_singleton.mpr rfl)]
  congr 2
  funext b
  refine Fin.ext ?_
  match b with
  | ⟨0, _⟩ => rfl
  | ⟨1, _⟩ => rfl

/-- The operand's one axis is inserted: the window coordinate there is 0. -/
theorem rows1_window0 (wf : ScatterDims.WF ⟨1, ![C]⟩ ⟨2, ![N, 1]⟩ ⟨1, ![N]⟩ [] [0] [0] 1)
    (j : (⟨1, ![N]⟩ : Shape).Idx) :
    (rows1 wf).window j 0 = 0 := by
  unfold ScatterDims.window
  have h : ¬ ((0 : Fin 1) ∈ (rows1 wf).sKept) := by
    show ¬ ((0 : Fin 1) ∈ ([] : List (Fin 1)))
    decide
  rw [dif_neg h]

/-- WHERE AN UPDATE LANDS: update n lands at operand element c exactly when its index word reads c. -/
theorem rows1_resultIdx?_eq_some (wf : ScatterDims.WF ⟨1, ![C]⟩ ⟨2, ![N, 1]⟩ ⟨1, ![N]⟩ [] [0] [0] 1)
    (j : (⟨1, ![N]⟩ : Shape).Idx) (idx : IVec ⟨2, ![N, 1]⟩ w) (c : Fin C) :
    (rows1 wf).resultIdx? j idx = some (ix1 c) ↔ (idx (ix2 (j 0) (0 : Fin 1))).toInt = (c.val : ℤ) := by
  have e0 : (rows1 wf).start j idx 0 + ((rows1 wf).window j 0 : ℕ) = (idx (ix2 (j 0) (0 : Fin 1))).toInt := by
    rw [rows1_start0, rows1_window0]; simp
  unfold ScatterDims.resultIdx?
  split_ifs with h
  · rw [Option.some.injEq]
    constructor
    · intro hf
      have h0 : ((rows1 wf).start j idx 0 + ((rows1 wf).window j 0 : ℕ)).toNat = c.val :=
        congrArg Fin.val (congrFun hf 0)
      have hp := (h 0).1
      rw [e0] at h0 hp
      omega
    · intro hc
      funext b
      refine Fin.ext ?_
      match b with
      | ⟨0, _⟩ =>
        show ((rows1 wf).start j idx 0 + ((rows1 wf).window j 0 : ℕ)).toNat = c.val
        rw [e0, hc]; simp
  · constructor
    · intro hf; cases hf
    · intro hc
      refine absurd ?_ h
      intro b
      match b with
      | ⟨0, _⟩ =>
        show 0 ≤ (rows1 wf).start j idx 0 + ((rows1 wf).window j 0 : ℕ) ∧
          (rows1 wf).start j idx 0 + ((rows1 wf).window j 0 : ℕ) < ((C : ℕ) : ℤ)
        rw [e0, hc]
        have := c.isLt
        omega

/-- The same, for an update index given by its coordinate. -/
theorem rows1_resultIdx?_ix1 (wf : ScatterDims.WF ⟨1, ![C]⟩ ⟨2, ![N, 1]⟩ ⟨1, ![N]⟩ [] [0] [0] 1)
    (n : Fin N) (idx : IVec ⟨2, ![N, 1]⟩ w) (c : Fin C) :
    (rows1 wf).resultIdx? (ix1 n) idx = some (ix1 c) ↔ (idx (ix2 n (0 : Fin 1))).toInt = (c.val : ℤ) :=
  rows1_resultIdx?_eq_some wf (ix1 n) idx c

/-- The vector scatter-add of the literal record, read at c. -/
theorem rows1_apply (wf : ScatterDims.WF ⟨1, ![C]⟩ ⟨2, ![N, 1]⟩ ⟨1, ![N]⟩ [] [0] [0] 1)
    (x : (⟨1, ![C]⟩ : Shape).Idx → EReal) (idx : IVec ⟨2, ![N, 1]⟩ w)
    (upd : (⟨1, ![N]⟩ : Shape).Idx → EReal) (c : Fin C) :
    Ideal.hostScatterAdd (rows1 wf) x idx upd (ix1 c) =
      x (ix1 c) + ∑ n : Fin N, if (idx (ix2 n (0 : Fin 1))).toInt = (c.val : ℤ) then upd (ix1 n) else 0 := by
  unfold Ideal.hostScatterAdd
  congr 1
  rw [Finset.sum_filter, sum_idx1]
  refine Finset.sum_congr rfl fun n _ => ?_
  simp only [rows1_resultIdx?_ix1]

end Rows1

/-- ROW SCATTER-ADD AT AN ENTRY, operand [C]: for any dimension-number record with no update window axes,
    inserted window axes [0], scatter-dims-to-operand-dims [0] and index vector axis 1, the result at c is the
    operand there plus the sum of upd[n] over the positions n whose index word idx[n, 0], read signed, is c.
    Positions whose index word is negative or at least C contribute nothing. -/
theorem scatterRows1_apply {C N w : ℕ} (d : ScatterDims ⟨1, ![C]⟩ ⟨2, ![N, 1]⟩ ⟨1, ![N]⟩)
    (hu : d.updateWindowDims = []) (hi : d.insertedWindowDims = [0]) (hs : d.scatterDimsToOperandDims = [0])
    (hv : d.indexVectorDim = 1)
    (x : (⟨1, ![C]⟩ : Shape).Idx → EReal) (idx : IVec ⟨2, ![N, 1]⟩ w)
    (upd : (⟨1, ![N]⟩ : Shape).Idx → EReal) (c : Fin C) :
    Ideal.hostScatterAdd d x idx upd (ix1 c) =
      x (ix1 c) + ∑ n : Fin N, if (idx (ix2 n (0 : Fin 1))).toInt = (c.val : ℤ) then upd (ix1 n) else 0 := by
  obtain ⟨uw, iw, sd, iv, wf⟩ := d
  dsimp only at hu hi hs hv
  subst hu hi hs hv
  exact rows1_apply wf x idx upd c

end Idealize.ShloMosaic.ScatterRows

end
-- ==== Proof.LibRowGather.lean ====
/-
  A `stablehlo.gather` of WHOLE ROWS of a rank-2 operand, read at an index.

  What `x[idx]` of a table `x : [N, C]` at an integer vector `idx : [R]` lowers to: start indices `[R, 1]`, offset_dims
  `[1]`, collapsed_slice_dims `[0]`, start_index_map `[0]`, index_vector_dim `1`, slice sizes `[1, C]`. Result element
  `(r, j)` is the operand at row `idx[r, 0]` — read as a signed integer and clamped into `[0, N − 1]`, as the host gather
  clamps every start index — and column `j`.
-/
import Idealize.ShloMosaic.PureOps.Ideal
import Idealize.ShloMosaic.Lib.ValueIdx

noncomputable section

namespace Cert.LibRowGather

open Idealize.ShloMosaic Idealize.ShloMosaic.ValueIdx

variable {α : Type}

/-- Those dimension numbers for an operand `[N, C]`, start indices `[R, 1]` and result `[R, C]`; their conditions `wf`
    are decided on a program's literal shapes. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, j)`: the operand at the start index `idx[r, 0]`, read signed and clamped into
    `[0, N − 1]`, and at column `j`. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (y : (⟨2, ![R, C]⟩ : Shape).Idx) :
    Host.gather (rowDims N C R wf) x idx y
      = x (ix2 (⟨min (idx (ix2 (⟨(y 0).val, idx2_lt0 y⟩ : Fin R) (0 : Fin 1))).toInt.toNat (N - 1), by omega⟩ : Fin N)
            (⟨(y 1).val, idx2_lt1 y⟩ : Fin C)) := by
  unfold Host.gather
  congr 1
  funext a
  refine Fin.ext ?_
  show (rowDims N C R wf).start y idx a + (rowDims N C R wf).batchCoord y a + (rowDims N C R wf).offCoord y a = _
  rw [GatherDims.batchCoord_eq_zero _ _ _ List.not_mem_nil]
  simp only [Nat.add_zero]
  match a with
  | ⟨0, _⟩ =>
    -- operand axis 0 (rows): in the start index map and collapsed, so the coordinate is the clamped start alone
    rw [GatherDims.offCoord_eq_zero _ _ _ (fun h => ((GatherDims.mem_sKept _ _).mp h).1 (List.mem_singleton.mpr rfl))]
    simp only [Nat.add_zero]
    unfold GatherDims.start
    rw [dif_pos (show (⟨0, by omega⟩ : Fin 2) ∈ (rowDims N C R wf).startIndexMap from List.mem_singleton.mpr rfl)]
    have hsi : (rowDims N C R wf).siIdx y ⟨List.idxOf (⟨0, by omega⟩ : Fin 2) (rowDims N C R wf).startIndexMap,
        List.idxOf_lt_length_iff.2 (List.mem_singleton.mpr rfl)⟩
          = ix2 (⟨(y 0).val, idx2_lt0 y⟩ : Fin R) (0 : Fin 1) := by
      funext b; refine Fin.ext ?_
      match b with
      | ⟨0, _⟩ => rfl
      | ⟨1, _⟩ => rfl
    rw [hsi]
    rfl
  | ⟨1, h1⟩ =>
    -- operand axis 1 (columns): not in the start index map, so the start is 0; it is the one kept axis, read by the
    -- result's offset axis 1
    have hne : (⟨1, h1⟩ : Fin 2) ≠ 0 := fun h => Nat.one_ne_zero (congrArg Fin.val h)
    have hst : (rowDims N C R wf).start y idx ⟨1, h1⟩ = 0 := by
      unfold GatherDims.start
      rw [dif_neg (fun h => hne (List.mem_singleton.mp h))]
    have hk : (⟨1, h1⟩ : Fin 2) ∈ (rowDims N C R wf).sKept :=
      (GatherDims.mem_sKept _ _).mpr ⟨fun h => hne (List.mem_singleton.mp h), List.not_mem_nil⟩
    rw [hst, Nat.zero_add]
    unfold GatherDims.offCoord
    rw [dif_pos hk]
    rfl

end Cert.LibRowGather

end
-- ==== Proof.Bridge.lean ====
/-
  The two programs compute one function. With every source index a node number below 50000: the gathered row of a real
  edge e is row (source e) of x (one term of the one-hot sum survives, and it lies above the zero padding), the gathered
  row of a padding edge is never added into a node below 50000 (its target is the dummy 50000), so the kernel's entry
  (n, d), n < 50000, is the sum of x[source e, d] over the real edges e with target e = n. The reference takes the same
  rows (nothing wraps, every row passes the range test) and adds them into a zero table at the same targets, an edge
  whose target is out of range being dropped on both sides.
-/
import proofs.«417799_j32796370273059_1_alg».proof.Proof.Spec
import proofs.«417799_j32796370273059_1_alg».proof.Proof.HostSpec
import proofs.«417799_j32796370273059_1_alg».proof.Proof.RefSpec
import proofs.«417799_j32796370273059_1_alg».proof.Proof.LibTake
import proofs.«417799_j32796370273059_1_alg».proof.Proof.LibScatterRows
import proofs.«417799_j32796370273059_1_alg».proof.Proof.LibRowGather
import proofs.«417799_j32796370273059_1_alg».proof.Proof.Gen.KernelIdeal
import proofs.«417799_j32796370273059_1_alg».proof.Proof.Gen.ReferenceIdeal
import Idealize.ShloMosaic.Lib.Pipeline.Value
import Idealize.ShloMosaic.Lib.ValueIdx
import Idealize.ShloMosaic.Lib.KernelVsHost
import Idealize.ShloMosaic.Lib.StableHlo.Predicate
import Idealize.ShloMosaic.PureOps.Ideal.Laws

noncomputable section

open scoped BigOperators

namespace Cert.Bridge

open Idealize.ShloMosaic Idealize.ShloMosaic.ValueIdx

/-! ## Words and sums -/

/-- For a natural number n below 2³¹, a 32-bit word is the word of n exactly when it reads n as a signed integer. -/
theorem ofNat_eq_iff_toInt {n : ℕ} (hn : n < 2 ^ 31) (w : BitVec 32) :
    BitVec.ofNat 32 n = w ↔ w.toInt = (n : ℤ) := by
  constructor
  · intro h
    subst h
    exact StableHlo.Predicate.toInt_ofNat_small n hn
  · intro h
    apply BitVec.eq_of_toNat_eq
    rw [BitVec.toNat_ofNat, Nat.mod_eq_of_lt (by omega)]
    have hc := BitVec.toInt_eq_toNat_cond w
    have hlt := w.isLt
    rw [h] at hc
    split at hc <;> omega

/-- A sum over T = m + k positions is the sum over the first m plus the sum over the last k. -/
theorem sum_split {M : Type*} [AddCommMonoid M] {m k T : ℕ} (hT : m + k = T) (f : Fin T → M) :
    ∑ e : Fin T, f e
      = ∑ e : Fin m, f ⟨e.val, by omega⟩ + ∑ e : Fin k, f ⟨m + e.val, by omega⟩ := by
  subst hT
  rw [Fin.sum_univ_add]
  rfl

/-! ## The host operations read at an index -/

/-- The padded target row at a real edge is that edge's target index. -/
theorem colsRow_real (a : IVec Cert.KernelIdeal.S2x500000 32) (e : Fin 500000) :
    Cert.KernelIdeal.Hand.colsRow a (ix2 (0 : Fin 1) (⟨e.val, by omega⟩ : Fin 503808)) = a (ix2 (1 : Fin 2) e) := by
  unfold Cert.KernelIdeal.Hand.colsRow
  refine (shapeCast_apply _ _ _ (ix1 (⟨e.val, by omega⟩ : Fin 503808)) ?_).trans ?_
  · rw [Shape.rowMajor_val_one, Shape.rowMajor_val_two]
    show e.val = 0 * 503808 + e.val
    omega
  refine (concatenate_pair_apply_left (t := Cert.KernelIdeal.S503808) (s₁ := Cert.KernelIdeal.S500000) (s₂ := Cert.KernelIdeal.S3808) (0 : Fin 1) _ _ _ _ rfl (ix1 e) (fun b => ?_)).trans ?_
  · have hb : b = 0 := Subsingleton.elim _ _
    subst hb; rfl
  refine (shapeCast_apply _ _ _ (ix2 (0 : Fin 1) e) ?_).trans ?_
  · rw [Shape.rowMajor_val_one, Shape.rowMajor_val_two]
    show 0 * 500000 + e.val = e.val
    omega
  exact extractStridedSlice_apply _ _ _ _ (ix2 (1 : Fin 2) e) (fun b => by
    match b with
    | ⟨0, _⟩ => rfl
    | ⟨1, _⟩ => show e.val = 0 + e.val; omega)

/-- The padded target row at a padding edge is the dummy node number 50000. -/
theorem colsRow_pad (a : IVec Cert.KernelIdeal.S2x500000 32) (e : Fin 3808) :
    Cert.KernelIdeal.Hand.colsRow a (ix2 (0 : Fin 1) (⟨500000 + e.val, by omega⟩ : Fin 503808)) = 50000#32 := by
  unfold Cert.KernelIdeal.Hand.colsRow
  refine (shapeCast_apply _ _ _ (ix1 (⟨500000 + e.val, by omega⟩ : Fin 503808)) ?_).trans ?_
  · rw [Shape.rowMajor_val_one, Shape.rowMajor_val_two]
    show 500000 + e.val = 0 * 503808 + (500000 + e.val)
    omega
  refine (concatenate_pair_apply_right (t := Cert.KernelIdeal.S503808) (s₁ := Cert.KernelIdeal.S500000) (s₂ := Cert.KernelIdeal.S3808) (0 : Fin 1) _ _ _ _ rfl rfl (ix1 e)
    (fun b hb => absurd (Subsingleton.elim _ _) hb) (by show e.val + 500000 = 500000 + e.val; omega)).trans ?_
  rfl

/-- The padded source column at a real edge is that edge's source index. -/
theorem rowsCol_real (a : IVec Cert.KernelIdeal.S2x500000 32) (e : Fin 500000) :
    Cert.KernelIdeal.Hand.rowsCol a (ix2 (⟨e.val, by omega⟩ : Fin 503808) (0 : Fin 1)) = a (ix2 (0 : Fin 2) e) := by
  unfold Cert.KernelIdeal.Hand.rowsCol
  refine (shapeCast_apply _ _ _ (ix1 (⟨e.val, by omega⟩ : Fin 503808)) ?_).trans ?_
  · rw [Shape.rowMajor_val_one, Shape.rowMajor_val_two]
    show e.val = e.val * 1 + 0
    omega
  refine (concatenate_pair_apply_left (t := Cert.KernelIdeal.S503808) (s₁ := Cert.KernelIdeal.S500000) (s₂ := Cert.KernelIdeal.S3808) (0 : Fin 1) _ _ _ _ rfl (ix1 e) (fun b => ?_)).trans ?_
  · have hb : b = 0 := Subsingleton.elim _ _
    subst hb; rfl
  refine (shapeCast_apply _ _ _ (ix2 (0 : Fin 1) e) ?_).trans ?_
  · rw [Shape.rowMajor_val_one, Shape.rowMajor_val_two]
    show 0 * 500000 + e.val = e.val
    omega
  exact extractStridedSlice_apply _ _ _ _ (ix2 (0 : Fin 2) e) (fun b => by
    match b with
    | ⟨0, _⟩ => rfl
    | ⟨1, _⟩ => show e.val = 0 + e.val; omega)

/-- The padded feature table at a row below 50000 is the feature table there. -/
theorem xpad_inside (x : FVec Ideal Cert.KernelIdeal.S50000x128 .f32) (j : Fin 50000) (d : Fin 128) :
    Cert.KernelIdeal.Hand.xpad (F := Ideal) x (ix2 (⟨j.val, by omega⟩ : Fin 50176) d) = x (ix2 j d) := by
  unfold Cert.KernelIdeal.Hand.xpad
  exact pad_apply_of_inside _ _ _ x _ _ _ _ (ix2 j d) (fun b => by
    match b with
    | ⟨0, _⟩ => show j.val = 0 + j.val * (0 + 1); omega
    | ⟨1, _⟩ => show d.val = 0 + d.val * (0 + 1); omega)

/-- The closing cut at (n, d) reads the padded result at (n, d). -/
theorem outRows_apply (y : FVec Ideal Cert.KernelIdeal.S50176x128 .f32) (n : Fin 50000) (d : Fin 128) :
    Cert.KernelIdeal.Hand.outRows (F := Ideal) y (ix2 n d) = y (ix2 (⟨n.val, by omega⟩ : Fin 50176) d) := by
  unfold Cert.KernelIdeal.Hand.outRows
  exact extractStridedSlice_apply _ _ _ _ (ix2 (⟨n.val, by omega⟩ : Fin 50176) d) (fun b => by
    match b with
    | ⟨0, _⟩ => show n.val = 0 + n.val; omega
    | ⟨1, _⟩ => show d.val = 0 + d.val; omega)

/-! ## The kernel's entry -/

/-- The gathered row of a real edge is the row of x at the edge's source index: of the 50176 node numbers exactly one
    is the source index, and it lies below 50000, above the zero padding. -/
theorem G0_real (x : FVec Ideal Cert.KernelIdeal.S50000x128 .f32) (a : IVec Cert.KernelIdeal.S2x500000 32)
    (hrow : ∀ e : Fin 500000, (a (ix2 (0 : Fin 2) e)).toNat < 50000) (e : Fin 500000) (d : Fin 128) :
    Cert.Spec.G0 (Cert.KernelIdeal.Hand.rowsCol a) (Cert.KernelIdeal.Hand.xpad (F := Ideal) x)
        (ix2 (⟨e.val, by omega⟩ : Fin 503808) d)
      = x (ix2 (⟨(a (ix2 (0 : Fin 2) e)).toNat, hrow e⟩ : Fin 50000) d) := by
  show (∑ j : Fin 50176,
      if Cert.KernelIdeal.Hand.rowsCol a (ix2 (⟨e.val, by omega⟩ : Fin 503808) (0 : Fin 1)) = BitVec.ofNat 32 j.val
      then Cert.KernelIdeal.Hand.xpad (F := Ideal) x (ix2 j d) else 0) = _
  rw [rowsCol_real]
  have hlt := hrow e
  rw [Finset.sum_eq_single (⟨(a (ix2 (0 : Fin 2) e)).toNat, by omega⟩ : Fin 50176)]
  · rw [if_pos (BitVec.eq_of_toNat_eq (by
      rw [BitVec.toNat_ofNat]; exact (Nat.mod_eq_of_lt (by omega)).symm))]
    exact xpad_inside x ⟨_, hlt⟩ d
  · intro j _ hj
    rw [if_neg]
    intro h
    apply hj
    apply Fin.ext
    show j.val = (a (ix2 (0 : Fin 2) e)).toNat
    have hj' := j.isLt
    rw [h, BitVec.toNat_ofNat, Nat.mod_eq_of_lt (by omega)]
  · intro h
    exact absurd (Finset.mem_univ _) h

/-- THE KERNEL'S ENTRY (n, d), n < 50000: the sum of x[source e, d] over the real edges e whose target is n. A padding
    edge's target is 50000, which is no such n. -/
theorem kernel_entry (x : FVec Ideal Cert.KernelIdeal.S50000x128 .f32) (a : IVec Cert.KernelIdeal.S2x500000 32)
    (hrow : ∀ e : Fin 500000, (a (ix2 (0 : Fin 2) e)).toNat < 50000) (n : Fin 50000) (d : Fin 128) :
    Cert.KernelIdeal.Hand.outRows (F := Ideal)
        (Cert.Spec.G1 (Cert.KernelIdeal.Hand.colsRow a)
          (Cert.Spec.G0 (Cert.KernelIdeal.Hand.rowsCol a) (Cert.KernelIdeal.Hand.xpad (F := Ideal) x))) (ix2 n d)
      = ∑ e : Fin 500000, if BitVec.ofNat 32 n.val = a (ix2 (1 : Fin 2) e)
          then x (ix2 (⟨(a (ix2 (0 : Fin 2) e)).toNat, hrow e⟩ : Fin 50000) d) else 0 := by
  rw [outRows_apply]
  show (∑ e : Fin 503808,
      if BitVec.ofNat 32 n.val = Cert.KernelIdeal.Hand.colsRow a (ix2 (0 : Fin 1) e)
      then Cert.Spec.G0 (Cert.KernelIdeal.Hand.rowsCol a) (Cert.KernelIdeal.Hand.xpad (F := Ideal) x) (ix2 e d) else 0) = _
  have hn := n.isLt
  have h1 : ∀ e : Fin 500000,
      (if BitVec.ofNat 32 n.val = Cert.KernelIdeal.Hand.colsRow a (ix2 (0 : Fin 1) (⟨e.val, by omega⟩ : Fin 503808))
        then Cert.Spec.G0 (Cert.KernelIdeal.Hand.rowsCol a) (Cert.KernelIdeal.Hand.xpad (F := Ideal) x)
          (ix2 (⟨e.val, by omega⟩ : Fin 503808) d) else 0)
      = (if BitVec.ofNat 32 n.val = a (ix2 (1 : Fin 2) e)
          then x (ix2 (⟨(a (ix2 (0 : Fin 2) e)).toNat, hrow e⟩ : Fin 50000) d) else 0) := by
    intro e
    rw [colsRow_real, G0_real x a hrow]
  have h2 : ∀ e : Fin 3808,
      (if BitVec.ofNat 32 n.val = Cert.KernelIdeal.Hand.colsRow a (ix2 (0 : Fin 1) (⟨500000 + e.val, by omega⟩ : Fin 503808))
        then Cert.Spec.G0 (Cert.KernelIdeal.Hand.rowsCol a) (Cert.KernelIdeal.Hand.xpad (F := Ideal) x)
          (ix2 (⟨500000 + e.val, by omega⟩ : Fin 503808) d) else 0) = 0 := by
    intro e
    rw [colsRow_pad, if_neg]
    intro h
    have ht := congrArg BitVec.toNat h
    rw [BitVec.toNat_ofNat, BitVec.toNat_ofNat, Nat.mod_eq_of_lt (by omega), Nat.mod_eq_of_lt (by norm_num)] at ht
    omega
  refine (sum_split (m := 500000) (k := 3808) (by norm_num) _).trans ?_
  rw [Finset.sum_congr rfl (fun e _ => h1 e), Finset.sum_eq_zero (fun e _ => h2 e), add_zero]

/-! ## The reference's entry -/

/-- The flattened source indices at e. -/
theorem rowIdx_apply (a : IVec Cert.ReferenceIdeal.S2x500000 32) (e : Fin 500000) :
    Cert.ReferenceIdeal.Hand.rowIdx a (ix1 e) = a (ix2 (0 : Fin 2) e) := by
  unfold Cert.ReferenceIdeal.Hand.rowIdx
  refine (shapeCast_apply _ _ _ (ix2 (0 : Fin 1) e) ?_).trans ?_
  · rw [Shape.rowMajor_val_one, Shape.rowMajor_val_two]
    show 0 * 500000 + e.val = e.val
    omega
  exact extractStridedSlice_apply _ _ _ _ (ix2 (0 : Fin 2) e) (fun b => by
    match b with
    | ⟨0, _⟩ => rfl
    | ⟨1, _⟩ => show e.val = 0 + e.val; omega)

/-- The flattened target indices at e. -/
theorem colIdx_apply (a : IVec Cert.ReferenceIdeal.S2x500000 32) (e : Fin 500000) :
    Cert.ReferenceIdeal.Hand.colIdx a (ix1 e) = a (ix2 (1 : Fin 2) e) := by
  unfold Cert.ReferenceIdeal.Hand.colIdx
  refine (shapeCast_apply _ _ _ (ix2 (0 : Fin 1) e) ?_).trans ?_
  · rw [Shape.rowMajor_val_one, Shape.rowMajor_val_two]
    show 0 * 500000 + e.val = e.val
    omega
  exact extractStridedSlice_apply _ _ _ _ (ix2 (1 : Fin 2) e) (fun b => by
    match b with
    | ⟨0, _⟩ => rfl
    | ⟨1, _⟩ => show e.val = 0 + e.val; omega)

/-- An index vector laid out as a column reads, at (e, 0), the vector at e. -/
theorem col_apply (v : IVec Cert.ReferenceIdeal.S500000 32) (e : Fin 500000) :
    broadcastInDim Cert.ReferenceIdeal.S500000x1 ![0] Cert.ReferenceIdeal.Facts₀.bcast_S500000_S500000x1_0 v
        (ix2 e (0 : Fin 1)) = v (ix1 e) :=
  broadcastInDim_apply _ _ v _ (ix1 e) (fun b => by
    have hb : b = 0 := Subsingleton.elim _ _
    subst hb
    show e.val = if (500000 : ℕ) = 1 then 0 else e.val
    rw [if_neg (by norm_num)])

/-- The taken rows at (e, d): with every source index a node number below 50000, row (source e) of x at column d. -/
theorem taken_apply (x : FVec Ideal Cert.ReferenceIdeal.S50000x128 .f32) (a : IVec Cert.ReferenceIdeal.S2x500000 32)
    (hrow : ∀ e : Fin 500000, (a (ix2 (0 : Fin 2) e)).toNat < 50000) (e : Fin 500000) (d : Fin 128) :
    Cert.ReferenceIdeal.Hand.taken (F := Ideal) x (Cert.ReferenceIdeal.Hand.rowIdx a) (ix2 e d)
      = x (ix2 (⟨(a (ix2 (0 : Fin 2) e)).toNat, hrow e⟩ : Fin 50000) d) := by
  have hidx : ∀ r : Cert.ReferenceIdeal.S500000.Idx, (Cert.ReferenceIdeal.Hand.rowIdx a r).toNat < 50000 := by
    intro r
    obtain ⟨e', rfl⟩ : ∃ e' : Fin 500000, r = ix1 e' := ⟨r 0, eq_ix1 r⟩
    rw [rowIdx_apply]
    exact hrow _
  unfold Cert.ReferenceIdeal.Hand.taken Cert.ReferenceIdeal.Hand.wrapped
  rw [Cert.LibTake.take_rows_eq (R := 500000) (N := 50000) (C := 128) (by norm_num)
    (Cert.ReferenceIdeal.Hand.rowIdx a) hidx]
  show Host.gather (Cert.LibRowGather.rowDims 50000 128 500000
      Cert.ReferenceIdeal.Facts₀.gather_S50000x128_S500000x1_S500000x128_1_0_n_n_0_1_1128_wf) x _ (ix2 e d) = _
  rw [Cert.LibRowGather.gather_rows_apply (by norm_num)]
  have hlt := hrow e
  have hw : (broadcastInDim Cert.ReferenceIdeal.S500000x1 ![0] Cert.ReferenceIdeal.Facts₀.bcast_S500000_S500000x1_0
      (Cert.ReferenceIdeal.Hand.rowIdx a) (ix2 (⟨((ix2 e d : Cert.ReferenceIdeal.S500000x128.Idx) 0).val, idx2_lt0 _⟩ : Fin 500000) (0 : Fin 1)))
      = a (ix2 (0 : Fin 2) e) := by
    rw [col_apply, rowIdx_apply]
  congr 1
  refine Shape.idx_ext₂ ?_ rfl
  show min (broadcastInDim Cert.ReferenceIdeal.S500000x1 ![0] Cert.ReferenceIdeal.Facts₀.bcast_S500000_S500000x1_0
      (Cert.ReferenceIdeal.Hand.rowIdx a) (ix2 (⟨((ix2 e d : Cert.ReferenceIdeal.S500000x128.Idx) 0).val, idx2_lt0 _⟩ : Fin 500000) (0 : Fin 1))).toInt.toNat (50000 - 1)
    = (a (ix2 (0 : Fin 2) e)).toNat
  rw [hw, StableHlo.Predicate.toInt_eq_toNat_of_lt (by omega), Int.toNat_natCast]
  omega

/-- The accumulating row scatter at the exact reals, read at an entry: the operand there plus the updates of the rows
    whose index word reads that row. -/
theorem scatterAdd_apply {C N A w : ℕ} (d : ScatterDims ⟨2, ![C, A]⟩ ⟨2, ![N, 1]⟩ ⟨2, ![N, A]⟩)
    (hu : d.updateWindowDims = [1]) (hi : d.insertedWindowDims = [0]) (hs : d.scatterDimsToOperandDims = [0])
    (hv : d.indexVectorDim = 1)
    (z : FVec Ideal ⟨2, ![C, A]⟩ .f32) (idx : IVec ⟨2, ![N, 1]⟩ w) (upd : FVec Ideal ⟨2, ![N, A]⟩ .f32)
    (c : Fin C) (b : Fin A) :
    Host.scatterAdd d z idx upd (ix2 c b)
      = z (ix2 c b) + ∑ n : Fin N, if (idx (ix2 n (0 : Fin 1))).toInt = (c.val : ℤ) then upd (ix2 n b) else 0 :=
  Idealize.ShloMosaic.ScatterRows.scatterRows2_apply d hu hi hs hv z idx upd c b

/-- The zero table read at an index is 0. -/
theorem zeros_apply (n : Fin 50000) (d : Fin 128) :
    broadcastInDim Cert.ReferenceIdeal.S50000x128 ![] Cert.ReferenceIdeal.Facts₀.bcast_S_S50000x128
      (constant (F := Ideal) Cert.ReferenceIdeal.S_ .f32 0x00000000#32) (ix2 n d) = 0 := by
  refine (broadcastInDim_apply _ _ _ _ ix0 (fun b => b.elim0)).trans ?_
  rw [constant_apply]
  exact Ideal.ofBits_zero_f32

/-- THE REFERENCE'S ENTRY (n, d): the sum of x[source e, d] over the edges e whose target index reads n. -/
theorem ref_entry (x : FVec Ideal Cert.ReferenceIdeal.S50000x128 .f32) (a : IVec Cert.ReferenceIdeal.S2x500000 32)
    (hrow : ∀ e : Fin 500000, (a (ix2 (0 : Fin 2) e)).toNat < 50000) (n : Fin 50000) (d : Fin 128) :
    Cert.ReferenceIdeal.Hand.refVal (F := Ideal) x a (ix2 n d)
      = ∑ e : Fin 500000, if (a (ix2 (1 : Fin 2) e)).toInt = (n.val : ℤ)
          then x (ix2 (⟨(a (ix2 (0 : Fin 2) e)).toNat, hrow e⟩ : Fin 50000) d) else 0 := by
  unfold Cert.ReferenceIdeal.Hand.refVal
  rw [scatterAdd_apply _ rfl rfl rfl rfl, zeros_apply, zero_add]
  refine Finset.sum_congr rfl (fun e _ => ?_)
  rw [col_apply, colIdx_apply, taken_apply x a hrow]

theorem bridge (x : FVec Ideal Cert.KernelIdeal.S50000x128 .f32) (a : IVec Cert.KernelIdeal.S2x500000 32)
    (hrow : ∀ e : Fin 500000, (a (ix2 (0 : Fin 2) e)).toNat < 50000) :
    Cert.KernelIdeal.Hand.outRows (F := Ideal)
        (Cert.Spec.G1 (Cert.KernelIdeal.Hand.colsRow a) (Cert.Spec.G0 (Cert.KernelIdeal.Hand.rowsCol a) (Cert.KernelIdeal.Hand.xpad (F := Ideal) x)))
      = Cert.ReferenceIdeal.Hand.refVal (F := Ideal) x a := by
  funext i
  obtain ⟨n, d, rfl⟩ : ∃ (n : Fin 50000) (d : Fin 128), i = ix2 n d := ⟨i 0, i 1, eq_ix2 i⟩
  rw [kernel_entry x a hrow, ref_entry x a hrow]
  have hn := n.isLt
  exact Finset.sum_congr rfl (fun e _ => if_congr (ofNat_eq_iff_toInt (by omega) _) rfl rfl)

end Cert.Bridge

end
-- ==== Proof.KernelIdeal.PreRow.lean ====
/-
  What the precondition says about the source indices: every entry of row 0 of the index array is, as a natural
  number, below 50000 (it is at least 0 and below 50000 as a signed integer).
-/
import proofs.«417799_j32796370273059_1_alg».proof.Defs
import proofs.«417799_j32796370273059_1_alg».proof.Proof.Gen.Pre_finite_inputs
import proofs.«417799_j32796370273059_1_alg».proof.Proof.Gen.KernelIdeal
import Idealize.ShloMosaic.Lib.StableHlo.Predicate
import Idealize.ShloMosaic.Lib.ReduceAll
import Idealize.ShloMosaic.Lib.Pipeline.Value
import Idealize.ShloMosaic.Lib.ValueIdx

noncomputable section

namespace Cert.KernelIdeal.Hand

open Cert.KernelIdeal
open Idealize.ShloMosaic Idealize.ShloMosaic.TcCoe Idealize.ShloMosaic.ValueIdx
open Idealize.SL Idealize.SL.Sem

variable (m : (ℓ : Loc nD τ sig) → Buf (Elt Ideal) ℓ)

/-- A word that is at least 0 and below 50000 as a signed integer is below 50000 as a natural number. -/
theorem toNat_lt_of_range {w : BitVec 32} (h0 : IntOp.cmpi .sge w 0#32 = 1#1) (h1 : IntOp.cmpi .slt w 50000#32 = 1#1) :
    w.toNat < 50000 := by
  rw [IntOp.cmpi_sge] at h0
  rw [IntOp.cmpi_slt] at h1
  have e0 : (0#32 : BitVec 32).toInt = 0 := by decide
  have e1 : (50000#32 : BitVec 32).toInt = 50000 := by decide
  rw [e0] at h0; rw [e1] at h1
  rw [BitVec.toInt_eq_toNat_cond] at h0 h1
  have := w.isLt
  split_ifs at h0 h1 <;> omega

/-- From the precondition: every source index is a node number below 50000. -/
theorem row_lt_of_pre (hpre : Cert.Pre_KernelIdeal m) (c : Dev nD) (e : Fin 500000) :
    ((m ((c.tc : Thread nD τ).loc main_arg1) : IVec S2x500000 32) (ix2 (0 : Fin 2) e)).toNat < 50000 := by
  have h0 := congrFun (hpre c) ValueIdx.ix0
  dsimp only [Cert.Pre_finite_inputs.fn] at h0
  obtain ⟨h01, h2⟩ := IntOp.andi_eq_one.mp h0
  obtain ⟨_, h1⟩ := IntOp.andi_eq_one.mp h01
  -- the predicate's result has one index
  haveI : Subsingleton Cert.Pre_finite_inputs.S_.Idx := ⟨fun a b => funext fun d => d.elim0⟩
  have g1 := Host.reduce_andi_all _ _ _ _ _ h1 (ix2 (0 : Fin 1) e)
  have g2 := Host.reduce_andi_all _ _ _ _ _ h2 (ix2 (0 : Fin 1) e)
  have hs : extractStridedSlice Cert.Pre_finite_inputs.S1x500000 ![0, 0] (m ((c.tc : Thread nD τ).loc main_arg1))
        Cert.Pre_finite_inputs.Facts.slices_S2x500000_S1x500000_0_0 (ix2 (0 : Fin 1) e)
      = (m ((c.tc : Thread nD τ).loc main_arg1) : IVec S2x500000 32) (ix2 (0 : Fin 2) e) :=
    extractStridedSlice_apply ![0, 0] _ _ (ix2 (0 : Fin 1) e) (ix2 (0 : Fin 2) e) (by
      intro a; fin_cases a <;> simp [ix2])
  rw [← hs]
  exact toNat_lt_of_range g1 g2

end Cert.KernelIdeal.Hand

end
-- ==== Proof.KernelIdeal.KernelValue.lean ====
/-
  The kernel's result buffer at the end of its run is the reference's result term of the same arguments, under the
  precondition that every source index is a node number below 50000.
-/
import proofs.«417799_j32796370273059_1_alg».proof.Proof.KernelIdeal.Vals
import proofs.«417799_j32796370273059_1_alg».proof.Proof.KernelIdeal.Value0
import proofs.«417799_j32796370273059_1_alg».proof.Proof.KernelIdeal.Value1
import proofs.«417799_j32796370273059_1_alg».proof.Proof.Bridge
import proofs.«417799_j32796370273059_1_alg».proof.Proof.KernelIdeal.PreRow
import proofs.«417799_j32796370273059_1_alg».proof.Proof.Gen.Pre_finite_inputs
import proofs.«417799_j32796370273059_1_alg».proof.Defs
import Idealize.ShloMosaic.Lib.StableHlo.Run
import Idealize.ShloMosaic.Lib.StableHlo.Predicate
import Idealize.ShloMosaic.Lib.ReduceAll

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The buffers the gather call is entered with, as functions of the arguments. -/
theorem V3_v8 (c : Dev nD) : V3 m c main_v8 = rowsCol (m ((c.tc : Thread nD τ).loc main_arg1)) := by
  show StableHlo.after hostOps0_2 (StableHlo.after hostOps0_1 (StableHlo.after hostOps0 (fun b => m (c, b)))) (Proc.devRef .tc main_v8) = _
  after_results
  rfl
theorem V3_v7 (c : Dev nD) : V3 m c main_v7 = xpad (F := Ideal) (m ((c.tc : Thread nD τ).loc main_arg0)) := by
  show StableHlo.after hostOps0_2 (StableHlo.after hostOps0_1 (StableHlo.after hostOps0 (fun b => m (c, b)))) (Proc.devRef .tc main_v7) = _
  after_results
  simp only [StableHlo.TRef.ofBuf, StableHlo.TRef.toBuf, cast_eq]
  rfl
theorem V3_v9 (c : Dev nD) : V3 m c main_v9 = colsRow (m ((c.tc : Thread nD τ).loc main_arg1)) := by
  show StableHlo.after hostOps0_2 (StableHlo.after hostOps0_1 (StableHlo.after hostOps0 (fun b => m (c, b)))) (Proc.devRef .tc main_v9) = _
  after_results
  rfl

/-- THE KERNEL'S RESULT is the reference's term of the same arguments. -/
theorem kernel_eq_ref (hpre : Cert.Pre_KernelIdeal m) (c : Dev nD) :
    W6 m c (Proc.devRef .tc main_v12)
      = Cert.ReferenceIdeal.Hand.refVal (F := Ideal) (m ((c.tc : Thread nD τ).loc main_arg0)) (m ((c.tc : Thread nD τ).loc main_arg1)) := by
  -- the closing slice reads the scatter call's output array
  have h6 : W6 m c (Proc.devRef .tc main_v12) = outRows (F := Ideal) (W5 m c (Proc.devRef .tc main_v11)) := by
    show StableHlo.after hostOps2 (W5 m c) (Proc.devRef .tc main_v12) = _
    after_results
    rfl
  -- the scatter call's output array, from the buffers it is entered with
  have h5 : W5 m c (Proc.devRef .tc main_v11) = Cert.Spec.G1 (V4 m c main_v9) (V4 m c main_v10) :=
    (W5_arr m c 2).trans (final1 (V4 m) c)
  -- the target indices are no array of the gather call: as the host operations left them
  have h9 : V4 m c main_v9 = colsRow (m ((c.tc : Thread nD τ).loc main_arg1)) :=
    (W4_of_ne m c main_v9 (by decide)).trans (V3_v9 m c)
  -- the gathered rows are the gather call's output array
  have h10 : V4 m c main_v10 = Cert.Spec.G0 (V3 m c main_v8) (V3 m c main_v7) :=
    (W4_arr m c 2).trans (final0 (V3 m) c)
  rw [h6, h5, h9, h10, V3_v8, V3_v7]
  exact Cert.Bridge.bridge _ _ (row_lt_of_pre m hpre c)

end Cert.KernelIdeal.Hand

end
-- ==== Proof.LibAfter.lean ====
/-
  The contents of a buffer after a line of host operations, read one operation at a time.

  Every buffer of a printed program is written by one operation. So what the line leaves in the buffer operation k
  writes is what operation k left there, and that is its function applied to what the WHOLE line leaves in the buffers
  it reads, since no operation from k on writes those. The bookkeeping is a list ys of the references the operations
  write, in order: "x is not written from position k on" is "x is not among ys from position k on", a decidable
  question about a list of references.
-/
import Idealize.ShloMosaic.Lib.StableHlo.Run

noncomputable section

namespace Cert.LibAfter

open Idealize.ShloMosaic Idealize.ShloMosaic.StableHlo

variable {τ : Topo} {sig : RefSig} {Val : EltTy → Type}

/-- The contents after two lines run one after the other. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A buffer no operation from position k on writes holds what the first k operations left. -/
theorem after_take (ops : List (HloOp τ sig Val)) (k : Nat) (V : Valuation τ sig Val) (b : DevRef τ sig)
    (h : ∀ o ∈ ops.drop k, b ∉ o.writes) : after ops V b = after (ops.take k) V b := by
  conv_lhs => rw [← List.take_append_drop k ops]
  rw [after_append, after_of_forall_not_mem _ _ h]

/-- A buffer no operation after position k writes holds what operation k left, run on what the first k operations left. -/
theorem after_at (ops : List (HloOp τ sig Val)) (k : Nat) (hk : k < ops.length) (V : Valuation τ sig Val)
    (b : DevRef τ sig) (h : ∀ o ∈ ops.drop (k + 1), b ∉ o.writes) :
    after ops V b = (ops[k]).result (after (ops.take k) V) b := by
  conv_lhs => rw [← List.take_append_drop k ops, List.drop_eq_getElem_cons hk]
  rw [after_append, after_cons, after_of_forall_not_mem _ _ h]

/-- The line writes, operation by operation, exactly the references ys, one each. -/
def Writes (ops : List (HloOp τ sig Val)) (ys : List (Ref sig .tc)) : Prop :=
  ops.map (fun o => o.writes) = ys.map fun y => ({Proc.devRef .tc y} : Finset (DevRef τ sig))

/-- A reference that is not among ys from position k on is written by no operation from position k on. -/
theorem Writes.not_written {ops : List (HloOp τ sig Val)} {ys : List (Ref sig .tc)} (hW : Writes ops ys) (k : Nat)
    (x : Ref sig .tc) (hx : x ∉ ys.drop k) : ∀ o ∈ ops.drop k, (Proc.devRef .tc x : DevRef τ sig) ∉ o.writes := by
  intro o ho hmem
  have h1 : o.writes ∈ (ops.drop k).map (fun o => o.writes) := List.mem_map_of_mem ho
  rw [List.map_drop, hW, ← List.map_drop] at h1
  obtain ⟨y', hy', he⟩ := List.mem_map.mp h1
  rw [← he, Finset.mem_singleton] at hmem
  have hxy : x = y' := Proc.devRef_injective _ hmem
  exact hx (hxy ▸ hy')

variable {ops : List (HloOp τ sig Val)} {ys : List (Ref sig .tc)}

/-- What the line leaves in the buffer operation k writes: operation k's result on what the first k operations left. -/
theorem Writes.at (hW : Writes ops ys) (V : Valuation τ sig Val) (k : Nat) {op : HloOp τ sig Val} {y : Ref sig .tc}
    (hop : ops[k]? = some op) (hy : y ∉ ys.drop (k + 1)) :
    after ops V (Proc.devRef .tc y) = op.result (after (ops.take k) V) (Proc.devRef .tc y) := by
  obtain ⟨hk, he⟩ := List.getElem?_eq_some_iff.mp hop
  rw [after_at ops k hk V _ (hW.not_written (k + 1) y hy), he]

/-- A buffer not written from position k on: what the first k operations left there is what the whole line leaves. -/
theorem Writes.back (hW : Writes ops ys) (V : Valuation τ sig Val) (k : Nat) (x : Ref sig .tc) (hx : x ∉ ys.drop k) :
    after (ops.take k) V (Proc.devRef .tc x) = after ops V (Proc.devRef .tc x) :=
  (after_take ops k V _ (hW.not_written k x hx)).symm

/-- A buffer the line never writes keeps its contents. -/
theorem Writes.kept (hW : Writes ops ys) (V : Valuation τ sig Val) (x : Ref sig .tc) (hx : x ∉ ys) :
    after ops V (Proc.devRef .tc x) = V (Proc.devRef .tc x) :=
  after_of_forall_not_mem ops V (hW.not_written 0 x hx)

/-! ## One operation: its result buffer from its operands' buffers, all after the whole line -/

theorem Writes.nullary (hW : Writes ops ys) (V : Valuation τ sig Val) (k : Nat) {y : Ref sig .tc} {v : y.ty.Contents Val} {hy}
    (hop : ops[k]? = some (nullary y v hy)) (hy' : y ∉ ys.drop (k + 1)) :
    after ops V (Proc.devRef .tc y) = v := by
  rw [hW.at V k hop hy', nullary_result]

theorem Writes.unary (hW : Writes ops ys) (V : Valuation τ sig Val) (k : Nat) {x y : Ref sig .tc}
    {f : x.ty.Contents Val → y.ty.Contents Val} {hx hy}
    (hop : ops[k]? = some (unary x y f hx hy)) (hy' : y ∉ ys.drop (k + 1)) (hx' : x ∉ ys.drop k) :
    after ops V (Proc.devRef .tc y) = f (after ops V (Proc.devRef .tc x)) := by
  rw [hW.at V k hop hy', unary_result]
  exact congrArg f (hW.back V k x hx')

theorem Writes.binary (hW : Writes ops ys) (V : Valuation τ sig Val) (k : Nat) {a b y : Ref sig .tc}
    {f : a.ty.Contents Val → b.ty.Contents Val → y.ty.Contents Val} {ha hb hy}
    (hop : ops[k]? = some (binary a b y f ha hb hy)) (hy' : y ∉ ys.drop (k + 1)) (ha' : a ∉ ys.drop k)
    (hb' : b ∉ ys.drop k) :
    after ops V (Proc.devRef .tc y) = f (after ops V (Proc.devRef .tc a)) (after ops V (Proc.devRef .tc b)) := by
  rw [hW.at V k hop hy', binary_result]
  exact congrArg₂ f (hW.back V k a ha') (hW.back V k b hb')

theorem Writes.ternary (hW : Writes ops ys) (V : Valuation τ sig Val) (k : Nat) {c a b y : Ref sig .tc}
    {f : c.ty.Contents Val → a.ty.Contents Val → b.ty.Contents Val → y.ty.Contents Val} {hc ha hb hy}
    (hop : ops[k]? = some (ternary c a b y f hc ha hb hy)) (hy' : y ∉ ys.drop (k + 1)) (hc' : c ∉ ys.drop k)
    (ha' : a ∉ ys.drop k) (hb' : b ∉ ys.drop k) :
    after ops V (Proc.devRef .tc y)
      = f (after ops V (Proc.devRef .tc c)) (after ops V (Proc.devRef .tc a)) (after ops V (Proc.devRef .tc b)) := by
  rw [hW.at V k hop hy', ternary_result, hW.back V k c hc', hW.back V k a ha', hW.back V k b hb']

theorem Writes.reshape (hW : Writes ops ys) (V : Valuation τ sig Val) (k : Nat) {x y : Ref sig .tc}
    {he : x.ty.elt = y.ty.elt} {hn : x.ty.shape.ShapeCasts y.ty.shape} {hx hy}
    (hop : ops[k]? = some (reshape x y he hn hx hy)) (hy' : y ∉ ys.drop (k + 1)) (hx' : x ∉ ys.drop k) :
    after ops V (Proc.devRef .tc y) = fun i => he ▸ shapeCast y.ty.shape (after ops V (Proc.devRef .tc x)) hn i := by
  rw [hW.at V k hop hy', reshape_result, hW.back V k x hx']

/-! ## The same for an operation of a called function

  A called function's operation names its buffers through typed references and carries contents across the equation
  "the buffer's type is the value's type". When that equation is the reflexive one the transport is the identity, and
  the operation's function applies to the buffers' contents as they are. -/

theorem Writes.tunary (hW : Writes ops ys) (V : Valuation τ sig Val) (k : Nat) {x y : Ref sig .tc} {ox ux oy uy}
    {g : x.ty.Contents Val → y.ty.Contents Val}
    (hop : ops[k]? = some (TRef.unary (⟨x, rfl, ox, ux⟩ : TRef sig x.ty) (⟨y, rfl, oy, uy⟩ : TRef sig y.ty) g))
    (hy' : y ∉ ys.drop (k + 1)) (hx' : x ∉ ys.drop k) :
    after ops V (Proc.devRef .tc y) = g (after ops V (Proc.devRef .tc x)) := by
  have h := hW.unary V k hop hy' hx'
  simpa only [TRef.toBuf, TRef.ofBuf, cast_eq] using h

theorem Writes.tbinary (hW : Writes ops ys) (V : Valuation τ sig Val) (k : Nat) {a b y : Ref sig .tc} {oa ua ob ub oy uy}
    {g : a.ty.Contents Val → b.ty.Contents Val → y.ty.Contents Val}
    (hop : ops[k]? = some (TRef.binary (⟨a, rfl, oa, ua⟩ : TRef sig a.ty) (⟨b, rfl, ob, ub⟩ : TRef sig b.ty)
      (⟨y, rfl, oy, uy⟩ : TRef sig y.ty) g))
    (hy' : y ∉ ys.drop (k + 1)) (ha' : a ∉ ys.drop k) (hb' : b ∉ ys.drop k) :
    after ops V (Proc.devRef .tc y) = g (after ops V (Proc.devRef .tc a)) (after ops V (Proc.devRef .tc b)) := by
  have h := hW.binary V k hop hy' ha' hb'
  simpa only [TRef.toBuf, TRef.ofBuf, cast_eq] using h

theorem Writes.tternary (hW : Writes ops ys) (V : Valuation τ sig Val) (k : Nat) {c a b y : Ref sig .tc}
    {oc uc oa ua ob ub oy uy} {g : c.ty.Contents Val → a.ty.Contents Val → b.ty.Contents Val → y.ty.Contents Val}
    (hop : ops[k]? = some (TRef.ternary (⟨c, rfl, oc, uc⟩ : TRef sig c.ty) (⟨a, rfl, oa, ua⟩ : TRef sig a.ty)
      (⟨b, rfl, ob, ub⟩ : TRef sig b.ty) (⟨y, rfl, oy, uy⟩ : TRef sig y.ty) g))
    (hy' : y ∉ ys.drop (k + 1)) (hc' : c ∉ ys.drop k) (ha' : a ∉ ys.drop k) (hb' : b ∉ ys.drop k) :
    after ops V (Proc.devRef .tc y)
      = g (after ops V (Proc.devRef .tc c)) (after ops V (Proc.devRef .tc a)) (after ops V (Proc.devRef .tc b)) := by
  have h := hW.ternary V k hop hy' hc' ha' hb'
  simpa only [TRef.toBuf, TRef.ofBuf, cast_eq] using h

end Cert.LibAfter

end
-- ==== Proof.RefRun.lean ====
/-
  The reference program run from launch to return: its @main is thirty-odd host operations (two slices and two
  flattenings of the index array, the take of the rows of x with its wrap, range test and fill, a zero table, and the
  accumulating scatter), so every weakly fair execution terminates with the result buffer at the operations' composed
  term of the two arguments (refVal) and the arguments unchanged.
-/
import proofs.«417799_j32796370273059_1_alg».proof.Proof.RefSpec
import proofs.«417799_j32796370273059_1_alg».proof.Proof.LibAfter
import proofs.«417799_j32796370273059_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the take and its inner select unfolded at the call: the two index rows sliced and
    flattened (four), the take's twenty-three over the call's own buffers (the wrap of a negative index: the zero and
    the table height broadcast, the comparison, the sum, the select; the wrapped index as a column; the range test
    against zero and the last row, reduced over the column; the gather; the fill value broadcast; the select), then
    the zero table, the target indices as a column, and the accumulating scatter. -/
abbrev ops : List (HloOp τ sig (Elt F)) :=
  [ unary main_arg1 main_v0 ((extractStridedSlice S1x500000 ![0, 0] · slices_S2x500000_S1x500000_0_0) : (⟨S2x500000, .i32⟩ : BufTy).Contents (Elt F) → (⟨S1x500000, .i32⟩ : BufTy).Contents (Elt F)),
    reshape main_v0 main_v1 rfl shapeCasts_S1x500000_S500000,
    unary main_arg1 main_v2 ((extractStridedSlice S1x500000 ![1, 0] · slices_S2x500000_S1x500000_1_0) : (⟨S2x500000, .i32⟩ : BufTy).Contents (Elt F) → (⟨S1x500000, .i32⟩ : BufTy).Contents (Elt F)),
    reshape main_v2 main_v3 rfl shapeCasts_S1x500000_S500000,
    TRef.nullary main_call0.c (constantI S_ 32 0#32),
    TRef.unary main_call0.c main_call0.v0 (broadcastInDim S500000 ![] bcast_S_S500000),
    TRef.binary (.of main_v1) main_call0.v0 main_call0.v1 (cmpi .slt),
    TRef.nullary main_call0.c_0 (constantI S_ 32 50000#32),
    TRef.unary main_call0.c_0 main_call0.v2 (broadcastInDim S500000 ![] bcast_S_S500000),
    TRef.binary (.of main_v1) main_call0.v2 main_call0.v3 addi,
    TRef.ternary main_call0.v1 main_call0.v3 (.of main_v1) main_call0.call0.v0 select,
    TRef.unary main_call0.call0.v0 main_call0.v5 (broadcastInDim S500000x1 ![0] bcast_S500000_S500000x1_0),
    TRef.nullary main_call0.c_1 (constantI S1 32 49999#32),
    TRef.nullary main_call0.c_2 (constantI S_ 32 0#32),
    TRef.unary main_call0.c_2 main_call0.v6 (broadcastInDim S500000x1 ![] bcast_S_S500000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S500000x1 ![0, 1] bcast_S1x1_S500000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S500000x1_S500000_d1 h_S_),
    TRef.binary (.of main_arg0) main_call0.v5 main_call0.v13 (fun x i => Host.gather gather_S50000x128_S500000x1_S500000x128_1_0_n_n_0_1_1128 x i),
    TRef.unary main_call0.v12 main_call0.v14 (broadcastInDim S500000x128 ![0] bcast_S500000_S500000x128_0),
    TRef.nullary main_call0.cst (constant S_ .f32 0x7FC00000#32),
    TRef.unary main_call0.cst main_call0.v15 (broadcastInDim S500000x128 ![] bcast_S_S500000x128),
    TRef.ternary main_call0.v14 main_call0.v13 main_call0.v15 main_call0.v16 select,
    nullary main_cst (constant S_ .f32 0x00000000#32),
    unary main_cst main_v5 (broadcastInDim S50000x128 ![] bcast_S_S50000x128 : (⟨S_, .f32⟩ : BufTy).Contents (Elt F) → (⟨S50000x128, .f32⟩ : BufTy).Contents (Elt F)),
    unary main_v3 main_v6 (broadcastInDim S500000x1 ![0] bcast_S500000_S500000x1_0 : (⟨S500000, .i32⟩ : BufTy).Contents (Elt F) → (⟨S500000x1, .i32⟩ : BufTy).Contents (Elt F)),
    ternary main_v5 main_v6 main_v4 main_v7 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)) ]

-- thirty-one binds re-associated under the chain
set_option maxRecDepth 1024 in
/-- @main is that straight line: the two functions' definitions unfolded at their calls and the record at its fields,
    both sides are one chain of host steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., unary_bufs_sub .., unary_bufs_sub .., ternary_bufs_sub ..⟩

/-- On the device, from any memory with zero counters: every weakly fair execution of @main terminates with each
    buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

open Cert.LibAfter in
/-- A called function's constant: its buffer holds the constant after the whole line (the transport across "the
    buffer's type is the value's type" is the identity when that equation is the reflexive one). -/
theorem tnullary {τ' : Topo} {sig' : RefSig} {Val : EltTy → Type} {l : List (HloOp τ' sig' Val)} {ws : List (Ref sig' .tc)}
    (hW : Writes l ws) (V : Valuation τ' sig' Val) (k : Nat) {y : Ref sig' .tc} {oy uy} {v : y.ty.Contents Val}
    (hop : l[k]? = some (TRef.nullary (⟨y, rfl, oy, uy⟩ : TRef sig' y.ty) v)) (hy' : y ∉ ws.drop (k + 1)) :
    after l V (Proc.devRef .tc y) = v := by
  have h := hW.nullary V k hop hy'
  simpa only [TRef.toBuf, cast_eq] using h

/-- The buffers the operations write, in order: one each. -/
abbrev ys : List (Ref sig .tc) :=
  [ main_v0, main_v1, main_v2, main_v3, main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v4, main_cst, main_v5, main_v6, main_v7 ]

open Cert.LibAfter in
theorem ops_writes : Writes (ops : List (HloOp τ sig (Elt F))) ys := rfl

open Cert.LibAfter in
set_option maxHeartbeats 400000 in
/-- The result buffer after the line, read one operation at a time from the last: each buffer holds its operation's
    function of what the line leaves in the operands' buffers, the two argument buffers what they held. -/
theorem out_eq (V : Valuation τ sig (Elt F)) :
    after ops V (Proc.devRef .tc main_v7) = refVal (V (Proc.devRef .tc main_arg0)) (V (Proc.devRef .tc main_arg1)) := by
  have hW : Writes (ops : List (HloOp τ sig (Elt F))) ys := ops_writes
  have h0 : after ops V (Proc.devRef .tc main_v0) = extractStridedSlice S1x500000 ![0, 0] (after ops V (Proc.devRef .tc main_arg1)) slices_S2x500000_S1x500000_0_0 :=
    hW.unary V 0 rfl (by decide) (by decide)
  have h1 : after ops V (Proc.devRef .tc main_v1) = shapeCast S500000 (after ops V (Proc.devRef .tc main_v0)) shapeCasts_S1x500000_S500000 :=
    hW.reshape V 1 rfl (by decide) (by decide)
  have h2 : after ops V (Proc.devRef .tc main_v2) = extractStridedSlice S1x500000 ![1, 0] (after ops V (Proc.devRef .tc main_arg1)) slices_S2x500000_S1x500000_1_0 :=
    hW.unary V 2 rfl (by decide) (by decide)
  have h3 : after ops V (Proc.devRef .tc main_v3) = shapeCast S500000 (after ops V (Proc.devRef .tc main_v2)) shapeCasts_S1x500000_S500000 :=
    hW.reshape V 3 rfl (by decide) (by decide)
  have h4 : after ops V (Proc.devRef .tc main_call0_c) = constantI S_ 32 0#32 :=
    tnullary hW V 4 rfl (by decide)
  have h5 : after ops V (Proc.devRef .tc main_call0_v0) = broadcastInDim S500000 ![] bcast_S_S500000 (after ops V (Proc.devRef .tc main_call0_c)) :=
    hW.tunary V 5 rfl (by decide) (by decide)
  have h6 : after ops V (Proc.devRef .tc main_call0_v1) = cmpi .slt (after ops V (Proc.devRef .tc main_v1)) (after ops V (Proc.devRef .tc main_call0_v0)) :=
    hW.tbinary V 6 rfl (by decide) (by decide) (by decide)
  have h7 : after ops V (Proc.devRef .tc main_call0_c_0) = constantI S_ 32 50000#32 :=
    tnullary hW V 7 rfl (by decide)
  have h8 : after ops V (Proc.devRef .tc main_call0_v2) = broadcastInDim S500000 ![] bcast_S_S500000 (after ops V (Proc.devRef .tc main_call0_c_0)) :=
    hW.tunary V 8 rfl (by decide) (by decide)
  have h9 : after ops V (Proc.devRef .tc main_call0_v3) = addi (after ops V (Proc.devRef .tc main_v1)) (after ops V (Proc.devRef .tc main_call0_v2)) :=
    hW.tbinary V 9 rfl (by decide) (by decide) (by decide)
  have h10 : after ops V (Proc.devRef .tc main_call0_v4) = select (after ops V (Proc.devRef .tc main_call0_v1)) (after ops V (Proc.devRef .tc main_call0_v3)) (after ops V (Proc.devRef .tc main_v1)) :=
    hW.tternary V 10 rfl (by decide) (by decide) (by decide) (by decide)
  have h11 : after ops V (Proc.devRef .tc main_call0_v5) = broadcastInDim S500000x1 ![0] bcast_S500000_S500000x1_0 (after ops V (Proc.devRef .tc main_call0_v4)) :=
    hW.tunary V 11 rfl (by decide) (by decide)
  have h12 : after ops V (Proc.devRef .tc main_call0_c_1) = constantI S1 32 49999#32 :=
    tnullary hW V 12 rfl (by decide)
  have h13 : after ops V (Proc.devRef .tc main_call0_c_2) = constantI S_ 32 0#32 :=
    tnullary hW V 13 rfl (by decide)
  have h14 : after ops V (Proc.devRef .tc main_call0_v6) = broadcastInDim S500000x1 ![] bcast_S_S500000x1 (after ops V (Proc.devRef .tc main_call0_c_2)) :=
    hW.tunary V 14 rfl (by decide) (by decide)
  have h15 : after ops V (Proc.devRef .tc main_call0_v7) = cmpi .sge (after ops V (Proc.devRef .tc main_call0_v5)) (after ops V (Proc.devRef .tc main_call0_v6)) :=
    hW.tbinary V 15 rfl (by decide) (by decide) (by decide)
  have h16 : after ops V (Proc.devRef .tc main_call0_v8) = broadcastInDim S1x1 ![1] bcast_S1_S1x1_1 (after ops V (Proc.devRef .tc main_call0_c_1)) :=
    hW.tunary V 16 rfl (by decide) (by decide)
  have h17 : after ops V (Proc.devRef .tc main_call0_v9) = broadcastInDim S500000x1 ![0, 1] bcast_S1x1_S500000x1_0_1 (after ops V (Proc.devRef .tc main_call0_v8)) :=
    hW.tunary V 17 rfl (by decide) (by decide)
  have h18 : after ops V (Proc.devRef .tc main_call0_v10) = cmpi .sle (after ops V (Proc.devRef .tc main_call0_v5)) (after ops V (Proc.devRef .tc main_call0_v9)) :=
    hW.tbinary V 18 rfl (by decide) (by decide) (by decide)
  have h19 : after ops V (Proc.devRef .tc main_call0_v11) = andi (after ops V (Proc.devRef .tc main_call0_v7)) (after ops V (Proc.devRef .tc main_call0_v10)) :=
    hW.tbinary V 19 rfl (by decide) (by decide) (by decide)
  have h20 : after ops V (Proc.devRef .tc main_call0_c_3) = constantI S_ 1 1#1 :=
    tnullary hW V 20 rfl (by decide)
  have h21 : after ops V (Proc.devRef .tc main_call0_v12) = Host.reduce IntOp.andi (after ops V (Proc.devRef .tc main_call0_v11)) (after ops V (Proc.devRef .tc main_call0_c_3)) reducesTo_S500000x1_S500000_d1 h_S_ :=
    hW.tbinary V 21 rfl (by decide) (by decide) (by decide)
  have h22 : after ops V (Proc.devRef .tc main_call0_v13) = Host.gather gather_S50000x128_S500000x1_S500000x128_1_0_n_n_0_1_1128 (after ops V (Proc.devRef .tc main_arg0)) (after ops V (Proc.devRef .tc main_call0_v5)) :=
    hW.tbinary V 22 rfl (by decide) (by decide) (by decide)
  have h23 : after ops V (Proc.devRef .tc main_call0_v14) = broadcastInDim S500000x128 ![0] bcast_S500000_S500000x128_0 (after ops V (Proc.devRef .tc main_call0_v12)) :=
    hW.tunary V 23 rfl (by decide) (by decide)
  have h24 : after ops V (Proc.devRef .tc main_call0_cst) = constant (F := F) S_ .f32 0x7FC00000#32 :=
    tnullary hW V 24 rfl (by decide)
  have h25 : after ops V (Proc.devRef .tc main_call0_v15) = broadcastInDim S500000x128 ![] bcast_S_S500000x128 (after ops V (Proc.devRef .tc main_call0_cst)) :=
    hW.tunary V 25 rfl (by decide) (by decide)
  have h26 : after ops V (Proc.devRef .tc main_v4) = select (after ops V (Proc.devRef .tc main_call0_v14)) (after ops V (Proc.devRef .tc main_call0_v13)) (after ops V (Proc.devRef .tc main_call0_v15)) :=
    hW.tternary V 26 rfl (by decide) (by decide) (by decide) (by decide)
  have h27 : after ops V (Proc.devRef .tc main_cst) = constant (F := F) S_ .f32 0x00000000#32 :=
    hW.nullary V 27 rfl (by decide)
  have h28 : after ops V (Proc.devRef .tc main_v5) = broadcastInDim S50000x128 ![] bcast_S_S50000x128 (after ops V (Proc.devRef .tc main_cst)) :=
    hW.unary V 28 rfl (by decide) (by decide)
  have h29 : after ops V (Proc.devRef .tc main_v6) = broadcastInDim S500000x1 ![0] bcast_S500000_S500000x1_0 (after ops V (Proc.devRef .tc main_v3)) :=
    hW.unary V 29 rfl (by decide) (by decide)
  have h30 : after ops V (Proc.devRef .tc main_v7) = Host.scatterAdd scatter_S50000x128_S500000x1_S500000x128_1_0_0_1 (after ops V (Proc.devRef .tc main_v5)) (after ops V (Proc.devRef .tc main_v6)) (after ops V (Proc.devRef .tc main_v4)) :=
    hW.ternary V 30 rfl (by decide) (by decide) (by decide) (by decide)
  have k0 : after ops V (Proc.devRef .tc main_arg0) = V (Proc.devRef .tc main_arg0) := hW.kept V main_arg0 (by decide)
  have k1 : after ops V (Proc.devRef .tc main_arg1) = V (Proc.devRef .tc main_arg1) := hW.kept V main_arg1 (by decide)
  rw [h30, h29, h28, h27, h26, h25, h24, h23, h22, h21, h20, h19, h18, h17, h16, h15, h14, h13, h12, h11, h10, h9, h8, h7, h6, h5, h4, h3, h2, h1, h0, k0, k1]
  rfl

/-- THE REFERENCE'S RUN: on the device, for any float values, from any memory with zero counters, every weakly fair
    execution of @main terminates with the result buffer at the composed term of the two arguments and the arguments
    unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v7) = refVal (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  exact (θ_run defs _ _).mono (fun _ h c => ⟨(h c main_v7).trans (out_eq _),
      (h c main_arg0).trans (Cert.LibAfter.Writes.kept ops_writes _ main_arg0 (by decide)),
      (h c main_arg1).trans (Cert.LibAfter.Writes.kept ops_writes _ main_arg1 (by decide))⟩)
    (run_main m ρ)

end Cert.ReferenceIdeal.Hand

end
-- ==== Proof.lean ====
/-
  The certificate's five claims.

  The kernel does the gather x[source] and the segment sum over targets as two pipelined one-hot matrix products. Its
  program runs (the frame): four stretches of host operations and two pipelined calls composed in order, each call's
  accumulator carried from grid point to grid point by an invariant; the same text read at the word level and at the
  exact reals gives the first two frames. The reference's program is a line of host operations, run directly. The
  idealization rewrote no operation, so preserves is trivial. At the exact reals, under the precondition that every
  source index is a node number below 50000, the kernel's result array ends at the reference's result term of the
  same arguments: each call's output is one whole-array function of its inputs (a sum with at most one surviving
  term per edge, then a sum over the edges with a given target), the padding edges and padding rows contribute
  nothing below row 50000, and the reference's take and accumulating scatter read, entry by entry, as the same sums.
-/
import proofs.«417799_j32796370273059_1_alg».proof.Defs
import proofs.«417799_j32796370273059_1_alg».proof.Proof.Gen.Kernel
import proofs.«417799_j32796370273059_1_alg».proof.Proof.Gen.KernelIdeal
import proofs.«417799_j32796370273059_1_alg».proof.Proof.Gen.ReferenceIdeal
import proofs.«417799_j32796370273059_1_alg».proof.Proof.Gen.Pre_finite_inputs
import proofs.«417799_j32796370273059_1_alg».proof.Proof.Kernel.Frame
import proofs.«417799_j32796370273059_1_alg».proof.Proof.KernelIdeal.Frame
import proofs.«417799_j32796370273059_1_alg».proof.Proof.KernelIdeal.KernelValue
import proofs.«417799_j32796370273059_1_alg».proof.Proof.RefRun
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_kernel : Cert.frame_Kernel := fun m ρ _ => Cert.Kernel.Hand.frame (F := Bits) m ρ

/-- So does the idealized program. -/
theorem frame_kernelIdeal : Cert.frame_KernelIdeal := fun m ρ _ => Cert.KernelIdeal.Hand.frame (F := Ideal) m ρ

/-- The reference runs: its run with the result dropped. -/
theorem frame_referenceIdeal : Cert.frame_ReferenceIdeal := fun m ρ _ =>
  (θ_run Cert.ReferenceIdeal.defs _ _).mono (fun _ h c => (h c).2) (Cert.ReferenceIdeal.Hand.ref_run (F := Ideal) m ρ)

/-- The idealization rewrote nothing. -/
theorem preserves : Cert.preserves_Kernel_KernelIdeal := trivial

/-- At the exact reals both programs end with the same result: the kernel's result array at the last boundary's
    contents, which is the reference's term of the arguments, and the reference's at that term. -/
theorem algebraic : Cert.algebraic_KernelIdeal_ReferenceIdeal := by
  intro m ρ m' ρ' hpre hagree
  refine ⟨fun c => Cert.KernelIdeal.Hand.W6 m c (Proc.devRef .tc Cert.KernelIdeal.main_v12),
    Cert.KernelIdeal.Hand.run_result (F := Ideal) m ρ, ?_⟩
  refine (θ_run Cert.ReferenceIdeal.defs _ _).mono (fun _ h c => ⟨(h c).1.trans ?_, (h c).2⟩)
    (Cert.ReferenceIdeal.Hand.ref_run (F := Ideal) m' ρ')
  rw [(hagree c).1, (hagree c).2]
  exact (Cert.KernelIdeal.Hand.kernel_eq_ref m hpre c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
